-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32000x2048 : Shape := ⟨2, ![32000, 2048]⟩
abbrev S8x512x2048 : Shape := ⟨3, ![8, 512, 2048]⟩
abbrev S8x512 : Shape := ⟨2, ![8, 512]⟩
abbrev S32000 : Shape := ⟨1, ![32000]⟩
abbrev S_ : Shape := ⟨0, ![]⟩

class Facts : Prop where
  bcast_S_S32000x2048 : S_.BroadcastsInDim S32000x2048 (![] : Fin 0 → Fin S32000x2048.rank)
  reducesTo_S32000x2048_S_d0_1 : S32000x2048.ReducesTo [0, 1] S_
  h_S_ : 0 < S_.numel
  bcast_S_S8x512x2048 : S_.BroadcastsInDim S8x512x2048 (![] : Fin 0 → Fin S8x512x2048.rank)
  reducesTo_S8x512x2048_S_d0_1_2 : S8x512x2048.ReducesTo [0, 1, 2] S_
  bcast_S_S32000 : S_.BroadcastsInDim S32000 (![] : Fin 0 → Fin S32000.rank)
  reducesTo_S32000_S_d0 : S32000.ReducesTo [0] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg2 : IVec S8x512 32) (main_v13 : IVec S_ 1) (main_v15 : IVec S8x512 1) (main_c_5 : IVec S_ 32) : IVec S_ 1 :=
  let main_v16 : IVec S8x512 32 := broadcastInDim S8x512 ![] bcast_S_S8x512 main_c_5
  let main_v17 : IVec S8x512 1 := cmpi .slt main_arg2 main_v16
  let main_v18 : IVec S8x512 1 := andi main_v15 main_v17
  let main_c_6 : IVec S_ 1 := constantI S_ 1 1#1
  let main_v19 : IVec S_ 1 := (fun x v => Host.reduce IntOp.andi x v reducesTo_S8x512_S_d0_1 h_S_) main_v18 main_c_6
  let main_v20 : IVec S_ 1 := andi main_v13 main_v19
  main_v20

def fn {F : FTy → Type} [FloatOps F] (main_arg0 : FVec F S32000x2048 .f32) (main_arg1 : FVec F S8x512x2048 .f32) (main_arg2 : IVec S8x512 32) (main_arg3 : FVec F S32000 .f32) : IVec S_ 1 :=
  let main_v0 : FVec F S32000x2048 .f32 := Host.absf main_arg0
  let main_cst : FVec F S_ .f32 := constant S_ .f32 0x7F800000#32
  let main_v1 : FVec F S32000x2048 .f32 := broadcastInDim S32000x2048 ![] bcast_S_S32000x2048 main_cst
  let main_v2 : IVec S32000x2048 1 := cmpf .olt main_v0 main_v1
  let main_c : IVec S_ 1 := constantI S_ 1 1#1
  let main_v3 : IVec S_ 1 := (fun x v => Host.reduce IntOp.andi x v reducesTo_S32000x2048_S_d0_1 h_S_) main_v2 main_c
  let main_v4 : FVec F S8x512x2048 .f32 := Host.absf main_arg1
  let main_cst_0 : FVec F S_ .f32 := constant S_ .f32 0x7F800000#32
  let main_v5 : FVec F S8x512x2048 .f32 := broadcastInDim S8x512x2048 ![] bcast_S_S8x512x2048 main_cst_0
  let main_v6 : IVec S8x512x2048 1 := cmpf .olt main_v4 main_v5
  let main_c_1 : IVec S_ 1 := constantI S_ 1 1#1
  let main_v7 : IVec S_ 1 := (fun x v => Host.reduce IntOp.andi x v reducesTo_S8x512x2048_S_d0_1_2 h_S_) main_v6 main_c_1
  let main_v8 : IVec S_ 1 := andi main_v3 main_v7
  let main_v9 : FVec F S32000 .f32 := Host.absf main_arg3
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  let main_c_4 : IVec S_ 32 := constantI S_ 32 0#32
  let main_v14 : IVec S8x512 32 := broadcastInDim S8x512 ![] bcast_S_S8x512 main_c_4
  let main_v15 : IVec S8x512 1 := cmpi .sge main_arg2 main_v14
  let main_c_5 : IVec S_ 32 := constantI S_ 32 32000#32
  fn_part1 (F := F) main_arg2 main_v13 main_v15 main_c_5
-- ==== Kernel.lean ====
abbrev S32000x2048 : Shape := ⟨2, ![32000, 2048]⟩
abbrev S8x512x2048 : Shape := ⟨3, ![8, 512, 2048]⟩
abbrev S8x512 : Shape := ⟨2, ![8, 512]⟩
abbrev S32000 : Shape := ⟨1, ![32000]⟩
abbrev S4096x2048 : Shape := ⟨2, ![4096, 2048]⟩
abbrev S4096x1 : Shape := ⟨2, ![4096, 1]⟩
abbrev S1x32000 : Shape := ⟨2, ![1, 32000]⟩
abbrev S1024x2048 : Shape := ⟨2, ![1024, 2048]⟩
abbrev S1280x2048 : Shape := ⟨2, ![1280, 2048]⟩
abbrev S1x1280 : Shape := ⟨2, ![1, 1280]⟩
abbrev S1024x1 : Shape := ⟨2, ![1024, 1]⟩
abbrev S1024x1280 : Shape := ⟨2, ![1024, 1280]⟩
abbrev S1024 : Shape := ⟨1, ![1024]⟩
abbrev S_ : Shape := ⟨0, ![]⟩
abbrev S8 : Shape := ⟨1, ![8]⟩
abbrev S4 : Shape := ⟨1, ![4]⟩
abbrev S4x512 : Shape := ⟨2, ![4, 512]⟩

abbrev nBuf : Space → Nat
  | .hbm => 88
  | .vmem => 13
  | .smem => 0
  | _ => 0

abbrev bufTy : (tb : Table) → Fin (tcTables nBuf tb) → BufTy
  | .hbm, ⟨0, _⟩ => ⟨S32000x2048, .f32⟩
  | .hbm, ⟨1, _⟩ => ⟨S8x512x2048, .f32⟩
  | .hbm, ⟨2, _⟩ => ⟨S8x512, .i32⟩
  | .hbm, ⟨3, _⟩ => ⟨S32000, .f32⟩
  | .hbm, ⟨4, _⟩ => ⟨S4096x2048, .f32⟩
  | .hbm, ⟨5, _⟩ => ⟨S4096x2048, .bf16⟩
  | .hbm, ⟨6, _⟩ => ⟨S32000x2048, .bf16⟩
  | .hbm, ⟨7, _⟩ => ⟨S4096x1, .i32⟩
  | .hbm, ⟨8, _⟩ => ⟨S1x32000, .f32⟩
  | .hbm, ⟨9, _⟩ => ⟨S4096x1, .f32⟩
  | .hbm, ⟨10, _⟩ => ⟨S8x512, .f32⟩
  | .hbm, ⟨11, _⟩ => ⟨S_, .i32⟩
  | .hbm, ⟨12, _⟩ => ⟨S8x512, .i32⟩
  | .hbm, ⟨13, _⟩ => ⟨S8x512, .i1⟩
  | .hbm, ⟨14, _⟩ => ⟨S8x512, .f32⟩
  | .hbm, ⟨15, _⟩ => ⟨S8x512, .f32⟩
  | .hbm, ⟨16, _⟩ => ⟨S_, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S4, .f32⟩
  | .hbm, ⟨22, _⟩ => ⟨S4, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x512, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S4, .i1⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S4, .f32⟩
  | .hbm, ⟨53, _⟩ => ⟨S4, .f32⟩
  | .hbm, ⟨54, _⟩ => ⟨S4, .f32⟩
  | .hbm, ⟨55, _⟩ => ⟨S4, .f32⟩
  | .hbm, ⟨56, _⟩ => ⟨S4, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S4, .f32⟩
  | .hbm, ⟨62, _⟩ => ⟨S_, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S4, .i1⟩
  | .hbm, ⟨68, _⟩ => ⟨S4, .f32⟩
  | .hbm, ⟨69, _⟩ => ⟨S4, .f32⟩
  | .hbm, ⟨70, _⟩ => ⟨S4, .f32⟩
  | .hbm, ⟨71, _⟩ => ⟨S4, .f32⟩
  | .hbm, ⟨72, _⟩ => ⟨S4, .f32⟩
  | .hbm, ⟨73, _⟩ => ⟨S4, .f32⟩
  | .hbm, ⟨74, _⟩ => ⟨S4, .f32⟩
  | .hbm, ⟨75, _⟩ => ⟨S4, .f32⟩
  | .hbm, ⟨76, _⟩ => ⟨S4, .f32⟩
  | .hbm, ⟨77, _⟩ => ⟨S_, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1x1280, .f32⟩
  | .local _ .vmem, ⟨5, _⟩ => ⟨S1x1280, .f32⟩
  | .local _ .vmem, ⟨6, _⟩ => ⟨S1024x1, .i32⟩
  | .local _ .vmem, ⟨7, _⟩ => ⟨S1024x1, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S32000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_call0_cst : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_v1 : Ref sig .tc := ⟨.hbm, 54, rfl⟩
abbrev main_v29 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call1_v0 : Ref sig .tc := ⟨.hbm, 61, rfl⟩
abbrev main_call1_call0_cst : Ref sig .tc := ⟨.hbm, 62, rfl⟩
abbrev main_call1_call0_v0 : Ref sig .tc := ⟨.hbm, 63, rfl⟩
abbrev main_call1_call0_v1 : Ref sig .tc := ⟨.hbm, 64, rfl⟩
abbrev main_call1_call0_v2 : Ref sig .tc := ⟨.hbm, 65, rfl⟩
abbrev main_call1_call0_v3 : Ref sig .tc := ⟨.hbm, 66, rfl⟩
abbrev main_call1_call0_v4 : Ref sig .tc := ⟨.hbm, 67, rfl⟩
abbrev main_call1_call0_v5 : Ref sig .tc := ⟨.hbm, 68, rfl⟩
abbrev main_call1_call0_v6 : Ref sig .tc := ⟨.hbm, 69, rfl⟩
abbrev main_call1_call0_v7 : Ref sig .tc := ⟨.hbm, 70, rfl⟩
abbrev main_call1_call0_v8 : Ref sig .tc := ⟨.hbm, 71, rfl⟩
abbrev main_call1_call0_v9 : Ref sig .tc := ⟨.hbm, 72, rfl⟩
abbrev main_call1_call0_v10 : Ref sig .tc := ⟨.hbm, 73, rfl⟩
abbrev main_call1_call0_v11 : Ref sig .tc := ⟨.hbm, 74, rfl⟩
abbrev main_call1_v1 : Ref sig .tc := ⟨.hbm, 75, rfl⟩
abbrev main_v34 : Ref sig .tc := ⟨.hbm, 76, rfl⟩
abbrev main_cst_6 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_7 : Ref sig .tc := ⟨.hbm, 81, rfl⟩
abbrev main_v38 : Ref sig .tc := ⟨.hbm, 82, rfl⟩
abbrev main_cst_8 : Ref sig .tc := ⟨.hbm, 83, rfl⟩
abbrev main_v39 : Ref sig .tc := ⟨.hbm, 84, rfl⟩
abbrev main_cst_9 : Ref sig .tc := ⟨.hbm, 85, rfl⟩
abbrev main_v40 : Ref sig .tc := ⟨.hbm, 86, rfl⟩
abbrev main_v41 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v50 : BitVec 1 := Scalar.cmpi .eq arg1 c24_i32
  let v51 : BitVec 32 := Scalar.extui v50
  let c0_i32_26 : BitVec 32 := 0#32
  let v52 : BitVec 1 := Scalar.cmpi .ne v51 c0_i32_26
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8x512x2048_S4096x2048 : S8x512x2048.ShapeCasts S4096x2048
  bitsLt_bf16_f32 : FTy.bits .bf16 < FTy.bits .f32
  shapeCasts_S8x512_S4096x1 : S8x512.ShapeCasts S4096x1
  shapeCasts_S32000_S1x32000 : S32000.ShapeCasts S1x32000
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  iota_S1024x1280_d1_w32 : S1024x1280.Iotas .tc 32 [1]
  broadcasts_S1024x1_S1024x1280 : S1024x1.Broadcasts S1024x1280
  reduces_S1024x1280_S1024 : S1024x1280.Reduces [1] S1024
  shapeCasts_S1024_S1024x1 : S1024.ShapeCasts S1024x1
  shapeCasts_S4096x1_S8x512 : S4096x1.ShapeCasts S8x512
  bcast_S_S8x512 : S_.BroadcastsInDim S8x512 (![] : Fin 0 → Fin S8x512.rank)
  reducesTo_S8x512_S8_d1 : S8x512.ReducesTo [1] S8
  h_S_ : 0 < S_.numel
  slices_S8_S4_0 : S8.Slices ![0] S4
  slices_S8_S4_4 : S8.Slices ![4] S4
  slices_S8x512_S4x512_0_0 : S8x512.Slices ![0, 0] S4x512
  reducesTo_S4x512_S_d0_1 : S4x512.ReducesTo [0, 1] S_
  bcast_S_S4 : S_.BroadcastsInDim S4 (![] : Fin 0 → Fin S4.rank)
  reducesTo_S4_S_d0 : S4.ReducesTo [0] S_
  dot_S1024x2048_S1280x2048_S1024x1280_1_1_0_0_n_n_wf : DotDims.WF S1024x2048 S1280x2048 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .bf16 = 32 ∨ (Rect.block (s := S32000x2048) S1280x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x32000.size a
  hwx0_2 : ∀ i : grid0.Coords, EltTy.bits .f32 = 32 ∨ (Rect.block (s := S1x32000) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .i32 = 32 ∨ (Rect.block (s := S4096x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)

variable [Facts₀]

def dot_S1024x2048_S1280x2048_S1024x1280_1_1_0_0_n_n : DotDims S1024x2048 S1280x2048 S1024x1280 where
  lhsContracting := [1]
  rhsContracting := [1]
  lhsNonContracting := [0]
  rhsNonContracting := [0]
  lhsBatch := []
  rhsBatch := []
  wf := dot_S1024x2048_S1280x2048_S1024x1280_1_1_0_0_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32000x2048 : Shape := ⟨2, ![32000, 2048]⟩
abbrev S8x512x2048 : Shape := ⟨3, ![8, 512, 2048]⟩
abbrev S8x512 : Shape := ⟨2, ![8, 512]⟩
abbrev S32000 : Shape := ⟨1, ![32000]⟩
abbrev S8x512x32000 : Shape := ⟨3, ![8, 512, 32000]⟩
abbrev S1x1x32000 : Shape := ⟨3, ![1, 1, 32000]⟩
abbrev S_ : Shape := ⟨0, ![]⟩
abbrev S8x512x1 : Shape := ⟨3, ![8, 512, 1]⟩
abbrev S8x512x1x1 : Shape := ⟨4, ![8, 512, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩
abbrev S4x512 : Shape := ⟨2, ![4, 512]⟩

abbrev nBuf : Space → Nat
  | .hbm => 124
  | .vmem => 0
  | .smem => 0
  | _ => 0

abbrev bufTy : (tb : Table) → Fin (tcTables nBuf tb) → BufTy
  | .hbm, ⟨0, _⟩ => ⟨S32000x2048, .f32⟩
  | .hbm, ⟨1, _⟩ => ⟨S8x512x2048, .f32⟩
  | .hbm, ⟨2, _⟩ => ⟨S8x512, .i32⟩
  | .hbm, ⟨3, _⟩ => ⟨S32000, .f32⟩
  | .hbm, ⟨4, _⟩ => ⟨S8x512x32000, .f32⟩
  | .hbm, ⟨5, _⟩ => ⟨S1x1x32000, .f32⟩
  | .hbm, ⟨6, _⟩ => ⟨S8x512x32000, .f32⟩
  | .hbm, ⟨7, _⟩ => ⟨S8x512x32000, .f32⟩
  | .hbm, ⟨8, _⟩ => ⟨S_, .f32⟩
  | .hbm, ⟨9, _⟩ => ⟨S8x512, .f32⟩
  | .hbm, ⟨10, _⟩ => ⟨S_, .f32⟩
  | .hbm, ⟨11, _⟩ => ⟨S8x512, .f32⟩
  | .hbm, ⟨12, _⟩ => ⟨S8x512, .f32⟩
  | .hbm, ⟨13, _⟩ => ⟨S8x512x1, .f32⟩
  | .hbm, ⟨14, _⟩ => ⟨S8x512x32000, .f32⟩
  | .hbm, ⟨15, _⟩ => ⟨S8x512x32000, .f32⟩
  | .hbm, ⟨16, _⟩ => ⟨S8x512x32000, .f32⟩
  | .hbm, ⟨17, _⟩ => ⟨S_, .f32⟩
  | .hbm, ⟨18, _⟩ => ⟨S8x512, .f32⟩
  | .hbm, ⟨19, _⟩ => ⟨S8x512x1, .f32⟩
  | .hbm, ⟨20, _⟩ => ⟨S8x512x1, .f32⟩
  | .hbm, ⟨21, _⟩ => ⟨S8x512x32000, .f32⟩
  | .hbm, ⟨22, _⟩ => ⟨S8x512x32000, .f32⟩
  | .hbm, ⟨23, _⟩ => ⟨S8x512x1, .i32⟩
  | .hbm, ⟨24, _⟩ => ⟨S_, .i32⟩
  | .hbm, ⟨25, _⟩ => ⟨S8x512x1, .i32⟩
  | .hbm, ⟨26, _⟩ => ⟨S8x512x1, .i1⟩
  | .hbm, ⟨27, _⟩ => ⟨S_, .i32⟩
  | .hbm, ⟨28, _⟩ => ⟨S8x512x1, .i32⟩
  | .hbm, ⟨29, _⟩ => ⟨S8x512x1, .i32⟩
  | .hbm, ⟨30, _⟩ => ⟨S8x512x1, .i32⟩
  | .hbm, ⟨31, _⟩ => ⟨S8x512x1x1, .i32⟩
  | .hbm, ⟨32, _⟩ => ⟨S1, .i32⟩
  | .hbm, ⟨33, _⟩ => ⟨S_, .i32⟩
  | .hbm, ⟨34, _⟩ => ⟨S8x512x1x1, .i32⟩
  | .hbm, ⟨35, _⟩ => ⟨S8x512x1x1, .i1⟩
  | .hbm, ⟨36, _⟩ => ⟨S1x1x1x1, .i32⟩
  | .hbm, ⟨37, _⟩ => ⟨S8x512x1x1, .i32⟩
  | .hbm, ⟨38, _⟩ => ⟨S8x512x1x1, .i1⟩
  | .hbm, ⟨39, _⟩ => ⟨S8x512x1x1, .i1⟩
  | .hbm, ⟨40, _⟩ => ⟨S_, .i1⟩
  | .hbm, ⟨41, _⟩ => ⟨S8x512x1, .i1⟩
  | .hbm, ⟨42, _⟩ => ⟨S8x512x1, .f32⟩
  | .hbm, ⟨43, _⟩ => ⟨S_, .f32⟩
  | .hbm, ⟨44, _⟩ => ⟨S8x512x1, .f32⟩
  | .hbm, ⟨45, _⟩ => ⟨S8x512x1, .f32⟩
  | .hbm, ⟨46, _⟩ => ⟨S8x512, .f32⟩
  | .hbm, ⟨47, _⟩ => ⟨S_, .i32⟩
  | .hbm, ⟨48, _⟩ => ⟨S8x512, .i32⟩
  | .hbm, ⟨49, _⟩ => ⟨S8x512, .i1⟩
  | .hbm, ⟨50, _⟩ => ⟨S8x512, .f32⟩
  | .hbm, ⟨51, _⟩ => ⟨S8x512, .f32⟩
  | .hbm, ⟨52, _⟩ => ⟨S_, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S4, .f32⟩
  | .hbm, ⟨58, _⟩ => ⟨S4, .f32⟩
  | .hbm, ⟨59, _⟩ => ⟨S4x512, .f32⟩
  | .hbm, ⟨60, _⟩ => ⟨S4x512, .f32⟩
  | .hbm, ⟨61, _⟩ => ⟨S4x512, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4x512, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S4, .f32⟩
  | .hbm, ⟨70, _⟩ => ⟨S_, .f32⟩
  | .hbm, ⟨71, _⟩ => ⟨S4, .f32⟩
  | .hbm, ⟨72, _⟩ => ⟨S4, .f32⟩
  | .hbm, ⟨73, _⟩ => ⟨S_, .f32⟩
  | .hbm, ⟨74, _⟩ => ⟨S4, .f32⟩
  | .hbm, ⟨75, _⟩ => ⟨S4, .f32⟩
  | .hbm, ⟨76, _⟩ => ⟨S4, .f32⟩
  | .hbm, ⟨77, _⟩ => ⟨S_, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S4, .i1⟩
  | .hbm, ⟨83, _⟩ => ⟨S4, .f32⟩
  | .hbm, ⟨84, _⟩ => ⟨S4, .f32⟩
  | .hbm, ⟨85, _⟩ => ⟨S4, .f32⟩
  | .hbm, ⟨86, _⟩ => ⟨S4, .f32⟩
  | .hbm, ⟨87, _⟩ => ⟨S4, .f32⟩
  | .hbm, ⟨88, _⟩ => ⟨S4, .f32⟩
  | .hbm, ⟨89, _⟩ => ⟨S4, .f32⟩
  | .hbm, ⟨90, _⟩ => ⟨S4, .f32⟩
  | .hbm, ⟨91, _⟩ => ⟨S4, .f32⟩
  | .hbm, ⟨92, _⟩ => ⟨S4, .f32⟩
  | .hbm, ⟨93, _⟩ => ⟨S_, .f32⟩
  | .hbm, ⟨94, _⟩ => ⟨S4, .f32⟩
  | .hbm, ⟨95, _⟩ => ⟨S4, .f32⟩
  | .hbm, ⟨96, _⟩ => ⟨S4, .f32⟩
  | .hbm, ⟨97, _⟩ => ⟨S4, .f32⟩
  | .hbm, ⟨98, _⟩ => ⟨S_, .f32⟩
  | .hbm, ⟨99, _⟩ => ⟨S4, .f32⟩
  | .hbm, ⟨100, _⟩ => ⟨S4, .f32⟩
  | .hbm, ⟨101, _⟩ => ⟨S4, .f32⟩
  | .hbm, ⟨102, _⟩ => ⟨S4, .f32⟩
  | .hbm, ⟨103, _⟩ => ⟨S4, .i1⟩
  | .hbm, ⟨104, _⟩ => ⟨S4, .f32⟩
  | .hbm, ⟨105, _⟩ => ⟨S4, .f32⟩
  | .hbm, ⟨106, _⟩ => ⟨S4, .f32⟩
  | .hbm, ⟨107, _⟩ => ⟨S4, .f32⟩
  | .hbm, ⟨108, _⟩ => ⟨S4, .f32⟩
  | .hbm, ⟨109, _⟩ => ⟨S4, .f32⟩
  | .hbm, ⟨110, _⟩ => ⟨S4, .f32⟩
  | .hbm, ⟨111, _⟩ => ⟨S4, .f32⟩
  | .hbm, ⟨112, _⟩ => ⟨S4, .f32⟩
  | .hbm, ⟨113, _⟩ => ⟨S_, .f32⟩
  | .hbm, ⟨114, _⟩ => ⟨S4, .f32⟩
  | .hbm, ⟨115, _⟩ => ⟨S4, .f32⟩
  | .hbm, ⟨116, _⟩ => ⟨S4, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | _, _ => ⟨S32000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v4 : Ref sig .tc := ⟨.hbm, 22, rfl⟩
abbrev main_v5 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v6 : Ref sig .tc := ⟨.hbm, 45, rfl⟩
abbrev main_v7 : Ref sig .tc := ⟨.hbm, 46, rfl⟩
abbrev main_c : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_cst : Ref sig .tc := ⟨.hbm, 52, rfl⟩
abbrev main_v12 : Ref sig .tc := ⟨.hbm, 53, rfl⟩
abbrev main_cst_0 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_cst_1 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_3 : Ref sig .tc := ⟨.hbm, 70, rfl⟩
abbrev main_v26 : Ref sig .tc := ⟨.hbm, 71, rfl⟩
abbrev main_v27 : Ref sig .tc := ⟨.hbm, 72, rfl⟩
abbrev main_cst_4 : Ref sig .tc := ⟨.hbm, 73, rfl⟩
abbrev main_v28 : Ref sig .tc := ⟨.hbm, 74, rfl⟩
abbrev main_v29 : Ref sig .tc := ⟨.hbm, 75, rfl⟩
abbrev main_call2_v0 : Ref sig .tc := ⟨.hbm, 76, rfl⟩
abbrev main_call2_call0_cst : Ref sig .tc := ⟨.hbm, 77, rfl⟩
abbrev main_call2_call0_v0 : Ref sig .tc := ⟨.hbm, 78, rfl⟩
abbrev main_call2_call0_v1 : Ref sig .tc := ⟨.hbm, 79, rfl⟩
abbrev main_call2_call0_v2 : Ref sig .tc := ⟨.hbm, 80, rfl⟩
abbrev main_call2_call0_v3 : Ref sig .tc := ⟨.hbm, 81, rfl⟩
abbrev main_call2_call0_v4 : Ref sig .tc := ⟨.hbm, 82, rfl⟩
abbrev main_call2_call0_v5 : Ref sig .tc := ⟨.hbm, 83, rfl⟩
abbrev main_call2_call0_v6 : Ref sig .tc := ⟨.hbm, 84, rfl⟩
abbrev main_call2_call0_v7 : Ref sig .tc := ⟨.hbm, 85, rfl⟩
abbrev main_call2_call0_v8 : Ref sig .tc := ⟨.hbm, 86, rfl⟩
abbrev main_call2_call0_v9 : Ref sig .tc := ⟨.hbm, 87, rfl⟩
abbrev main_call2_call0_v10 : Ref sig .tc := ⟨.hbm, 88, rfl⟩
abbrev main_call2_call0_v11 : Ref sig .tc := ⟨.hbm, 89, rfl⟩
abbrev main_call2_v1 : Ref sig .tc := ⟨.hbm, 90, rfl⟩
abbrev main_v30 : Ref sig .tc := ⟨.hbm, 91, rfl⟩
abbrev main_v31 : Ref sig .tc := ⟨.hbm, 92, rfl⟩
abbrev main_cst_5 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_call3_v0 : Ref sig .tc := ⟨.hbm, 97, rfl⟩
abbrev main_call3_call0_cst : Ref sig .tc := ⟨.hbm, 98, rfl⟩
abbrev main_call3_call0_v0 : Ref sig .tc := ⟨.hbm, 99, rfl⟩
abbrev main_call3_call0_v1 : Ref sig .tc := ⟨.hbm, 100, rfl⟩
abbrev main_call3_call0_v2 : Ref sig .tc := ⟨.hbm, 101, rfl⟩
abbrev main_call3_call0_v3 : Ref sig .tc := ⟨.hbm, 102, rfl⟩
abbrev main_call3_call0_v4 : Ref sig .tc := ⟨.hbm, 103, rfl⟩
abbrev main_call3_call0_v5 : Ref sig .tc := ⟨.hbm, 104, rfl⟩
abbrev main_call3_call0_v6 : Ref sig .tc := ⟨.hbm, 105, rfl⟩
abbrev main_call3_call0_v7 : Ref sig .tc := ⟨.hbm, 106, rfl⟩
abbrev main_call3_call0_v8 : Ref sig .tc := ⟨.hbm, 107, rfl⟩
abbrev main_call3_call0_v9 : Ref sig .tc := ⟨.hbm, 108, rfl⟩
abbrev main_call3_call0_v10 : Ref sig .tc := ⟨.hbm, 109, rfl⟩
abbrev main_call3_call0_v11 : Ref sig .tc := ⟨.hbm, 110, rfl⟩
abbrev main_call3_v1 : Ref sig .tc := ⟨.hbm, 111, rfl⟩
abbrev main_v35 : Ref sig .tc := ⟨.hbm, 112, rfl⟩
abbrev main_cst_6 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_cst_7 : Ref sig .tc := ⟨.hbm, 117, rfl⟩
abbrev main_v39 : Ref sig .tc := ⟨.hbm, 118, rfl⟩
abbrev main_cst_8 : Ref sig .tc := ⟨.hbm, 119, rfl⟩
abbrev main_v40 : Ref sig .tc := ⟨.hbm, 120, rfl⟩
abbrev main_cst_9 : Ref sig .tc := ⟨.hbm, 121, rfl⟩
abbrev main_v41 : Ref sig .tc := ⟨.hbm, 122, rfl⟩
abbrev main_v42 : Ref sig .tc := ⟨.hbm, 123, rfl⟩

abbrev nD : Nat := 1
abbrev τ : Topo := Topo.v7x

variable {F : FTy → Type} [FloatOps F]

class Facts₀ : Prop where
  bcast_S32000_S1x1x32000_2 : S32000.BroadcastsInDim S1x1x32000 (![2] : Fin 1 → Fin S1x1x32000.rank)
  bcast_S1x1x32000_S8x512x32000_0_1_2 : S1x1x32000.BroadcastsInDim S8x512x32000 (![0, 1, 2] : Fin 3 → Fin S8x512x32000.rank)
  reducesTo_S8x512x32000_S8x512_d2 : S8x512x32000.ReducesTo [2] S8x512
  h_S_ : 0 < S_.numel
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x32000_0_1_2 : S8x512x1.BroadcastsInDim S8x512x32000 (![0, 1, 2] : Fin 3 → Fin S8x512x32000.rank)
  bcast_S_S8x512x1 : S_.BroadcastsInDim S8x512x1 (![] : Fin 0 → Fin S8x512x1.rank)
  shapeCasts_S8x512x1_S8x512x1x1 : S8x512x1.ShapeCasts S8x512x1x1
  bcast_S_S8x512x1x1 : S_.BroadcastsInDim S8x512x1x1 (![] : Fin 0 → Fin S8x512x1x1.rank)
  bcast_S1_S1x1x1x1_3 : S1.BroadcastsInDim S1x1x1x1 (![3] : Fin 1 → Fin S1x1x1x1.rank)
  bcast_S1x1x1x1_S8x512x1x1_0_1_2_3 : S1x1x1x1.BroadcastsInDim S8x512x1x1 (![0, 1, 2, 3] : Fin 4 → Fin S8x512x1x1.rank)
  reducesTo_S8x512x1x1_S8x512x1_d3 : S8x512x1x1.ReducesTo [3] S8x512x1
  shapeCasts_S8x512x1_S8x512 : S8x512x1.ShapeCasts S8x512
  reducesTo_S8x512_S8_d1 : S8x512.ReducesTo [1] S8
  slices_S8_S4_0 : S8.Slices ![0] S4
  slices_S8_S4_4 : S8.Slices ![4] S4
  slices_S8x512_S4x512_0_0 : S8x512.Slices ![0, 0] S4x512
  reducesTo_S4x512_S_d0_1 : S4x512.ReducesTo [0, 1] S_
  bcast_S_S4 : S_.BroadcastsInDim S4 (![] : Fin 0 → Fin S4.rank)
  reducesTo_S4_S_d0 : S4.ReducesTo [0] S_
  dot_S8x512x2048_S32000x2048_S8x512x32000_2_1_01_0_n_n_wf : DotDims.WF S8x512x2048 S32000x2048 S8x512x32000 [2] [1] [0, 1] [0] [] []
  gather_S8x512x32000_S8x512x1x1_S8x512x1_n_2_01_01_2_3_111_wf : GatherDims.WF S8x512x32000 S8x512x1x1 S8x512x1 [] [2] [0, 1] [2] [0, 1] 3 ![1, 1, 1]

variable [Facts₀]

def dot_S8x512x2048_S32000x2048_S8x512x32000_2_1_01_0_n_n : DotDims S8x512x2048 S32000x2048 S8x512x32000 where
  lhsContracting := [2]
  rhsContracting := [1]
  lhsNonContracting := [0, 1]
  rhsNonContracting := [0]
  lhsBatch := []
  rhsBatch := []
  wf := dot_S8x512x2048_S32000x2048_S8x512x32000_2_1_01_0_n_n_wf
def gather_S8x512x32000_S8x512x1x1_S8x512x1_n_2_01_01_2_3_111 : GatherDims S8x512x32000 S8x512x1x1 S8x512x1 where
  offsetDims := []
  collapsedSliceDims := [2]
  operandBatchingDims := [0, 1]
  startIndicesBatchingDims := [0, 1]
  startIndexMap := [2]
  indexVectorDim := 3
  sliceSizes := ![1, 1, 1]
  wf := gather_S8x512x32000_S8x512x1x1_S8x512x1_n_2_01_01_2_3_111_wf

class Facts : Prop extends Facts₀ where

variable [Facts]
-- ==== Proof.KbKit.lean ====
/- The frame kit of the fused linear + streaming log-softmax kernel, at any float reading F: the valuation the
   region is entered with, @main around the region, the side conditions of the 78 host lines after it, the
   input windows' blocks and that their staging buffers hold them, the two branch conditions of the body in
   closed form over the 4 × 25 grid, where the output window is idle, the scratch operands as memrefs, and the
   frame invariant unfolded. -/
import proofs.«416803_j17583596109825_2_alg».proof.Proof.Gen.Kernel.Launch
import proofs.«416803_j17583596109825_2_alg».proof.Proof.Gen.Kernel.Skeleton
import proofs.«416803_j17583596109825_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's TensorCore buffers when the region is entered: after the five host lines before it (two reshapes of
    the hidden states and targets, the two roundings to bf16, the reshape of the bias). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The five stretches of host lines after the region, in order: 30 + 16 + 5 + 16 + 11 = 78 operations. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main around the region: the host lines before it, the region, then the 78 host lines after it; it reduces to
    the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the region touch unscoped TensorCore references only: the pipeline's arrays and the buffers
    that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- A stretch of host lines writes no array of the pipeline: each line writes its own result buffer only, and
    that is none of the five arrays. Stated per stretch as a List.Forall, so that the 78 lines are met by one
    tactic block each rather than case by case. -/
abbrev KeepsArrays (ops : List (HloOp τ sig (Elt F))) : Prop :=
  ops.Forall fun op => ∀ w, Proc.devRef .tc (Pipeline.arrRef spec0 w) ∉ op.writes

theorem hostOps1_keeps : KeepsArrays (F := F) hostOps1 := by
  simp only [List.Forall]
  repeat' apply And.intro
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_1_keeps : KeepsArrays (F := F) hostOps1_1 := by
  simp only [List.Forall]
  repeat' apply And.intro
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_2_keeps : KeepsArrays (F := F) hostOps1_2 := by
  simp only [List.Forall]
  repeat' apply And.intro
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_3_keeps : KeepsArrays (F := F) hostOps1_3 := by
  simp only [List.Forall]
  repeat' apply And.intro
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_4_keeps : KeepsArrays (F := F) hostOps1_4 := by
  simp only [List.Forall]
  repeat' apply And.intro
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-! ## The argument arrays as launched -/

/-- No host line before the region writes main_arg0 (the weight matrix): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
/-- Nor main_arg1 (the hidden states). -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
/-- Nor main_arg2 (the targets). -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
/-- Nor main_arg3 (the bias). -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the 1024 × 2048 tile of hidden states, refetched when the row tile changes): its current
    staging buffer holds its block at every point, fetched there or not, for any proof data whose array is the
    region-entry contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (the 1280 × 2048 chunk of weights, fetched at every point). -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 (the 1 × 1280 chunk of bias, fetched at every point). -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 (the 1024 × 1 tile of targets, refetched when the row tile changes). -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The condition of the body's first scf.if (the reset of the three accumulators), from the grid coordinates:
    the scalar chain the body computes, which says the chunk coordinate is 0. -/
abbrev condFirst (i : grid0.Coords) : Prop :=
  (Scalar.cmpi .ne (Scalar.extui (Scalar.cmpi .eq (BitVec.ofNat 32 (i 1).val) 0#32)) 0#32) = 1#1
/-- It holds at the points ≡ 0 (mod 25): the first chunk of each row tile. Decided over the 100 points. -/
theorem hcondFirst : ∀ t : Fin cfg0.N, condFirst (grid0.coords t) ↔ t.val % 25 = 0 :=
  (by decide +kernel : ∀ t : Fin grid0.N, condFirst (grid0.coords t) ↔ t.val % 25 = 0)

/-- The condition of the body's second scf.if (the store of the result), as the body computes it: the chunk
    coordinate is 24. -/
abbrev condLast (i : grid0.Coords) : Prop := k0_cond2 i = 1#1
/-- It holds at the points ≡ 24 (mod 25): the last chunk of each row tile. Decided over the 100 points. -/
theorem hcondLast : ∀ t : Fin cfg0.N, condLast (grid0.coords t) ↔ t.val % 25 = 24 :=
  (by decide +kernel : ∀ t : Fin grid0.N, condLast (grid0.coords t) ↔ t.val % 25 = 24)

/-- No point meets both: a row tile has 25 chunks. -/
theorem not_first_and_last (t : Fin cfg0.N) : ¬(condFirst (grid0.coords t) ∧ condLast (grid0.coords t)) := by
  rintro ⟨h0, h1⟩
  have a := (hcondFirst t).mp h0
  have b := (hcondLast t).mp h1
  omega

/-! ## Where the windows are idle -/

/-- The inputs are never idle. -/
theorem liveAt_in (w : Fin 5) (hw : w ≠ 4) : ∀ i : grid0.Coords, cfg0.idle w i = false := by
  fin_cases w <;> first | exact fun _ => rfl | exact absurd rfl hw
/-- Where the result is not stored (every chunk but the last) the configuration calls output window 4 idle: -/
theorem idleAt4 : ∀ t : Fin cfg0.N, ¬condLast (grid0.coords t) → cfg0.idle 4 (grid0.coords t) = true := by decide +kernel
/-- and the pipeline does not write its block back there. -/
theorem noFlush4 : ∀ t : Fin cfg0.N, ¬condLast (grid0.coords t) → (cfg0.win 4).flush t = false := by decide +kernel
/-- At the last chunk of a row tile it is live: the body stores the tile's result into it, -/
theorem liveAt4 : ∀ t : Fin cfg0.N, condLast (grid0.coords t) → cfg0.idle 4 (grid0.coords t) = false := by decide +kernel
/-- and the pipeline writes it back. -/
theorem flushAt4 : ∀ t : Fin cfg0.N, condLast (grid0.coords t) → (cfg0.win 4).flush t = true := by decide +kernel

/-! ## The staging and scratch memrefs -/

/-- One staging buffer of output window 4, through which its contents are stated (the choice does not matter). -/
abbrev VO4 : View sig .tc .vmem S1024x1 .f32 := (Memref.whole cc0_stg4_0 : Memref sig .tc .vmem S1024x1 .f32).view
/-- Each window's current staging memref at point t, spelled as the pipeline passes it, and its wholeness. -/
abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1280x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1280 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)

/-- The three scratch operands: whole scoped buffers of the kernel's own, passed beside the windows. arg7 carries
    the running maximum, arg8 the running normaliser, arg9 the running target logit. -/
abbrev scM7 : Memref sig .tc .vmem S1024x1 .f32 := Memref.whole cc0_scratch0
abbrev scM8 : Memref sig .tc .vmem S1024x1 .f32 := Memref.whole cc0_scratch1
abbrev scM9 : Memref sig .tc .vmem S1024x1 .f32 := Memref.whole cc0_scratch2
/-- Each as a view: what it holds is stated through it. -/
abbrev VS7 : View sig .tc .vmem S1024x1 .f32 := scM7.view
abbrev VS8 : View sig .tc .vmem S1024x1 .f32 := scM8.view
abbrev VS9 : View sig .tc .vmem S1024x1 .f32 := scM9.view

/-- The body at point t as the pipeline calls it is the kernel function on these memrefs. -/
theorem bodyAt0_eq (t : Fin cfg0.N) :
    bodyAt0 (F := F) t = cc0__simpo_logps_kernel (grid0.coords t) (ms0 t) (hs0 t) (ms1 t) (hs1 t) (ms2 t) (hs2 t) (ms3 t) (hs3 t)
      (ms4 t) (hs4 t) scM7 (Memref.isWhole_whole _) scM8 (Memref.isWhole_whole _) scM9 (Memref.isWhole_whole _) := rfl

/-- The frame invariant with the scratch operands as memrefs owned at some contents: what the body obligation
    hands the run and takes back. -/
theorem PhiA_eq (c : Dev nD) :
    (Pipeline.ΦA spec0 c : sProp 𝕄)
      = iprop(iprop((∃ d, owns (c : Thread nD τ) scM7 fullShare d) ∗ (∃ d, owns (c : Thread nD τ) scM8 fullShare d)
          ∗ (∃ d, owns (c : Thread nD τ) scM9 fullShare d)) ∗ (∃ r, prngReg c r)) := by
  unfold Pipeline.ΦA; rw [scopedRest0_eq]; simp only [scM7, scM8, scM9, owns_whole]; try rfl

end Cert.Kernel.Hand

end
-- ==== Proof.KbRunFirst.lean ====
/- The body's run at the first chunk of a row tile: the kernel function on whole memrefs, the reset taken and the
   result not stored; the pieces each accumulator ends with are the witness the run finds. -/
import proofs.«416803_j17583596109825_2_alg».proof.Proof.KbKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST CHUNK OF A ROW TILE (the reset taken, the result not stored: chunk 0). What the body's stores leave
    in the three accumulators, as pieces (last first), WITH the proof that on whole staging memrefs — the four
    inputs' at their contents, the output's at contents xi4 handed back untouched (the body stores nothing into it
    here), the three accumulators at ANY contents (the body resets them before it reads them) — the kernel
    function runs to the continuation holding the inputs' as they were, the output's as it was, and each
    accumulator with its pieces written: arg7 twice (−∞, then the maximum with the chunk's row maxima), arg8 twice
    (0, then the rescaled normaliser plus the chunk's exponentials summed), arg9 twice (0, then plus the chunk's
    share of the target logit). The pieces are found by the run. -/
noncomputable def runFirst (c : Dev nD) (i : grid0.Coords) (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : condFirst i) (hc1 : ¬condLast i) (x0 : Vec F S1024x2048 .bf16) (x1 : Vec F S1280x2048 .bf16) (x2 : Vec F S1x1280 .f32) (x3 : Vec F S1024x1 .i32) :
    Σ' (L4 : List (View.Piece (Elt F) S1024x1 .f32)) (LS7 : List (View.Piece (Elt F) S1024x1 .f32)) (LS8 : List (View.Piece (Elt F) S1024x1 .f32)), { LS9 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__simpo_logps_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__simpo_logps_kernel_eq_skeleton]; unfold cc0__simpo_logps_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, HS7⟩, ⟨%d8, %f8, -, HS8⟩, ⟨%d9, %f9, -, HS9⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]; · iexists _; iexact HS7
    isplitl [HS8]; · iexists _; iexact HS8
    iexists _; iexact HS9

end Cert.Kernel.Hand

end
-- ==== Proof.KbRunMid.lean ====
/- The body's run at a middle chunk of a row tile: the kernel function on whole memrefs, no reset and the result not
   stored; the accumulators come in at what the chunk before left, and the piece each ends with is the witness the
   run finds. -/
import proofs.«416803_j17583596109825_2_alg».proof.Proof.KbRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE CHUNK OF A ROW TILE (no reset, the result not stored: chunks 1 … 23). What the body's stores leave in
    the three accumulators, as pieces, WITH the proof that on whole staging memrefs — the four inputs' at their
    contents, the output's at contents xi4 handed back untouched, the three accumulators at the contents the chunk
    before left (xs7 the running maximum, xs8 the running normaliser, xs9 the running target logit) — the kernel
    function runs to the continuation holding the inputs' as they were, the output's as it was, and each
    accumulator with its one piece written: arg7 the maximum of xs7 with the chunk's row maxima, arg8 the
    normaliser xs8 rescaled to the new maximum plus the chunk's exponentials summed, arg9 the target logit xs9 plus
    the chunk's share. The pieces are found by the run. -/
noncomputable def runMid (c : Dev nD) (i : grid0.Coords) (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : ¬condFirst i) (hc1 : ¬condLast i) (x0 : Vec F S1024x2048 .bf16) (x1 : Vec F S1280x2048 .bf16) (x2 : Vec F S1x1280 .f32) (x3 : Vec F S1024x1 .i32) (xs7 xs8 xs9 : Vec F S1024x1 .f32) :
    Σ' (L4 : List (View.Piece (Elt F) S1024x1 .f32)) (LS7 : List (View.Piece (Elt F) S1024x1 .f32)) (LS8 : List (View.Piece (Elt F) S1024x1 .f32)), { LS9 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs7 ∗ owns (c : Thread nD τ) arg8 fullShare xs8 ∗ owns (c : Thread nD τ) arg9 fullShare xs9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__simpo_logps_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__simpo_logps_kernel_eq_skeleton]; unfold cc0__simpo_logps_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, HS7⟩, ⟨%f8, %hf8, HS8⟩, ⟨%f9, %hf9, HS9⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf7; obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]; · iexists _; iexact HS7
    isplitl [HS8]; · iexists _; iexact HS8
    iexists _; iexact HS9

end Cert.Kernel.Hand

end
-- ==== Proof.KbRunLast.lean ====
/- The body's run at the last chunk of a row tile: the kernel function on whole memrefs, no reset and the result
   stored into the output's buffer; the pieces the accumulators and the output end with are the witness the run
   finds. -/
import proofs.«416803_j17583596109825_2_alg».proof.Proof.KbRunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST CHUNK OF A ROW TILE (no reset, the result stored: chunk 24). What the body's stores leave in the output's
    staging memref and in the three accumulators, as pieces, WITH the proof that on whole staging memrefs — the
    four inputs' at their contents, the output's at ANYTHING (the body covers it), the three accumulators at the
    contents the chunk before left (xs7, xs8, xs9) — the kernel function runs to the continuation holding the
    inputs' as they were, each accumulator with its one piece written (as at a middle chunk), and the output's
    buffer with its one piece written: the final target logit minus (the final maximum plus the logarithm of the
    final normaliser), read off the accumulators after this chunk's stores. The pieces are found by the run. -/
noncomputable def runLast (c : Dev nD) (i : grid0.Coords) (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : ¬condFirst i) (hc1 : condLast i) (x0 : Vec F S1024x2048 .bf16) (x1 : Vec F S1280x2048 .bf16) (x2 : Vec F S1x1280 .f32) (x3 : Vec F S1024x1 .i32) (xs7 xs8 xs9 : Vec F S1024x1 .f32) :
    Σ' (L4 : List (View.Piece (Elt F) S1024x1 .f32)) (LS7 : List (View.Piece (Elt F) S1024x1 .f32)) (LS8 : List (View.Piece (Elt F) S1024x1 .f32)), { LS9 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs7 ∗ owns (c : Thread nD τ) arg8 fullShare xs8 ∗ owns (c : Thread nD τ) arg9 fullShare xs9
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__simpo_logps_kernel i arg2 harg2 arg3 harg3 arg4 harg4 arg5 harg5 arg6 harg6 arg7 harg7 arg8 harg8 arg9 harg9) K } := by
  refine ⟨?_, ?_, ?_, ?_, fun E K => ?run⟩
  case run =>
    simp only [cc0__simpo_logps_kernel_eq_skeleton]; unfold cc0__simpo_logps_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%f7, %hf7, HS7⟩, ⟨%f8, %hf8, HS8⟩, ⟨%f9, %hf9, HS9⟩, Hk⟩
    obtain rfl := harg2.eq_unread hf0; obtain rfl := harg3.eq_unread hf1; obtain rfl := harg4.eq_unread hf2
    obtain rfl := harg5.eq_unread hf3
    obtain rfl := harg7.eq_unread hf7; obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS7]; · iexists _; iexact HS7
    isplitl [HS8]; · iexists _; iexact HS8
    iexists _; iexact HS9

end Cert.Kernel.Hand

end
-- ==== Proof.KbFrame.lean ====
/-
  The frame of the fused linear + streaming log-softmax kernel, at any reading F of the floats.

  The grid is 4 row tiles × 25 vocabulary chunks, walked tile by tile. Per point the body falls in one of three
  cases: a tile's first chunk (it resets the three accumulators, then takes the chunk in), an inner chunk (it takes
  the chunk in over what the point before left), a tile's last chunk (as an inner chunk, then it stores the tile's
  result into the output block). This file says what the output block and the three accumulators hold after each
  point (outsAt, by recursion on the point, with one equation per case), gives the pipeline's proof data over
  that, discharges the library's body obligation case by case from the three runs, and concludes the run of the
  whole program and the frame claim: the four argument arrays end as they were launched.
-/
import proofs.«416803_j17583596109825_2_alg».proof.Proof.KbRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a grid point leaves, case by case -/

/-- What the four buffers the body stores into hold once a grid point's body has run: the output block and the three
    carried accumulators (the running maximum, the running normaliser, the running target logit), one value per
    row of the tile. -/
structure Held (F : FTy → Type) where
  /-- the output block's staging buffer -/
  out : Vec F S1024x1 .f32
  /-- the running maximum -/
  mx : Vec F S1024x1 .f32
  /-- the running normaliser -/
  nrm : Vec F S1024x1 .f32
  /-- the running target logit -/
  tgt : Vec F S1024x1 .f32

/-- The four buffers at a case's pieces read back (each list over contents that do not matter once the pieces fill
    the buffer). A case that stores nothing into the output block has no pieces for it: its component is then a
    placeholder nothing consults, the window being idle there, neither written back nor read at the next point. -/
def readBack (L4 LS7 LS8 LS9 : List (View.Piece (Elt F) S1024x1 .f32)) : Held F where
  out := VO4.read (Elt F) (VO4.writes (Elt F) VO4.junk L4)
  mx := VS7.read (Elt F) (VS7.writes (Elt F) VS7.junk LS7)
  nrm := VS8.read (Elt F) (VS8.writes (Elt F) VS8.junk LS8)
  tgt := VS9.read (Elt F) (VS9.writes (Elt F) VS9.junk LS9)

/-- A grid point opening a row tile is not the one closing it: a tile has 25 chunks. -/
theorem not_last_of_first {n : ℕ} (h0 : n % 25 = 0) : ¬n % 25 = 24 := by omega
/-- Nor the other way round. -/
theorem not_first_of_last {n : ℕ} (h1 : n % 25 = 24) : ¬n % 25 = 0 := by omega

/-- The body of a tile's first chunk, at grid point t, on the memrefs and input blocks the pipeline passes there. -/
abbrev firstAt (c : Dev nD) (t : Fin cfg0.N) (h0 : t.val % 25 = 0) :=
  runFirst (F := F) c (grid0.coords t) (ms0 t) (hs0 t) (ms1 t) (hs1 t) (ms2 t) (hs2 t) (ms3 t) (hs3 t) (ms4 t) (hs4 t)
    scM7 (Memref.isWhole_whole _) scM8 (Memref.isWhole_whole _) scM9 (Memref.isWhole_whole _)
    ((hcondFirst t).mpr h0) (fun h => not_last_of_first h0 ((hcondLast t).mp h))
    (iblk m c 0 t) (iblk m c 1 t) (iblk m c 2 t) (iblk m c 3 t)

/-- The body of a chunk inside a tile (neither first nor last), at grid point t, over the accumulators p the point
    before left. -/
abbrev midAt (c : Dev nD) (t : Fin cfg0.N) (h0 : ¬t.val % 25 = 0) (h1 : ¬t.val % 25 = 24) (p : Held F) :=
  runMid (F := F) c (grid0.coords t) (ms0 t) (hs0 t) (ms1 t) (hs1 t) (ms2 t) (hs2 t) (ms3 t) (hs3 t) (ms4 t) (hs4 t)
    scM7 (Memref.isWhole_whole _) scM8 (Memref.isWhole_whole _) scM9 (Memref.isWhole_whole _)
    (fun h => h0 ((hcondFirst t).mp h)) (fun h => h1 ((hcondLast t).mp h))
    (iblk m c 0 t) (iblk m c 1 t) (iblk m c 2 t) (iblk m c 3 t) p.mx p.nrm p.tgt

/-- The body of a tile's last chunk, at grid point t, over the accumulators p the point before left. -/
abbrev lastAt (c : Dev nD) (t : Fin cfg0.N) (h1 : t.val % 25 = 24) (p : Held F) :=
  runLast (F := F) c (grid0.coords t) (ms0 t) (hs0 t) (ms1 t) (hs1 t) (ms2 t) (hs2 t) (ms3 t) (hs3 t) (ms4 t) (hs4 t)
    scM7 (Memref.isWhole_whole _) scM8 (Memref.isWhole_whole _) scM9 (Memref.isWhole_whole _)
    (fun h => not_first_of_last h1 ((hcondFirst t).mp h)) ((hcondLast t).mpr h1)
    (iblk m c 0 t) (iblk m c 1 t) (iblk m c 2 t) (iblk m c 3 t) p.mx p.nrm p.tgt

/-- What a tile's first chunk leaves: the three accumulators at its pieces read back (it resets them, so nothing
    before it matters); the output block untouched. -/
def firstHeld (c : Dev nD) (t : Fin cfg0.N) (h0 : t.val % 25 = 0) : Held F :=
  readBack (firstAt m c t h0).1 (firstAt m c t h0).2.1 (firstAt m c t h0).2.2.1 (firstAt m c t h0).2.2.2.1

/-- What a chunk inside a tile leaves, over what the point before left: the three accumulators at its pieces read
    back; the output block untouched. -/
def midHeld (c : Dev nD) (t : Fin cfg0.N) (h0 : ¬t.val % 25 = 0) (h1 : ¬t.val % 25 = 24) (p : Held F) : Held F :=
  readBack (midAt m c t h0 h1 p).1 (midAt m c t h0 h1 p).2.1 (midAt m c t h0 h1 p).2.2.1 (midAt m c t h0 h1 p).2.2.2.1

/-- What a tile's last chunk leaves, over what the point before left: the output block and the three accumulators at
    its pieces read back. -/
def lastHeld (c : Dev nD) (t : Fin cfg0.N) (h1 : t.val % 25 = 24) (p : Held F) : Held F :=
  readBack (lastAt m c t h1 p).1 (lastAt m c t h1 p).2.1 (lastAt m c t h1 p).2.2.1 (lastAt m c t h1 p).2.2.2.1

/-! ## What the four buffers hold after each grid point -/

/-- THE ACCUMULATION: what the output block and the three accumulators hold after the body at position n. A
    tile's first chunk depends on nothing before it; every other chunk runs over what the point before left. -/
def outsAt (c : Dev nD) : (n : ℕ) → n < cfg0.N → Held F
  | 0, hn => firstHeld m c ⟨0, hn⟩ (Nat.zero_mod _)
  | n + 1, hn =>
    if h0 : (n + 1) % 25 = 0 then firstHeld m c ⟨n + 1, hn⟩ h0
    else if h1 : (n + 1) % 25 = 24 then lastHeld m c ⟨n + 1, hn⟩ h1 (outsAt c n (Nat.lt_of_succ_lt hn))
    else midHeld m c ⟨n + 1, hn⟩ h0 h1 (outsAt c n (Nat.lt_of_succ_lt hn))

/-- What the point before t left (read at position t - 1; at t = 0 this is position 0 itself, where no case
    that reads it is met). -/
abbrev prevAt (c : Dev nD) (t : Fin cfg0.N) : Held F :=
  outsAt m c (t.val - 1) (Nat.lt_of_le_of_lt (Nat.sub_le _ _) t.isLt)

/-- At a tile's first chunk: that case's contents. -/
theorem outsAt_first (c : Dev nD) (t : Fin cfg0.N) (h0 : t.val % 25 = 0) :
    outsAt m c t.val t.isLt = firstHeld m c t h0 := by
  obtain ⟨n, hn⟩ := t
  cases n with
  | zero => rfl
  | succ n => exact dif_pos h0

/-- At a chunk inside a tile: that case's contents over what the point before left. -/
theorem outsAt_mid (c : Dev nD) (t : Fin cfg0.N) (h0 : ¬t.val % 25 = 0) (h1 : ¬t.val % 25 = 24) :
    outsAt m c t.val t.isLt = midHeld m c t h0 h1 (prevAt m c t) := by
  obtain ⟨n, hn⟩ := t
  cases n with
  | zero => exact absurd (Nat.zero_mod _) h0
  | succ n => exact (dif_neg h0).trans (dif_neg h1)

/-- At a tile's last chunk: that case's contents over what the point before left. -/
theorem outsAt_last (c : Dev nD) (t : Fin cfg0.N) (h1 : t.val % 25 = 24) :
    outsAt m c t.val t.isLt = lastHeld m c t h1 (prevAt m c t) := by
  obtain ⟨n, hn⟩ := t
  cases n with
  | zero => exact absurd h1 (show ¬(0 % 25 = 24) by decide)
  | succ n => exact (dif_neg (not_first_of_last h1)).trans (dif_pos h1)

/-! ## The cover lemmas: each case's pieces fill the buffer they are stored into -/

section Covers

variable (c : Dev nD) (i : grid0.Coords)
  (arg2 : Memref sig .tc .vmem S1024x2048 .bf16) (harg2 : arg2.IsWhole) (arg3 : Memref sig .tc .vmem S1280x2048 .bf16) (harg3 : arg3.IsWhole)
  (arg4 : Memref sig .tc .vmem S1x1280 .f32) (harg4 : arg4.IsWhole) (arg5 : Memref sig .tc .vmem S1024x1 .i32) (harg5 : arg5.IsWhole)
  (arg6 : Memref sig .tc .vmem S1024x1 .f32) (harg6 : arg6.IsWhole) (arg7 : Memref sig .tc .vmem S1024x1 .f32) (harg7 : arg7.IsWhole)
  (arg8 : Memref sig .tc .vmem S1024x1 .f32) (harg8 : arg8.IsWhole) (arg9 : Memref sig .tc .vmem S1024x1 .f32) (harg9 : arg9.IsWhole)
  (x0 : Vec F S1024x2048 .bf16) (x1 : Vec F S1280x2048 .bf16) (x2 : Vec F S1x1280 .f32) (x3 : Vec F S1024x1 .i32)
  (xs7 xs8 xs9 : Vec F S1024x1 .f32)

/-- The first chunk's pieces for the running maximum fill its buffer: whole-buffer stores. -/
theorem cover_first_mx (hc0 : condFirst i) (hc1 : ¬condLast i) :
    ∀ y : S1024x1.Idx, ∃ pc ∈ (runFirst (F := F) c i arg2 harg2 arg3 harg3 arg4 harg4 arg5 harg5 arg6 harg6 arg7 harg7 arg8 harg8 arg9 harg9 hc0 hc1 x0 x1 x2 x3).2.1, y ∈ pc.1.set :=
  View.cover_of_tiledL _ S1024x1.size (by sl_kernel_rfl)
/-- The first chunk's pieces for the running normaliser fill its buffer. -/
theorem cover_first_nrm (hc0 : condFirst i) (hc1 : ¬condLast i) :
    ∀ y : S1024x1.Idx, ∃ pc ∈ (runFirst (F := F) c i arg2 harg2 arg3 harg3 arg4 harg4 arg5 harg5 arg6 harg6 arg7 harg7 arg8 harg8 arg9 harg9 hc0 hc1 x0 x1 x2 x3).2.2.1, y ∈ pc.1.set :=
  View.cover_of_tiledL _ S1024x1.size (by sl_kernel_rfl)
/-- The first chunk's pieces for the running target logit fill its buffer. -/
theorem cover_first_tgt (hc0 : condFirst i) (hc1 : ¬condLast i) :
    ∀ y : S1024x1.Idx, ∃ pc ∈ (runFirst (F := F) c i arg2 harg2 arg3 harg3 arg4 harg4 arg5 harg5 arg6 harg6 arg7 harg7 arg8 harg8 arg9 harg9 hc0 hc1 x0 x1 x2 x3).2.2.2.1, y ∈ pc.1.set :=
  View.cover_of_tiledL _ S1024x1.size (by sl_kernel_rfl)

/-- An inner chunk's pieces for the running maximum fill its buffer. -/
theorem cover_mid_mx (hc0 : ¬condFirst i) (hc1 : ¬condLast i) :
    ∀ y : S1024x1.Idx, ∃ pc ∈ (runMid (F := F) c i arg2 harg2 arg3 harg3 arg4 harg4 arg5 harg5 arg6 harg6 arg7 harg7 arg8 harg8 arg9 harg9 hc0 hc1 x0 x1 x2 x3 xs7 xs8 xs9).2.1, y ∈ pc.1.set :=
  View.cover_of_tiledL _ S1024x1.size (by sl_kernel_rfl)
/-- An inner chunk's pieces for the running normaliser fill its buffer. -/
theorem cover_mid_nrm (hc0 : ¬condFirst i) (hc1 : ¬condLast i) :
    ∀ y : S1024x1.Idx, ∃ pc ∈ (runMid (F := F) c i arg2 harg2 arg3 harg3 arg4 harg4 arg5 harg5 arg6 harg6 arg7 harg7 arg8 harg8 arg9 harg9 hc0 hc1 x0 x1 x2 x3 xs7 xs8 xs9).2.2.1, y ∈ pc.1.set :=
  View.cover_of_tiledL _ S1024x1.size (by sl_kernel_rfl)
/-- An inner chunk's pieces for the running target logit fill its buffer. -/
theorem cover_mid_tgt (hc0 : ¬condFirst i) (hc1 : ¬condLast i) :
    ∀ y : S1024x1.Idx, ∃ pc ∈ (runMid (F := F) c i arg2 harg2 arg3 harg3 arg4 harg4 arg5 harg5 arg6 harg6 arg7 harg7 arg8 harg8 arg9 harg9 hc0 hc1 x0 x1 x2 x3 xs7 xs8 xs9).2.2.2.1, y ∈ pc.1.set :=
  View.cover_of_tiledL _ S1024x1.size (by sl_kernel_rfl)

/-- The last chunk's pieces for the output block fill it: one whole-block store. -/
theorem cover_last_out (hc0 : ¬condFirst i) (hc1 : condLast i) :
    ∀ y : S1024x1.Idx, ∃ pc ∈ (runLast (F := F) c i arg2 harg2 arg3 harg3 arg4 harg4 arg5 harg5 arg6 harg6 arg7 harg7 arg8 harg8 arg9 harg9 hc0 hc1 x0 x1 x2 x3 xs7 xs8 xs9).1, y ∈ pc.1.set :=
  View.cover_of_tiledL _ S1024x1.size (by sl_kernel_rfl)
/-- The last chunk's pieces for the running maximum fill its buffer. -/
theorem cover_last_mx (hc0 : ¬condFirst i) (hc1 : condLast i) :
    ∀ y : S1024x1.Idx, ∃ pc ∈ (runLast (F := F) c i arg2 harg2 arg3 harg3 arg4 harg4 arg5 harg5 arg6 harg6 arg7 harg7 arg8 harg8 arg9 harg9 hc0 hc1 x0 x1 x2 x3 xs7 xs8 xs9).2.1, y ∈ pc.1.set :=
  View.cover_of_tiledL _ S1024x1.size (by sl_kernel_rfl)
/-- The last chunk's pieces for the running normaliser fill its buffer. -/
theorem cover_last_nrm (hc0 : ¬condFirst i) (hc1 : condLast i) :
    ∀ y : S1024x1.Idx, ∃ pc ∈ (runLast (F := F) c i arg2 harg2 arg3 harg3 arg4 harg4 arg5 harg5 arg6 harg6 arg7 harg7 arg8 harg8 arg9 harg9 hc0 hc1 x0 x1 x2 x3 xs7 xs8 xs9).2.2.1, y ∈ pc.1.set :=
  View.cover_of_tiledL _ S1024x1.size (by sl_kernel_rfl)
/-- The last chunk's pieces for the running target logit fill its buffer. -/
theorem cover_last_tgt (hc0 : ¬condFirst i) (hc1 : condLast i) :
    ∀ y : S1024x1.Idx, ∃ pc ∈ (runLast (F := F) c i arg2 harg2 arg3 harg3 arg4 harg4 arg5 harg5 arg6 harg6 arg7 harg7 arg8 harg8 arg9 harg9 hc0 hc1 x0 x1 x2 x3 xs7 xs8 xs9).2.2.2.1, y ∈ pc.1.set :=
  View.cover_of_tiledL _ S1024x1.size (by sl_kernel_rfl)

end Covers

/-! ## The region invariant -/

/-- The region invariant before position n. Before the first point it is the class's (every scratch buffer at
    anything, the generator register at some state); afterwards the three accumulators are owned at what the point
    before left in them, and the generator register at some state. -/
def PhiS (c : Dev nD) : (n : ℕ) → n ≤ cfg0.N → sProp 𝕄
  | 0, _ => Pipeline.ΦA spec0 c
  | n + 1, hn => iprop(iprop(owns (c : Thread nD τ) scM7 fullShare (outsAt m c n hn).mx ∗ owns (c : Thread nD τ) scM8 fullShare (outsAt m c n hn).nrm
      ∗ owns (c : Thread nD τ) scM9 fullShare (outsAt m c n hn).tgt) ∗ (∃ r, prngReg c r))

theorem PhiS_zero (c : Dev nD) (n : ℕ) (h : n ≤ cfg0.N) (hz : n = 0) : PhiS m c n h = Pipeline.ΦA spec0 c := by
  subst hz; rfl

/-- After point n (before point n + 1): the accumulators at that point's contents. -/
theorem PhiS_succ (c : Dev nD) (n : ℕ) (hn : n < cfg0.N) :
    PhiS m c (n + 1) hn = iprop(iprop(owns (c : Thread nD τ) scM7 fullShare (outsAt m c n hn).mx ∗ owns (c : Thread nD τ) scM8 fullShare (outsAt m c n hn).nrm
      ∗ owns (c : Thread nD τ) scM9 fullShare (outsAt m c n hn).tgt) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) scM7 fullShare (outsAt m c (n - 1) (by omega)).mx ∗ owns (c : Thread nD τ) scM8 fullShare (outsAt m c (n - 1) (by omega)).nrm
      ∗ owns (c : Thread nD τ) scM9 fullShare (outsAt m c (n - 1) (by omega)).tgt) ∗ (∃ r, prngReg c r)) := by
  cases n with
  | zero => exact absurd rfl hz
  | succ n => rfl

/-- Whatever the accumulators are owned at, the class's invariant follows: their contents are forgotten. -/
theorem PhiA_of_owned (c : Dev nD) (a b g : Vec F S1024x1 .f32) :
    iprop(iprop(owns (c : Thread nD τ) scM7 fullShare a ∗ owns (c : Thread nD τ) scM8 fullShare b ∗ owns (c : Thread nD τ) scM9 fullShare g) ∗ (∃ r, prngReg c r))
      ⊢ (Pipeline.ΦA spec0 c : sProp 𝕄) := by
  rw [PhiA_eq]
  iintro ⟨⟨H7, H8, H9⟩, Hg⟩
  isplitr [Hg]
  · isplitl [H7]; · iexists _; iexact H7
    isplitl [H8]; · iexists _; iexact H8
    iexists _; iexact H9
  iexact Hg

/-! ## The pipeline's proof data -/

/-- The proof data of the one pipeline on core c: the arrays as the region finds them; after the body at point t
    each input's buffer at its block and the output's at the accumulation's output component; the invariant above;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).out
  Φ t := PhiS m c t.val (Nat.le_of_lt_succ t.isLt)
  q _ := fullShare
  owed _ := 0

/-- The proof data's arrays are the region-entry contents (the definition projected; the valuation, a fold over the
    host lines before the region, is never unfolded to check it). -/
theorem A_eq (c : Dev nD) (w : Fin cfg0.W) : (dats m 0 c).A w = V m c (Pipeline.arrRef spec0 w) := by
  dsimp only [dats]

/-- The invariant at a point's start (the proof data at t.castSucc), restated at t.val. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
/-- The output window's buffer after point t is the accumulation's output component there. -/
theorem after_4 (c : Dev nD) (t : Fin cfg0.N) : (dats m 0 c).after 4 t = (outsAt m c t.val t.isLt).out := by dsimp only [dats]

/-- Each input's current staging buffer holds its block at every point, fetched there or not. -/
theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d
theorem before_3 (c : Dev nD) (t : Fin cfg0.N) (d) : (dats m 0 c).before 3 t d = iblk m c 3 t :=
  before_in3 m (dats m 0 c) (A_eq m c 3) (after_3 m c) t d

/-- An input's post at any point: its buffer at its block (the inputs are never idle). -/
theorem leaves_in0 (c : Dev nD) (t : Fin cfg0.N) :
    (dats m 0 c).leavesExact 0 t = owns (c : Thread nD τ) (ms0 t) fullShare (iblk m c 0 t) := by
  unfold Dat.leavesExact; rw [liveAt_in 0 (by decide) (grid0.coords t), after_0]
theorem leaves_in1 (c : Dev nD) (t : Fin cfg0.N) :
    (dats m 0 c).leavesExact 1 t = owns (c : Thread nD τ) (ms1 t) fullShare (iblk m c 1 t) := by
  unfold Dat.leavesExact; rw [liveAt_in 1 (by decide) (grid0.coords t), after_1]
theorem leaves_in2 (c : Dev nD) (t : Fin cfg0.N) :
    (dats m 0 c).leavesExact 2 t = owns (c : Thread nD τ) (ms2 t) fullShare (iblk m c 2 t) := by
  unfold Dat.leavesExact; rw [liveAt_in 2 (by decide) (grid0.coords t), after_2]
theorem leaves_in3 (c : Dev nD) (t : Fin cfg0.N) :
    (dats m 0 c).leavesExact 3 t = owns (c : Thread nD τ) (ms3 t) fullShare (iblk m c 3 t) := by
  unfold Dat.leavesExact; rw [liveAt_in 3 (by decide) (grid0.coords t), after_3]

/-- From the invariant before any point the class's invariant follows: what the accumulators hold is forgotten. -/
theorem PhiS_weaken (c : Dev nD) : ∀ (n : ℕ) (h : n ≤ cfg0.N), PhiS m c n h ⊢ (Pipeline.ΦA spec0 c : sProp 𝕄)
  | 0, _ => .rfl
  | n + 1, hn => PhiA_of_owned c _ _ _

/-! ## The body obligation, at a generic point -/

/-- What the body is called with at point t (the library's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at a tile's first chunk. The inputs' memrefs hold their blocks; the invariant hands over the three
    accumulators at anything (the body resets them before reading them); the output window is idle and its buffer
    goes back as it came; the accumulators come back at this point's contents, their pieces filling them. -/
theorem sound_first (c : Dev nD) (t : Fin cfg0.N) (h0 : t.val % 25 = 0) :
    bodyPre m c t ⊢ wp frame (wpE (defs₀ (F := F)) Variants.none c none) Set.univ (bodyAt0 t) (fun _ => bodyPost m c t) := by
  have hL : ¬condLast (grid0.coords t) := fun h => not_last_of_first h0 ((hcondLast t).mp h)
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  rw [Dat.leavesExact_idle (dats m 0 c) 4 t (idleAt4 t hL) (noFlush4 t hL)]
  rw [outsAt_first m c t h0]
  unfold firstHeld readBack; dsimp only
  rw [PhiS_castSucc m c t]
  refine (sep_mono (PhiS_weaken m c _ _) .rfl).trans ?_
  rw [PhiA_eq]
  iintro ⟨⟨⟨HS7, HS8, HS9⟩, Hg⟩, Ho, ⟨%d0, H0⟩, ⟨%d1, H1⟩, ⟨%d2, H2⟩, ⟨%d3, H3⟩, ⟨%d4, H4⟩⟩
  iapply ((firstAt m c t h0).2.2.2.2 _ Set.univ _)
  isplitl [H0]; · iexact H0
  isplitl [H1]; · iexact H1
  isplitl [H2]; · iexact H2
  isplitl [H3]; · iexact H3
  isplitl [H4]; · iexact H4
  isplitl [HS7]; · iexact HS7
  isplitl [HS8]; · iexact HS8
  isplitl [HS9]; · iexact HS9
  iintro ⟨H0, H1, H2, H3, H4, ⟨%e7, HS7⟩, ⟨%e8, HS8⟩, ⟨%e9, HS9⟩⟩
  isplitl [HS7 HS8 HS9 Hg]
  · isplitl [HS7 HS8 HS9]
    · isplitl [HS7]
      · unfold owns; iexists _; isplitr
        swap; · iexact HS7
        ipureintro; exact View.read_writes_of_cover _ _ _ _ _ (fun y => cover_first_mx ..)
      isplitl [HS8]
      · unfold owns; iexists _; isplitr
        swap; · iexact HS8
        ipureintro; exact View.read_writes_of_cover _ _ _ _ _ (fun y => cover_first_nrm ..)
      unfold owns; iexists _; isplitr
      swap; · iexact HS9
      ipureintro; exact View.read_writes_of_cover _ _ _ _ _ (fun y => cover_first_tgt ..)
    iexact Hg
  isplitl [Ho]; · iexact Ho
  isplitl [H0]; · iexact H0
  isplitl [H1]; · iexact H1
  isplitl [H2]; · iexact H2
  isplitl [H3]; · iexact H3
  iexists _; iexact H4

set_option maxHeartbeats 4800000 in
/-- The body at a chunk inside a tile. As at a first chunk, but the invariant hands over the accumulators at what
    the point before left, which the body reads. -/
theorem sound_mid (c : Dev nD) (t : Fin cfg0.N) (h0 : ¬t.val % 25 = 0) (h1 : ¬t.val % 25 = 24) :
    bodyPre m c t ⊢ wp frame (wpE (defs₀ (F := F)) Variants.none c none) Set.univ (bodyAt0 t) (fun _ => bodyPost m c t) := by
  have hL : ¬condLast (grid0.coords t) := fun h => h1 ((hcondLast t).mp h)
  have hz : t.val ≠ 0 := fun h => h0 (by rw [h])
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  rw [Dat.leavesExact_idle (dats m 0 c) 4 t (idleAt4 t hL) (noFlush4 t hL)]
  rw [outsAt_mid m c t h0 h1]
  unfold midHeld readBack; dsimp only
  rw [PhiS_castSucc m c t, PhiS_pos m c _ _ hz]
  iintro ⟨⟨⟨HS7, HS8, HS9⟩, Hg⟩, Ho, ⟨%d0, H0⟩, ⟨%d1, H1⟩, ⟨%d2, H2⟩, ⟨%d3, H3⟩, ⟨%d4, H4⟩⟩
  iapply ((midAt m c t h0 h1 (prevAt m c t)).2.2.2.2 _ Set.univ _)
  isplitl [H0]; · iexact H0
  isplitl [H1]; · iexact H1
  isplitl [H2]; · iexact H2
  isplitl [H3]; · iexact H3
  isplitl [H4]; · iexact H4
  isplitl [HS7]; · iexact HS7
  isplitl [HS8]; · iexact HS8
  isplitl [HS9]; · iexact HS9
  iintro ⟨H0, H1, H2, H3, H4, ⟨%e7, HS7⟩, ⟨%e8, HS8⟩, ⟨%e9, HS9⟩⟩
  isplitl [HS7 HS8 HS9 Hg]
  · isplitl [HS7 HS8 HS9]
    · isplitl [HS7]
      · unfold owns; iexists _; isplitr
        swap; · iexact HS7
        ipureintro; exact View.read_writes_of_cover _ _ _ _ _ (fun y => cover_mid_mx ..)
      isplitl [HS8]
      · unfold owns; iexists _; isplitr
        swap; · iexact HS8
        ipureintro; exact View.read_writes_of_cover _ _ _ _ _ (fun y => cover_mid_nrm ..)
      unfold owns; iexists _; isplitr
      swap; · iexact HS9
      ipureintro; exact View.read_writes_of_cover _ _ _ _ _ (fun y => cover_mid_tgt ..)
    iexact Hg
  isplitl [Ho]; · iexact Ho
  isplitl [H0]; · iexact H0
  isplitl [H1]; · iexact H1
  isplitl [H2]; · iexact H2
  isplitl [H3]; · iexact H3
  iexists _; iexact H4

set_option maxHeartbeats 4800000 in
/-- The body at a tile's last chunk. The accumulators as at an inner chunk; the output window is live: its buffer is
    handed over at anything (the body loads it, then stores the whole block) and comes back at this point's output
    component, the store's one piece filling it. -/
theorem sound_last (c : Dev nD) (t : Fin cfg0.N) (h1 : t.val % 25 = 24) :
    bodyPre m c t ⊢ wp frame (wpE (defs₀ (F := F)) Variants.none c none) Set.univ (bodyAt0 t) (fun _ => bodyPost m c t) := by
  have hL : condLast (grid0.coords t) := (hcondLast t).mpr h1
  have hz : t.val ≠ 0 := fun h => by rw [h] at h1; exact absurd h1 (by decide)
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  rw [show (dats m 0 c).leavesExact 4 t = owns (c : Thread nD τ) (ms4 t) fullShare ((dats m 0 c).after 4 t) from by
    unfold Dat.leavesExact; rw [liveAt4 t hL], after_4]
  rw [outsAt_last m c t h1]
  unfold lastHeld readBack; dsimp only
  rw [PhiS_castSucc m c t, PhiS_pos m c _ _ hz]
  iintro ⟨⟨⟨HS7, HS8, HS9⟩, Hg⟩, Ho, ⟨%d0, H0⟩, ⟨%d1, H1⟩, ⟨%d2, H2⟩, ⟨%d3, H3⟩, ⟨%d4, H4⟩⟩
  iapply ((lastAt m c t h1 (prevAt m c t)).2.2.2.2 Set.univ _)
  isplitl [H0]; · iexact H0
  isplitl [H1]; · iexact H1
  isplitl [H2]; · iexact H2
  isplitl [H3]; · iexact H3
  isplitl [H4]; · iexists _; iexact H4
  isplitl [HS7]; · iexact HS7
  isplitl [HS8]; · iexact HS8
  isplitl [HS9]; · iexact HS9
  iintro ⟨H0, H1, H2, H3, ⟨%e4, H4⟩, ⟨%e7, HS7⟩, ⟨%e8, HS8⟩, ⟨%e9, HS9⟩⟩
  isplitl [HS7 HS8 HS9 Hg]
  · isplitl [HS7 HS8 HS9]
    · isplitl [HS7]
      · unfold owns; iexists _; isplitr
        swap; · iexact HS7
        ipureintro; exact View.read_writes_of_cover _ _ _ _ _ (fun y => cover_last_mx ..)
      isplitl [HS8]
      · unfold owns; iexists _; isplitr
        swap; · iexact HS8
        ipureintro; exact View.read_writes_of_cover _ _ _ _ _ (fun y => cover_last_nrm ..)
      unfold owns; iexists _; isplitr
      swap; · iexact HS9
      ipureintro; exact View.read_writes_of_cover _ _ _ _ _ (fun y => cover_last_tgt ..)
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (fun y => cover_last_out ..)

/-- The body at any point: the closed forms of the two conditions say which of the three cases the point is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 25 = 0
  · exact sound_first m c t h0
  · by_cases h1 : t.val % 25 = 24
    · exact sound_last m c t h1
    · exact sound_mid m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.ΦA spec0 c : sProp 𝕄) ⊢ (dats m 0 c).Φ 0 := by
  rw [show (dats m 0 c).Φ 0 = PhiS m c 0 (Nat.zero_le _) from rfl, PhiS_zero m c 0 _ rfl]
  try exact .rfl

/-- After the last point the invariant gives the class's back. -/
theorem hout (c : Dev nD) : (dats m 0 c).Φ (Fin.last cfg0.N) ⊢ (Pipeline.ΦA spec0 c : sProp 𝕄) :=
  show PhiS m c (Fin.last cfg0.N).val (Nat.le_of_lt_succ (Fin.last cfg0.N).isLt) ⊢ (Pipeline.ΦA spec0 c : sProp 𝕄) from
    PhiS_weaken m c _ _

/-! ## The run and the frame -/

-- the frame rule's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the 78 lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- info: 'Cert.Kernel.Hand.run_main' depends on axioms: [propext, Classical.choice, Quot.sound] -/
#guard_msgs in #print axioms run_main

/-! ### The argument arrays through the lines after the region -/

/-- A stretch of host lines writes none of the four argument arrays: each line writes its own result buffer only. -/
abbrev KeepsArgs (ops : List (HloOp τ sig (Elt F))) : Prop :=
  ops.Forall fun op => Proc.devRef .tc main_arg0 ∉ op.writes ∧ Proc.devRef .tc main_arg1 ∉ op.writes
    ∧ Proc.devRef .tc main_arg2 ∉ op.writes ∧ Proc.devRef .tc main_arg3 ∉ op.writes

theorem hostOps1_keepsArgs : KeepsArgs (F := F) hostOps1 := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_1_keepsArgs : KeepsArgs (F := F) hostOps1_1 := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_2_keepsArgs : KeepsArgs (F := F) hostOps1_2 := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_3_keepsArgs : KeepsArgs (F := F) hostOps1_3 := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_4_keepsArgs : KeepsArgs (F := F) hostOps1_4 := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)

/-- No line after the region writes an argument array. -/
theorem tail_keepsArgs : ∀ op ∈ (tailOps (F := F)).flatten, Proc.devRef .tc main_arg0 ∉ op.writes ∧ Proc.devRef .tc main_arg1 ∉ op.writes
    ∧ Proc.devRef .tc main_arg2 ∉ op.writes ∧ Proc.devRef .tc main_arg3 ∉ op.writes := by
  intro op hop
  obtain ⟨ops, hops, hop⟩ := List.mem_flatten.mp hop
  simp only [List.mem_cons, List.mem_nil_iff, or_false] at hops
  rcases hops with rfl | rfl | rfl | rfl | rfl
  · exact (List.forall_iff_forall_mem.mp hostOps1_keepsArgs) op hop
  · exact (List.forall_iff_forall_mem.mp hostOps1_1_keepsArgs) op hop
  · exact (List.forall_iff_forall_mem.mp hostOps1_2_keepsArgs) op hop
  · exact (List.forall_iff_forall_mem.mp hostOps1_3_keepsArgs) op hop
  · exact (List.forall_iff_forall_mem.mp hostOps1_4_keepsArgs) op hop

/-- An argument array is no array of the pipeline (those are the five buffers the lines before the region and the
    region itself produce). -/
theorem arg0_no_window : ∀ w, Pipeline.arrRef spec0 w ≠ main_arg0 := by decide
theorem arg1_no_window : ∀ w, Pipeline.arrRef spec0 w ≠ main_arg1 := by decide
theorem arg2_no_window : ∀ w, Pipeline.arrRef spec0 w ≠ main_arg2 := by decide
theorem arg3_no_window : ∀ w, Pipeline.arrRef spec0 w ≠ main_arg3 := by decide

/-- So after the later lines each argument array holds what the launch gave it: no later line writes it, the region
    stages no window of it, and no line before the region writes it. -/
theorem tail_keeps_arg0 (c : Dev nD) :
    Pipeline.afterTail₀ cfgs (dats m) 0 (V0 m) tailOps c main_arg0 = m ((c.tc : Thread nD τ).loc main_arg0) := by
  unfold Pipeline.afterTail₀
  rw [StableHlo.after_of_forall_not_mem _ _ fun op hop => (tail_keepsArgs op hop).1,
    Pipeline.withArrays_of_ne _ _ _ _ main_arg0 arg0_no_window]
  exact V_main_arg0 m c
theorem tail_keeps_arg1 (c : Dev nD) :
    Pipeline.afterTail₀ cfgs (dats m) 0 (V0 m) tailOps c main_arg1 = m ((c.tc : Thread nD τ).loc main_arg1) := by
  unfold Pipeline.afterTail₀
  rw [StableHlo.after_of_forall_not_mem _ _ fun op hop => (tail_keepsArgs op hop).2.1,
    Pipeline.withArrays_of_ne _ _ _ _ main_arg1 arg1_no_window]
  exact V_main_arg1 m c
theorem tail_keeps_arg2 (c : Dev nD) :
    Pipeline.afterTail₀ cfgs (dats m) 0 (V0 m) tailOps c main_arg2 = m ((c.tc : Thread nD τ).loc main_arg2) := by
  unfold Pipeline.afterTail₀
  rw [StableHlo.after_of_forall_not_mem _ _ fun op hop => (tail_keepsArgs op hop).2.2.1,
    Pipeline.withArrays_of_ne _ _ _ _ main_arg2 arg2_no_window]
  exact V_main_arg2 m c
theorem tail_keeps_arg3 (c : Dev nD) :
    Pipeline.afterTail₀ cfgs (dats m) 0 (V0 m) tailOps c main_arg3 = m ((c.tc : Thread nD τ).loc main_arg3) := by
  unfold Pipeline.afterTail₀
  rw [StableHlo.after_of_forall_not_mem _ _ fun op hop => (tail_keepsArgs op hop).2.2.2,
    Pipeline.withArrays_of_ne _ _ _ _ main_arg3 arg3_no_window]
  exact V_main_arg3 m c

/-- The argument arrays, the output array's successor buffers and the result are unscoped buffers no window stages. -/
theorem arg0_rest : main_arg0 ∈ Pipeline.restRefs sig spec0 := Pipeline.mem_restRefs_of main_arg0 rfl (by decide)
theorem arg1_rest : main_arg1 ∈ Pipeline.restRefs sig spec0 := Pipeline.mem_restRefs_of main_arg1 rfl (by decide)
theorem arg2_rest : main_arg2 ∈ Pipeline.restRefs sig spec0 := Pipeline.mem_restRefs_of main_arg2 rfl (by decide)
theorem arg3_rest : main_arg3 ∈ Pipeline.restRefs sig spec0 := Pipeline.mem_restRefs_of main_arg3 rfl (by decide)
theorem result_rest : main_v41 ∈ Pipeline.restRefs sig spec0 := Pipeline.mem_restRefs_of main_v41 rfl (by decide)

/-! ### Reading the run's post -/

/-- The run's post at the output array (window 4's array): what the library computes from the proof data, the
    array at the region's entry overwritten by each row tile's block at the write-backs. -/
theorem post_out (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_v5) = (dats m 0 c).arrAt 4 cfg0.N := (h c).1 4

/-- The run's post at the result buffer: what the later lines compute from the region's exit contents. -/
theorem post_result (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_v41) = Pipeline.afterTail₀ cfgs (dats m) 0 (V0 m) tailOps c main_v41 :=
  (h c).2 main_v41 result_rest

/-- The run's post at the four argument arrays: unchanged. -/
theorem post_args (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 arg0_rest).trans (tail_keeps_arg0 m c), ((h c).2 main_arg1 arg1_rest).trans (tail_keeps_arg1 m c),
    ((h c).2 main_arg2 arg2_rest).trans (tail_keeps_arg2 m c), ((h c).2 main_arg3 arg3_rest).trans (tail_keeps_arg3 m c)⟩

/-- THE FRAME: the program runs (terminates, nothing faulting) and its four argument arrays end unchanged, at any
    reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => post_args m r h c) (run_main m ρ)

end Cert.Kernel.Hand

end
-- ==== Proof.KiKit.lean ====
/- The frame kit of the fused linear + streaming log-softmax kernel, at any float reading F: the valuation the
   region is entered with, @main around the region, the side conditions of the 78 host lines after it, the
   input windows' blocks and that their staging buffers hold them, the two branch conditions of the body in
   closed form over the 4 × 25 grid, where the output window is idle, the scratch operands as memrefs, and the
   frame invariant unfolded. -/
import proofs.«416803_j17583596109825_2_alg».proof.Proof.Gen.KernelIdeal.Launch
import proofs.«416803_j17583596109825_2_alg».proof.Proof.Gen.KernelIdeal.Skeleton
import proofs.«416803_j17583596109825_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's TensorCore buffers when the region is entered: after the five host lines before it (two reshapes of
    the hidden states and targets, the two roundings to bf16, the reshape of the bias). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The five stretches of host lines after the region, in order: 30 + 16 + 5 + 16 + 11 = 78 operations. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main around the region: the host lines before it, the region, then the 78 host lines after it; it reduces to
    the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the region touch unscoped TensorCore references only: the pipeline's arrays and the buffers
    that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- A stretch of host lines writes no array of the pipeline: each line writes its own result buffer only, and
    that is none of the five arrays. Stated per stretch as a List.Forall, so that the 78 lines are met by one
    tactic block each rather than case by case. -/
abbrev KeepsArrays (ops : List (HloOp τ sig (Elt F))) : Prop :=
  ops.Forall fun op => ∀ w, Proc.devRef .tc (Pipeline.arrRef spec0 w) ∉ op.writes

theorem hostOps1_keeps : KeepsArrays (F := F) hostOps1 := by
  simp only [List.Forall]
  repeat' apply And.intro
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_1_keeps : KeepsArrays (F := F) hostOps1_1 := by
  simp only [List.Forall]
  repeat' apply And.intro
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_2_keeps : KeepsArrays (F := F) hostOps1_2 := by
  simp only [List.Forall]
  repeat' apply And.intro
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_3_keeps : KeepsArrays (F := F) hostOps1_3 := by
  simp only [List.Forall]
  repeat' apply And.intro
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_4_keeps : KeepsArrays (F := F) hostOps1_4 := by
  simp only [List.Forall]
  repeat' apply And.intro
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-! ## The argument arrays as launched -/

/-- No host line before the region writes main_arg0 (the weight matrix): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
/-- Nor main_arg1 (the hidden states). -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
/-- Nor main_arg2 (the targets). -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
/-- Nor main_arg3 (the bias). -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the 1024 × 2048 tile of hidden states, refetched when the row tile changes): its current
    staging buffer holds its block at every point, fetched there or not, for any proof data whose array is the
    region-entry contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (the 1280 × 2048 chunk of weights, fetched at every point). -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 (the 1 × 1280 chunk of bias, fetched at every point). -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 (the 1024 × 1 tile of targets, refetched when the row tile changes). -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The condition of the body's first scf.if (the reset of the three accumulators), from the grid coordinates:
    the scalar chain the body computes, which says the chunk coordinate is 0. -/
abbrev condFirst (i : grid0.Coords) : Prop :=
  (Scalar.cmpi .ne (Scalar.extui (Scalar.cmpi .eq (BitVec.ofNat 32 (i 1).val) 0#32)) 0#32) = 1#1
/-- It holds at the points ≡ 0 (mod 25): the first chunk of each row tile. Decided over the 100 points. -/
theorem hcondFirst : ∀ t : Fin cfg0.N, condFirst (grid0.coords t) ↔ t.val % 25 = 0 :=
  (by decide +kernel : ∀ t : Fin grid0.N, condFirst (grid0.coords t) ↔ t.val % 25 = 0)

/-- The condition of the body's second scf.if (the store of the result), as the body computes it: the chunk
    coordinate is 24. -/
abbrev condLast (i : grid0.Coords) : Prop := k0_cond2 i = 1#1
/-- It holds at the points ≡ 24 (mod 25): the last chunk of each row tile. Decided over the 100 points. -/
theorem hcondLast : ∀ t : Fin cfg0.N, condLast (grid0.coords t) ↔ t.val % 25 = 24 :=
  (by decide +kernel : ∀ t : Fin grid0.N, condLast (grid0.coords t) ↔ t.val % 25 = 24)

/-- No point meets both: a row tile has 25 chunks. -/
theorem not_first_and_last (t : Fin cfg0.N) : ¬(condFirst (grid0.coords t) ∧ condLast (grid0.coords t)) := by
  rintro ⟨h0, h1⟩
  have a := (hcondFirst t).mp h0
  have b := (hcondLast t).mp h1
  omega

/-! ## Where the windows are idle -/

/-- The inputs are never idle. -/
theorem liveAt_in (w : Fin 5) (hw : w ≠ 4) : ∀ i : grid0.Coords, cfg0.idle w i = false := by
  fin_cases w <;> first | exact fun _ => rfl | exact absurd rfl hw
/-- Where the result is not stored (every chunk but the last) the configuration calls output window 4 idle: -/
theorem idleAt4 : ∀ t : Fin cfg0.N, ¬condLast (grid0.coords t) → cfg0.idle 4 (grid0.coords t) = true := by decide +kernel
/-- and the pipeline does not write its block back there. -/
theorem noFlush4 : ∀ t : Fin cfg0.N, ¬condLast (grid0.coords t) → (cfg0.win 4).flush t = false := by decide +kernel
/-- At the last chunk of a row tile it is live: the body stores the tile's result into it, -/
theorem liveAt4 : ∀ t : Fin cfg0.N, condLast (grid0.coords t) → cfg0.idle 4 (grid0.coords t) = false := by decide +kernel
/-- and the pipeline writes it back. -/
theorem flushAt4 : ∀ t : Fin cfg0.N, condLast (grid0.coords t) → (cfg0.win 4).flush t = true := by decide +kernel

/-! ## The staging and scratch memrefs -/

/-- One staging buffer of output window 4, through which its contents are stated (the choice does not matter). -/
abbrev VO4 : View sig .tc .vmem S1024x1 .f32 := (Memref.whole cc0_stg4_0 : Memref sig .tc .vmem S1024x1 .f32).view
/-- Each window's current staging memref at point t, spelled as the pipeline passes it, and its wholeness. -/
abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1280x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1280 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)

/-- The three scratch operands: whole scoped buffers of the kernel's own, passed beside the windows. arg7 carries
    the running maximum, arg8 the running normaliser, arg9 the running target logit. -/
abbrev scM7 : Memref sig .tc .vmem S1024x1 .f32 := Memref.whole cc0_scratch0
abbrev scM8 : Memref sig .tc .vmem S1024x1 .f32 := Memref.whole cc0_scratch1
abbrev scM9 : Memref sig .tc .vmem S1024x1 .f32 := Memref.whole cc0_scratch2
/-- Each as a view: what it holds is stated through it. -/
abbrev VS7 : View sig .tc .vmem S1024x1 .f32 := scM7.view
abbrev VS8 : View sig .tc .vmem S1024x1 .f32 := scM8.view
abbrev VS9 : View sig .tc .vmem S1024x1 .f32 := scM9.view

/-- The body at point t as the pipeline calls it is the kernel function on these memrefs. -/
theorem bodyAt0_eq (t : Fin cfg0.N) :
    bodyAt0 (F := F) t = cc0__simpo_logps_kernel (grid0.coords t) (ms0 t) (hs0 t) (ms1 t) (hs1 t) (ms2 t) (hs2 t) (ms3 t) (hs3 t)
      (ms4 t) (hs4 t) scM7 (Memref.isWhole_whole _) scM8 (Memref.isWhole_whole _) scM9 (Memref.isWhole_whole _) := rfl

/-- The frame invariant with the scratch operands as memrefs owned at some contents: what the body obligation
    hands the run and takes back. -/
theorem PhiA_eq (c : Dev nD) :
    (Pipeline.ΦA spec0 c : sProp 𝕄)
      = iprop(iprop((∃ d, owns (c : Thread nD τ) scM7 fullShare d) ∗ (∃ d, owns (c : Thread nD τ) scM8 fullShare d)
          ∗ (∃ d, owns (c : Thread nD τ) scM9 fullShare d)) ∗ (∃ r, prngReg c r)) := by
  unfold Pipeline.ΦA; rw [scopedRest0_eq]; simp only [scM7, scM8, scM9, owns_whole]; try rfl

end Cert.KernelIdeal.Hand

end
-- ==== Proof.KiRunFirst.lean ====
/- The body's run at the first chunk of a row tile: the kernel function on whole memrefs, the reset taken and the
   result not stored; the pieces each accumulator ends with are the witness the run finds. -/
import proofs.«416803_j17583596109825_2_alg».proof.Proof.KiKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST CHUNK OF A ROW TILE (the reset taken, the result not stored: chunk 0). What the body's stores leave
    in the three accumulators, as pieces (last first), WITH the proof that on whole staging memrefs — the four
    inputs' at their contents, the output's at contents xi4 handed back untouched (the body stores nothing into it
    here), the three accumulators at ANY contents (the body resets them before it reads them) — the kernel
    function runs to the continuation holding the inputs' as they were, the output's as it was, and each
    accumulator with its pieces written: arg7 twice (−∞, then the maximum with the chunk's row maxima), arg8 twice
    (0, then the rescaled normaliser plus the chunk's exponentials summed), arg9 twice (0, then plus the chunk's
    share of the target logit). The pieces are found by the run. -/
noncomputable def runFirst (c : Dev nD) (i : grid0.Coords) (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : condFirst i) (hc1 : ¬condLast i) (x0 : Vec F S1024x2048 .bf16) (x1 : Vec F S1280x2048 .bf16) (x2 : Vec F S1x1280 .f32) (x3 : Vec F S1024x1 .i32) :
    Σ' (L4 : List (View.Piece (Elt F) S1024x1 .f32)) (LS7 : List (View.Piece (Elt F) S1024x1 .f32)) (LS8 : List (View.Piece (Elt F) S1024x1 .f32)), { LS9 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__simpo_logps_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__simpo_logps_kernel_eq_skeleton]; unfold cc0__simpo_logps_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, HS7⟩, ⟨%d8, %f8, -, HS8⟩, ⟨%d9, %f9, -, HS9⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]; · iexists _; iexact HS7
    isplitl [HS8]; · iexists _; iexact HS8
    iexists _; iexact HS9

end Cert.KernelIdeal.Hand

end
-- ==== Proof.KiRunMid.lean ====
/- The body's run at a middle chunk of a row tile: the kernel function on whole memrefs, no reset and the result not
   stored; the accumulators come in at what the chunk before left, and the piece each ends with is the witness the
   run finds. -/
import proofs.«416803_j17583596109825_2_alg».proof.Proof.KiRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE CHUNK OF A ROW TILE (no reset, the result not stored: chunks 1 … 23). What the body's stores leave in
    the three accumulators, as pieces, WITH the proof that on whole staging memrefs — the four inputs' at their
    contents, the output's at contents xi4 handed back untouched, the three accumulators at the contents the chunk
    before left (xs7 the running maximum, xs8 the running normaliser, xs9 the running target logit) — the kernel
    function runs to the continuation holding the inputs' as they were, the output's as it was, and each
    accumulator with its one piece written: arg7 the maximum of xs7 with the chunk's row maxima, arg8 the
    normaliser xs8 rescaled to the new maximum plus the chunk's exponentials summed, arg9 the target logit xs9 plus
    the chunk's share. The pieces are found by the run. -/
noncomputable def runMid (c : Dev nD) (i : grid0.Coords) (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : ¬condFirst i) (hc1 : ¬condLast i) (x0 : Vec F S1024x2048 .bf16) (x1 : Vec F S1280x2048 .bf16) (x2 : Vec F S1x1280 .f32) (x3 : Vec F S1024x1 .i32) (xs7 xs8 xs9 : Vec F S1024x1 .f32) :
    Σ' (L4 : List (View.Piece (Elt F) S1024x1 .f32)) (LS7 : List (View.Piece (Elt F) S1024x1 .f32)) (LS8 : List (View.Piece (Elt F) S1024x1 .f32)), { LS9 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs7 ∗ owns (c : Thread nD τ) arg8 fullShare xs8 ∗ owns (c : Thread nD τ) arg9 fullShare xs9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__simpo_logps_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__simpo_logps_kernel_eq_skeleton]; unfold cc0__simpo_logps_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, HS7⟩, ⟨%f8, %hf8, HS8⟩, ⟨%f9, %hf9, HS9⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf7; obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]; · iexists _; iexact HS7
    isplitl [HS8]; · iexists _; iexact HS8
    iexists _; iexact HS9

end Cert.KernelIdeal.Hand

end
-- ==== Proof.KiRunLast.lean ====
/- The body's run at the last chunk of a row tile: the kernel function on whole memrefs, no reset and the result
   stored into the output's buffer; the pieces the accumulators and the output end with are the witness the run
   finds. -/
import proofs.«416803_j17583596109825_2_alg».proof.Proof.KiRunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST CHUNK OF A ROW TILE (no reset, the result stored: chunk 24). What the body's stores leave in the output's
    staging memref and in the three accumulators, as pieces, WITH the proof that on whole staging memrefs — the
    four inputs' at their contents, the output's at ANYTHING (the body covers it), the three accumulators at the
    contents the chunk before left (xs7, xs8, xs9) — the kernel function runs to the continuation holding the
    inputs' as they were, each accumulator with its one piece written (as at a middle chunk), and the output's
    buffer with its one piece written: the final target logit minus (the final maximum plus the logarithm of the
    final normaliser), read off the accumulators after this chunk's stores. The pieces are found by the run. -/
noncomputable def runLast (c : Dev nD) (i : grid0.Coords) (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : ¬condFirst i) (hc1 : condLast i) (x0 : Vec F S1024x2048 .bf16) (x1 : Vec F S1280x2048 .bf16) (x2 : Vec F S1x1280 .f32) (x3 : Vec F S1024x1 .i32) (xs7 xs8 xs9 : Vec F S1024x1 .f32) :
    Σ' (L4 : List (View.Piece (Elt F) S1024x1 .f32)) (LS7 : List (View.Piece (Elt F) S1024x1 .f32)) (LS8 : List (View.Piece (Elt F) S1024x1 .f32)), { LS9 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs7 ∗ owns (c : Thread nD τ) arg8 fullShare xs8 ∗ owns (c : Thread nD τ) arg9 fullShare xs9
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__simpo_logps_kernel i arg2 harg2 arg3 harg3 arg4 harg4 arg5 harg5 arg6 harg6 arg7 harg7 arg8 harg8 arg9 harg9) K } := by
  refine ⟨?_, ?_, ?_, ?_, fun E K => ?run⟩
  case run =>
    simp only [cc0__simpo_logps_kernel_eq_skeleton]; unfold cc0__simpo_logps_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%f7, %hf7, HS7⟩, ⟨%f8, %hf8, HS8⟩, ⟨%f9, %hf9, HS9⟩, Hk⟩
    obtain rfl := harg2.eq_unread hf0; obtain rfl := harg3.eq_unread hf1; obtain rfl := harg4.eq_unread hf2
    obtain rfl := harg5.eq_unread hf3
    obtain rfl := harg7.eq_unread hf7; obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS7]; · iexists _; iexact HS7
    isplitl [HS8]; · iexists _; iexact HS8
    iexists _; iexact HS9

end Cert.KernelIdeal.Hand

end
-- ==== Proof.KiFrame.lean ====
/-
  The frame of the fused linear + streaming log-softmax kernel, at any reading F of the floats.

  The grid is 4 row tiles × 25 vocabulary chunks, walked tile by tile. Per point the body falls in one of three
  cases: a tile's first chunk (it resets the three accumulators, then takes the chunk in), an inner chunk (it takes
  the chunk in over what the point before left), a tile's last chunk (as an inner chunk, then it stores the tile's
  result into the output block). This file says what the output block and the three accumulators hold after each
  point (outsAt, by recursion on the point, with one equation per case), gives the pipeline's proof data over
  that, discharges the library's body obligation case by case from the three runs, and concludes the run of the
  whole program and the frame claim: the four argument arrays end as they were launched.
-/
import proofs.«416803_j17583596109825_2_alg».proof.Proof.KiRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a grid point leaves, case by case -/

/-- What the four buffers the body stores into hold once a grid point's body has run: the output block and the three
    carried accumulators (the running maximum, the running normaliser, the running target logit), one value per
    row of the tile. -/
structure Held (F : FTy → Type) where
  /-- the output block's staging buffer -/
  out : Vec F S1024x1 .f32
  /-- the running maximum -/
  mx : Vec F S1024x1 .f32
  /-- the running normaliser -/
  nrm : Vec F S1024x1 .f32
  /-- the running target logit -/
  tgt : Vec F S1024x1 .f32

/-- The four buffers at a case's pieces read back (each list over contents that do not matter once the pieces fill
    the buffer). A case that stores nothing into the output block has no pieces for it: its component is then a
    placeholder nothing consults, the window being idle there, neither written back nor read at the next point. -/
def readBack (L4 LS7 LS8 LS9 : List (View.Piece (Elt F) S1024x1 .f32)) : Held F where
  out := VO4.read (Elt F) (VO4.writes (Elt F) VO4.junk L4)
  mx := VS7.read (Elt F) (VS7.writes (Elt F) VS7.junk LS7)
  nrm := VS8.read (Elt F) (VS8.writes (Elt F) VS8.junk LS8)
  tgt := VS9.read (Elt F) (VS9.writes (Elt F) VS9.junk LS9)

/-- A grid point opening a row tile is not the one closing it: a tile has 25 chunks. -/
theorem not_last_of_first {n : ℕ} (h0 : n % 25 = 0) : ¬n % 25 = 24 := by omega
/-- Nor the other way round. -/
theorem not_first_of_last {n : ℕ} (h1 : n % 25 = 24) : ¬n % 25 = 0 := by omega

/-- The body of a tile's first chunk, at grid point t, on the memrefs and input blocks the pipeline passes there. -/
abbrev firstAt (c : Dev nD) (t : Fin cfg0.N) (h0 : t.val % 25 = 0) :=
  runFirst (F := F) c (grid0.coords t) (ms0 t) (hs0 t) (ms1 t) (hs1 t) (ms2 t) (hs2 t) (ms3 t) (hs3 t) (ms4 t) (hs4 t)
    scM7 (Memref.isWhole_whole _) scM8 (Memref.isWhole_whole _) scM9 (Memref.isWhole_whole _)
    ((hcondFirst t).mpr h0) (fun h => not_last_of_first h0 ((hcondLast t).mp h))
    (iblk m c 0 t) (iblk m c 1 t) (iblk m c 2 t) (iblk m c 3 t)

/-- The body of a chunk inside a tile (neither first nor last), at grid point t, over the accumulators p the point
    before left. -/
abbrev midAt (c : Dev nD) (t : Fin cfg0.N) (h0 : ¬t.val % 25 = 0) (h1 : ¬t.val % 25 = 24) (p : Held F) :=
  runMid (F := F) c (grid0.coords t) (ms0 t) (hs0 t) (ms1 t) (hs1 t) (ms2 t) (hs2 t) (ms3 t) (hs3 t) (ms4 t) (hs4 t)
    scM7 (Memref.isWhole_whole _) scM8 (Memref.isWhole_whole _) scM9 (Memref.isWhole_whole _)
    (fun h => h0 ((hcondFirst t).mp h)) (fun h => h1 ((hcondLast t).mp h))
    (iblk m c 0 t) (iblk m c 1 t) (iblk m c 2 t) (iblk m c 3 t) p.mx p.nrm p.tgt

/-- The body of a tile's last chunk, at grid point t, over the accumulators p the point before left. -/
abbrev lastAt (c : Dev nD) (t : Fin cfg0.N) (h1 : t.val % 25 = 24) (p : Held F) :=
  runLast (F := F) c (grid0.coords t) (ms0 t) (hs0 t) (ms1 t) (hs1 t) (ms2 t) (hs2 t) (ms3 t) (hs3 t) (ms4 t) (hs4 t)
    scM7 (Memref.isWhole_whole _) scM8 (Memref.isWhole_whole _) scM9 (Memref.isWhole_whole _)
    (fun h => not_first_of_last h1 ((hcondFirst t).mp h)) ((hcondLast t).mpr h1)
    (iblk m c 0 t) (iblk m c 1 t) (iblk m c 2 t) (iblk m c 3 t) p.mx p.nrm p.tgt

/-- What a tile's first chunk leaves: the three accumulators at its pieces read back (it resets them, so nothing
    before it matters); the output block untouched. -/
def firstHeld (c : Dev nD) (t : Fin cfg0.N) (h0 : t.val % 25 = 0) : Held F :=
  readBack (firstAt m c t h0).1 (firstAt m c t h0).2.1 (firstAt m c t h0).2.2.1 (firstAt m c t h0).2.2.2.1

/-- What a chunk inside a tile leaves, over what the point before left: the three accumulators at its pieces read
    back; the output block untouched. -/
def midHeld (c : Dev nD) (t : Fin cfg0.N) (h0 : ¬t.val % 25 = 0) (h1 : ¬t.val % 25 = 24) (p : Held F) : Held F :=
  readBack (midAt m c t h0 h1 p).1 (midAt m c t h0 h1 p).2.1 (midAt m c t h0 h1 p).2.2.1 (midAt m c t h0 h1 p).2.2.2.1

/-- What a tile's last chunk leaves, over what the point before left: the output block and the three accumulators at
    its pieces read back. -/
def lastHeld (c : Dev nD) (t : Fin cfg0.N) (h1 : t.val % 25 = 24) (p : Held F) : Held F :=
  readBack (lastAt m c t h1 p).1 (lastAt m c t h1 p).2.1 (lastAt m c t h1 p).2.2.1 (lastAt m c t h1 p).2.2.2.1

/-! ## What the four buffers hold after each grid point -/

/-- THE ACCUMULATION: what the output block and the three accumulators hold after the body at position n. A
    tile's first chunk depends on nothing before it; every other chunk runs over what the point before left. -/
def outsAt (c : Dev nD) : (n : ℕ) → n < cfg0.N → Held F
  | 0, hn => firstHeld m c ⟨0, hn⟩ (Nat.zero_mod _)
  | n + 1, hn =>
    if h0 : (n + 1) % 25 = 0 then firstHeld m c ⟨n + 1, hn⟩ h0
    else if h1 : (n + 1) % 25 = 24 then lastHeld m c ⟨n + 1, hn⟩ h1 (outsAt c n (Nat.lt_of_succ_lt hn))
    else midHeld m c ⟨n + 1, hn⟩ h0 h1 (outsAt c n (Nat.lt_of_succ_lt hn))

/-- What the point before t left (read at position t - 1; at t = 0 this is position 0 itself, where no case
    that reads it is met). -/
abbrev prevAt (c : Dev nD) (t : Fin cfg0.N) : Held F :=
  outsAt m c (t.val - 1) (Nat.lt_of_le_of_lt (Nat.sub_le _ _) t.isLt)

/-- At a tile's first chunk: that case's contents. -/
theorem outsAt_first (c : Dev nD) (t : Fin cfg0.N) (h0 : t.val % 25 = 0) :
    outsAt m c t.val t.isLt = firstHeld m c t h0 := by
  obtain ⟨n, hn⟩ := t
  cases n with
  | zero => rfl
  | succ n => exact dif_pos h0

/-- At a chunk inside a tile: that case's contents over what the point before left. -/
theorem outsAt_mid (c : Dev nD) (t : Fin cfg0.N) (h0 : ¬t.val % 25 = 0) (h1 : ¬t.val % 25 = 24) :
    outsAt m c t.val t.isLt = midHeld m c t h0 h1 (prevAt m c t) := by
  obtain ⟨n, hn⟩ := t
  cases n with
  | zero => exact absurd (Nat.zero_mod _) h0
  | succ n => exact (dif_neg h0).trans (dif_neg h1)

/-- At a tile's last chunk: that case's contents over what the point before left. -/
theorem outsAt_last (c : Dev nD) (t : Fin cfg0.N) (h1 : t.val % 25 = 24) :
    outsAt m c t.val t.isLt = lastHeld m c t h1 (prevAt m c t) := by
  obtain ⟨n, hn⟩ := t
  cases n with
  | zero => exact absurd h1 (show ¬(0 % 25 = 24) by decide)
  | succ n => exact (dif_neg (not_first_of_last h1)).trans (dif_pos h1)

/-! ## The cover lemmas: each case's pieces fill the buffer they are stored into -/

section Covers

variable (c : Dev nD) (i : grid0.Coords)
  (arg2 : Memref sig .tc .vmem S1024x2048 .bf16) (harg2 : arg2.IsWhole) (arg3 : Memref sig .tc .vmem S1280x2048 .bf16) (harg3 : arg3.IsWhole)
  (arg4 : Memref sig .tc .vmem S1x1280 .f32) (harg4 : arg4.IsWhole) (arg5 : Memref sig .tc .vmem S1024x1 .i32) (harg5 : arg5.IsWhole)
  (arg6 : Memref sig .tc .vmem S1024x1 .f32) (harg6 : arg6.IsWhole) (arg7 : Memref sig .tc .vmem S1024x1 .f32) (harg7 : arg7.IsWhole)
  (arg8 : Memref sig .tc .vmem S1024x1 .f32) (harg8 : arg8.IsWhole) (arg9 : Memref sig .tc .vmem S1024x1 .f32) (harg9 : arg9.IsWhole)
  (x0 : Vec F S1024x2048 .bf16) (x1 : Vec F S1280x2048 .bf16) (x2 : Vec F S1x1280 .f32) (x3 : Vec F S1024x1 .i32)
  (xs7 xs8 xs9 : Vec F S1024x1 .f32)

/-- The first chunk's pieces for the running maximum fill its buffer: whole-buffer stores. -/
theorem cover_first_mx (hc0 : condFirst i) (hc1 : ¬condLast i) :
    ∀ y : S1024x1.Idx, ∃ pc ∈ (runFirst (F := F) c i arg2 harg2 arg3 harg3 arg4 harg4 arg5 harg5 arg6 harg6 arg7 harg7 arg8 harg8 arg9 harg9 hc0 hc1 x0 x1 x2 x3).2.1, y ∈ pc.1.set :=
  View.cover_of_tiledL _ S1024x1.size (by sl_kernel_rfl)
/-- The first chunk's pieces for the running normaliser fill its buffer. -/
theorem cover_first_nrm (hc0 : condFirst i) (hc1 : ¬condLast i) :
    ∀ y : S1024x1.Idx, ∃ pc ∈ (runFirst (F := F) c i arg2 harg2 arg3 harg3 arg4 harg4 arg5 harg5 arg6 harg6 arg7 harg7 arg8 harg8 arg9 harg9 hc0 hc1 x0 x1 x2 x3).2.2.1, y ∈ pc.1.set :=
  View.cover_of_tiledL _ S1024x1.size (by sl_kernel_rfl)
/-- The first chunk's pieces for the running target logit fill its buffer. -/
theorem cover_first_tgt (hc0 : condFirst i) (hc1 : ¬condLast i) :
    ∀ y : S1024x1.Idx, ∃ pc ∈ (runFirst (F := F) c i arg2 harg2 arg3 harg3 arg4 harg4 arg5 harg5 arg6 harg6 arg7 harg7 arg8 harg8 arg9 harg9 hc0 hc1 x0 x1 x2 x3).2.2.2.1, y ∈ pc.1.set :=
  View.cover_of_tiledL _ S1024x1.size (by sl_kernel_rfl)

/-- An inner chunk's pieces for the running maximum fill its buffer. -/
theorem cover_mid_mx (hc0 : ¬condFirst i) (hc1 : ¬condLast i) :
    ∀ y : S1024x1.Idx, ∃ pc ∈ (runMid (F := F) c i arg2 harg2 arg3 harg3 arg4 harg4 arg5 harg5 arg6 harg6 arg7 harg7 arg8 harg8 arg9 harg9 hc0 hc1 x0 x1 x2 x3 xs7 xs8 xs9).2.1, y ∈ pc.1.set :=
  View.cover_of_tiledL _ S1024x1.size (by sl_kernel_rfl)
/-- An inner chunk's pieces for the running normaliser fill its buffer. -/
theorem cover_mid_nrm (hc0 : ¬condFirst i) (hc1 : ¬condLast i) :
    ∀ y : S1024x1.Idx, ∃ pc ∈ (runMid (F := F) c i arg2 harg2 arg3 harg3 arg4 harg4 arg5 harg5 arg6 harg6 arg7 harg7 arg8 harg8 arg9 harg9 hc0 hc1 x0 x1 x2 x3 xs7 xs8 xs9).2.2.1, y ∈ pc.1.set :=
  View.cover_of_tiledL _ S1024x1.size (by sl_kernel_rfl)
/-- An inner chunk's pieces for the running target logit fill its buffer. -/
theorem cover_mid_tgt (hc0 : ¬condFirst i) (hc1 : ¬condLast i) :
    ∀ y : S1024x1.Idx, ∃ pc ∈ (runMid (F := F) c i arg2 harg2 arg3 harg3 arg4 harg4 arg5 harg5 arg6 harg6 arg7 harg7 arg8 harg8 arg9 harg9 hc0 hc1 x0 x1 x2 x3 xs7 xs8 xs9).2.2.2.1, y ∈ pc.1.set :=
  View.cover_of_tiledL _ S1024x1.size (by sl_kernel_rfl)

/-- The last chunk's pieces for the output block fill it: one whole-block store. -/
theorem cover_last_out (hc0 : ¬condFirst i) (hc1 : condLast i) :
    ∀ y : S1024x1.Idx, ∃ pc ∈ (runLast (F := F) c i arg2 harg2 arg3 harg3 arg4 harg4 arg5 harg5 arg6 harg6 arg7 harg7 arg8 harg8 arg9 harg9 hc0 hc1 x0 x1 x2 x3 xs7 xs8 xs9).1, y ∈ pc.1.set :=
  View.cover_of_tiledL _ S1024x1.size (by sl_kernel_rfl)
/-- The last chunk's pieces for the running maximum fill its buffer. -/
theorem cover_last_mx (hc0 : ¬condFirst i) (hc1 : condLast i) :
    ∀ y : S1024x1.Idx, ∃ pc ∈ (runLast (F := F) c i arg2 harg2 arg3 harg3 arg4 harg4 arg5 harg5 arg6 harg6 arg7 harg7 arg8 harg8 arg9 harg9 hc0 hc1 x0 x1 x2 x3 xs7 xs8 xs9).2.1, y ∈ pc.1.set :=
  View.cover_of_tiledL _ S1024x1.size (by sl_kernel_rfl)
/-- The last chunk's pieces for the running normaliser fill its buffer. -/
theorem cover_last_nrm (hc0 : ¬condFirst i) (hc1 : condLast i) :
    ∀ y : S1024x1.Idx, ∃ pc ∈ (runLast (F := F) c i arg2 harg2 arg3 harg3 arg4 harg4 arg5 harg5 arg6 harg6 arg7 harg7 arg8 harg8 arg9 harg9 hc0 hc1 x0 x1 x2 x3 xs7 xs8 xs9).2.2.1, y ∈ pc.1.set :=
  View.cover_of_tiledL _ S1024x1.size (by sl_kernel_rfl)
/-- The last chunk's pieces for the running target logit fill its buffer. -/
theorem cover_last_tgt (hc0 : ¬condFirst i) (hc1 : condLast i) :
    ∀ y : S1024x1.Idx, ∃ pc ∈ (runLast (F := F) c i arg2 harg2 arg3 harg3 arg4 harg4 arg5 harg5 arg6 harg6 arg7 harg7 arg8 harg8 arg9 harg9 hc0 hc1 x0 x1 x2 x3 xs7 xs8 xs9).2.2.2.1, y ∈ pc.1.set :=
  View.cover_of_tiledL _ S1024x1.size (by sl_kernel_rfl)

end Covers

/-! ## The region invariant -/

/-- The region invariant before position n. Before the first point it is the class's (every scratch buffer at
    anything, the generator register at some state); afterwards the three accumulators are owned at what the point
    before left in them, and the generator register at some state. -/
def PhiS (c : Dev nD) : (n : ℕ) → n ≤ cfg0.N → sProp 𝕄
  | 0, _ => Pipeline.ΦA spec0 c
  | n + 1, hn => iprop(iprop(owns (c : Thread nD τ) scM7 fullShare (outsAt m c n hn).mx ∗ owns (c : Thread nD τ) scM8 fullShare (outsAt m c n hn).nrm
      ∗ owns (c : Thread nD τ) scM9 fullShare (outsAt m c n hn).tgt) ∗ (∃ r, prngReg c r))

theorem PhiS_zero (c : Dev nD) (n : ℕ) (h : n ≤ cfg0.N) (hz : n = 0) : PhiS m c n h = Pipeline.ΦA spec0 c := by
  subst hz; rfl

/-- After point n (before point n + 1): the accumulators at that point's contents. -/
theorem PhiS_succ (c : Dev nD) (n : ℕ) (hn : n < cfg0.N) :
    PhiS m c (n + 1) hn = iprop(iprop(owns (c : Thread nD τ) scM7 fullShare (outsAt m c n hn).mx ∗ owns (c : Thread nD τ) scM8 fullShare (outsAt m c n hn).nrm
      ∗ owns (c : Thread nD τ) scM9 fullShare (outsAt m c n hn).tgt) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) scM7 fullShare (outsAt m c (n - 1) (by omega)).mx ∗ owns (c : Thread nD τ) scM8 fullShare (outsAt m c (n - 1) (by omega)).nrm
      ∗ owns (c : Thread nD τ) scM9 fullShare (outsAt m c (n - 1) (by omega)).tgt) ∗ (∃ r, prngReg c r)) := by
  cases n with
  | zero => exact absurd rfl hz
  | succ n => rfl

/-- Whatever the accumulators are owned at, the class's invariant follows: their contents are forgotten. -/
theorem PhiA_of_owned (c : Dev nD) (a b g : Vec F S1024x1 .f32) :
    iprop(iprop(owns (c : Thread nD τ) scM7 fullShare a ∗ owns (c : Thread nD τ) scM8 fullShare b ∗ owns (c : Thread nD τ) scM9 fullShare g) ∗ (∃ r, prngReg c r))
      ⊢ (Pipeline.ΦA spec0 c : sProp 𝕄) := by
  rw [PhiA_eq]
  iintro ⟨⟨H7, H8, H9⟩, Hg⟩
  isplitr [Hg]
  · isplitl [H7]; · iexists _; iexact H7
    isplitl [H8]; · iexists _; iexact H8
    iexists _; iexact H9
  iexact Hg

/-! ## The pipeline's proof data -/

/-- The proof data of the one pipeline on core c: the arrays as the region finds them; after the body at point t
    each input's buffer at its block and the output's at the accumulation's output component; the invariant above;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).out
  Φ t := PhiS m c t.val (Nat.le_of_lt_succ t.isLt)
  q _ := fullShare
  owed _ := 0

/-- The proof data's arrays are the region-entry contents (the definition projected; the valuation, a fold over the
    host lines before the region, is never unfolded to check it). -/
theorem A_eq (c : Dev nD) (w : Fin cfg0.W) : (dats m 0 c).A w = V m c (Pipeline.arrRef spec0 w) := by
  dsimp only [dats]

/-- The invariant at a point's start (the proof data at t.castSucc), restated at t.val. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
/-- The output window's buffer after point t is the accumulation's output component there. -/
theorem after_4 (c : Dev nD) (t : Fin cfg0.N) : (dats m 0 c).after 4 t = (outsAt m c t.val t.isLt).out := by dsimp only [dats]

/-- Each input's current staging buffer holds its block at every point, fetched there or not. -/
theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d
theorem before_3 (c : Dev nD) (t : Fin cfg0.N) (d) : (dats m 0 c).before 3 t d = iblk m c 3 t :=
  before_in3 m (dats m 0 c) (A_eq m c 3) (after_3 m c) t d

/-- An input's post at any point: its buffer at its block (the inputs are never idle). -/
theorem leaves_in0 (c : Dev nD) (t : Fin cfg0.N) :
    (dats m 0 c).leavesExact 0 t = owns (c : Thread nD τ) (ms0 t) fullShare (iblk m c 0 t) := by
  unfold Dat.leavesExact; rw [liveAt_in 0 (by decide) (grid0.coords t), after_0]
theorem leaves_in1 (c : Dev nD) (t : Fin cfg0.N) :
    (dats m 0 c).leavesExact 1 t = owns (c : Thread nD τ) (ms1 t) fullShare (iblk m c 1 t) := by
  unfold Dat.leavesExact; rw [liveAt_in 1 (by decide) (grid0.coords t), after_1]
theorem leaves_in2 (c : Dev nD) (t : Fin cfg0.N) :
    (dats m 0 c).leavesExact 2 t = owns (c : Thread nD τ) (ms2 t) fullShare (iblk m c 2 t) := by
  unfold Dat.leavesExact; rw [liveAt_in 2 (by decide) (grid0.coords t), after_2]
theorem leaves_in3 (c : Dev nD) (t : Fin cfg0.N) :
    (dats m 0 c).leavesExact 3 t = owns (c : Thread nD τ) (ms3 t) fullShare (iblk m c 3 t) := by
  unfold Dat.leavesExact; rw [liveAt_in 3 (by decide) (grid0.coords t), after_3]

/-- From the invariant before any point the class's invariant follows: what the accumulators hold is forgotten. -/
theorem PhiS_weaken (c : Dev nD) : ∀ (n : ℕ) (h : n ≤ cfg0.N), PhiS m c n h ⊢ (Pipeline.ΦA spec0 c : sProp 𝕄)
  | 0, _ => .rfl
  | n + 1, hn => PhiA_of_owned c _ _ _

/-! ## The body obligation, at a generic point -/

/-- What the body is called with at point t (the library's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at a tile's first chunk. The inputs' memrefs hold their blocks; the invariant hands over the three
    accumulators at anything (the body resets them before reading them); the output window is idle and its buffer
    goes back as it came; the accumulators come back at this point's contents, their pieces filling them. -/
theorem sound_first (c : Dev nD) (t : Fin cfg0.N) (h0 : t.val % 25 = 0) :
    bodyPre m c t ⊢ wp frame (wpE (defs₀ (F := F)) Variants.none c none) Set.univ (bodyAt0 t) (fun _ => bodyPost m c t) := by
  have hL : ¬condLast (grid0.coords t) := fun h => not_last_of_first h0 ((hcondLast t).mp h)
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  rw [Dat.leavesExact_idle (dats m 0 c) 4 t (idleAt4 t hL) (noFlush4 t hL)]
  rw [outsAt_first m c t h0]
  unfold firstHeld readBack; dsimp only
  rw [PhiS_castSucc m c t]
  refine (sep_mono (PhiS_weaken m c _ _) .rfl).trans ?_
  rw [PhiA_eq]
  iintro ⟨⟨⟨HS7, HS8, HS9⟩, Hg⟩, Ho, ⟨%d0, H0⟩, ⟨%d1, H1⟩, ⟨%d2, H2⟩, ⟨%d3, H3⟩, ⟨%d4, H4⟩⟩
  iapply ((firstAt m c t h0).2.2.2.2 _ Set.univ _)
  isplitl [H0]; · iexact H0
  isplitl [H1]; · iexact H1
  isplitl [H2]; · iexact H2
  isplitl [H3]; · iexact H3
  isplitl [H4]; · iexact H4
  isplitl [HS7]; · iexact HS7
  isplitl [HS8]; · iexact HS8
  isplitl [HS9]; · iexact HS9
  iintro ⟨H0, H1, H2, H3, H4, ⟨%e7, HS7⟩, ⟨%e8, HS8⟩, ⟨%e9, HS9⟩⟩
  isplitl [HS7 HS8 HS9 Hg]
  · isplitl [HS7 HS8 HS9]
    · isplitl [HS7]
      · unfold owns; iexists _; isplitr
        swap; · iexact HS7
        ipureintro; exact View.read_writes_of_cover _ _ _ _ _ (fun y => cover_first_mx ..)
      isplitl [HS8]
      · unfold owns; iexists _; isplitr
        swap; · iexact HS8
        ipureintro; exact View.read_writes_of_cover _ _ _ _ _ (fun y => cover_first_nrm ..)
      unfold owns; iexists _; isplitr
      swap; · iexact HS9
      ipureintro; exact View.read_writes_of_cover _ _ _ _ _ (fun y => cover_first_tgt ..)
    iexact Hg
  isplitl [Ho]; · iexact Ho
  isplitl [H0]; · iexact H0
  isplitl [H1]; · iexact H1
  isplitl [H2]; · iexact H2
  isplitl [H3]; · iexact H3
  iexists _; iexact H4

set_option maxHeartbeats 4800000 in
/-- The body at a chunk inside a tile. As at a first chunk, but the invariant hands over the accumulators at what
    the point before left, which the body reads. -/
theorem sound_mid (c : Dev nD) (t : Fin cfg0.N) (h0 : ¬t.val % 25 = 0) (h1 : ¬t.val % 25 = 24) :
    bodyPre m c t ⊢ wp frame (wpE (defs₀ (F := F)) Variants.none c none) Set.univ (bodyAt0 t) (fun _ => bodyPost m c t) := by
  have hL : ¬condLast (grid0.coords t) := fun h => h1 ((hcondLast t).mp h)
  have hz : t.val ≠ 0 := fun h => h0 (by rw [h])
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  rw [Dat.leavesExact_idle (dats m 0 c) 4 t (idleAt4 t hL) (noFlush4 t hL)]
  rw [outsAt_mid m c t h0 h1]
  unfold midHeld readBack; dsimp only
  rw [PhiS_castSucc m c t, PhiS_pos m c _ _ hz]
  iintro ⟨⟨⟨HS7, HS8, HS9⟩, Hg⟩, Ho, ⟨%d0, H0⟩, ⟨%d1, H1⟩, ⟨%d2, H2⟩, ⟨%d3, H3⟩, ⟨%d4, H4⟩⟩
  iapply ((midAt m c t h0 h1 (prevAt m c t)).2.2.2.2 _ Set.univ _)
  isplitl [H0]; · iexact H0
  isplitl [H1]; · iexact H1
  isplitl [H2]; · iexact H2
  isplitl [H3]; · iexact H3
  isplitl [H4]; · iexact H4
  isplitl [HS7]; · iexact HS7
  isplitl [HS8]; · iexact HS8
  isplitl [HS9]; · iexact HS9
  iintro ⟨H0, H1, H2, H3, H4, ⟨%e7, HS7⟩, ⟨%e8, HS8⟩, ⟨%e9, HS9⟩⟩
  isplitl [HS7 HS8 HS9 Hg]
  · isplitl [HS7 HS8 HS9]
    · isplitl [HS7]
      · unfold owns; iexists _; isplitr
        swap; · iexact HS7
        ipureintro; exact View.read_writes_of_cover _ _ _ _ _ (fun y => cover_mid_mx ..)
      isplitl [HS8]
      · unfold owns; iexists _; isplitr
        swap; · iexact HS8
        ipureintro; exact View.read_writes_of_cover _ _ _ _ _ (fun y => cover_mid_nrm ..)
      unfold owns; iexists _; isplitr
      swap; · iexact HS9
      ipureintro; exact View.read_writes_of_cover _ _ _ _ _ (fun y => cover_mid_tgt ..)
    iexact Hg
  isplitl [Ho]; · iexact Ho
  isplitl [H0]; · iexact H0
  isplitl [H1]; · iexact H1
  isplitl [H2]; · iexact H2
  isplitl [H3]; · iexact H3
  iexists _; iexact H4

set_option maxHeartbeats 4800000 in
/-- The body at a tile's last chunk. The accumulators as at an inner chunk; the output window is live: its buffer is
    handed over at anything (the body loads it, then stores the whole block) and comes back at this point's output
    component, the store's one piece filling it. -/
theorem sound_last (c : Dev nD) (t : Fin cfg0.N) (h1 : t.val % 25 = 24) :
    bodyPre m c t ⊢ wp frame (wpE (defs₀ (F := F)) Variants.none c none) Set.univ (bodyAt0 t) (fun _ => bodyPost m c t) := by
  have hL : condLast (grid0.coords t) := (hcondLast t).mpr h1
  have hz : t.val ≠ 0 := fun h => by rw [h] at h1; exact absurd h1 (by decide)
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  rw [show (dats m 0 c).leavesExact 4 t = owns (c : Thread nD τ) (ms4 t) fullShare ((dats m 0 c).after 4 t) from by
    unfold Dat.leavesExact; rw [liveAt4 t hL], after_4]
  rw [outsAt_last m c t h1]
  unfold lastHeld readBack; dsimp only
  rw [PhiS_castSucc m c t, PhiS_pos m c _ _ hz]
  iintro ⟨⟨⟨HS7, HS8, HS9⟩, Hg⟩, Ho, ⟨%d0, H0⟩, ⟨%d1, H1⟩, ⟨%d2, H2⟩, ⟨%d3, H3⟩, ⟨%d4, H4⟩⟩
  iapply ((lastAt m c t h1 (prevAt m c t)).2.2.2.2 Set.univ _)
  isplitl [H0]; · iexact H0
  isplitl [H1]; · iexact H1
  isplitl [H2]; · iexact H2
  isplitl [H3]; · iexact H3
  isplitl [H4]; · iexists _; iexact H4
  isplitl [HS7]; · iexact HS7
  isplitl [HS8]; · iexact HS8
  isplitl [HS9]; · iexact HS9
  iintro ⟨H0, H1, H2, H3, ⟨%e4, H4⟩, ⟨%e7, HS7⟩, ⟨%e8, HS8⟩, ⟨%e9, HS9⟩⟩
  isplitl [HS7 HS8 HS9 Hg]
  · isplitl [HS7 HS8 HS9]
    · isplitl [HS7]
      · unfold owns; iexists _; isplitr
        swap; · iexact HS7
        ipureintro; exact View.read_writes_of_cover _ _ _ _ _ (fun y => cover_last_mx ..)
      isplitl [HS8]
      · unfold owns; iexists _; isplitr
        swap; · iexact HS8
        ipureintro; exact View.read_writes_of_cover _ _ _ _ _ (fun y => cover_last_nrm ..)
      unfold owns; iexists _; isplitr
      swap; · iexact HS9
      ipureintro; exact View.read_writes_of_cover _ _ _ _ _ (fun y => cover_last_tgt ..)
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (fun y => cover_last_out ..)

/-- The body at any point: the closed forms of the two conditions say which of the three cases the point is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 25 = 0
  · exact sound_first m c t h0
  · by_cases h1 : t.val % 25 = 24
    · exact sound_last m c t h1
    · exact sound_mid m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.ΦA spec0 c : sProp 𝕄) ⊢ (dats m 0 c).Φ 0 := by
  rw [show (dats m 0 c).Φ 0 = PhiS m c 0 (Nat.zero_le _) from rfl, PhiS_zero m c 0 _ rfl]
  try exact .rfl

/-- After the last point the invariant gives the class's back. -/
theorem hout (c : Dev nD) : (dats m 0 c).Φ (Fin.last cfg0.N) ⊢ (Pipeline.ΦA spec0 c : sProp 𝕄) :=
  show PhiS m c (Fin.last cfg0.N).val (Nat.le_of_lt_succ (Fin.last cfg0.N).isLt) ⊢ (Pipeline.ΦA spec0 c : sProp 𝕄) from
    PhiS_weaken m c _ _

/-! ## The run and the frame -/

-- the frame rule's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the 78 lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- info: 'Cert.KernelIdeal.Hand.run_main' depends on axioms: [propext, Classical.choice, Quot.sound] -/
#guard_msgs in #print axioms run_main

/-! ### The argument arrays through the lines after the region -/

/-- A stretch of host lines writes none of the four argument arrays: each line writes its own result buffer only. -/
abbrev KeepsArgs (ops : List (HloOp τ sig (Elt F))) : Prop :=
  ops.Forall fun op => Proc.devRef .tc main_arg0 ∉ op.writes ∧ Proc.devRef .tc main_arg1 ∉ op.writes
    ∧ Proc.devRef .tc main_arg2 ∉ op.writes ∧ Proc.devRef .tc main_arg3 ∉ op.writes

theorem hostOps1_keepsArgs : KeepsArgs (F := F) hostOps1 := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_1_keepsArgs : KeepsArgs (F := F) hostOps1_1 := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_2_keepsArgs : KeepsArgs (F := F) hostOps1_2 := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_3_keepsArgs : KeepsArgs (F := F) hostOps1_3 := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_4_keepsArgs : KeepsArgs (F := F) hostOps1_4 := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)

/-- No line after the region writes an argument array. -/
theorem tail_keepsArgs : ∀ op ∈ (tailOps (F := F)).flatten, Proc.devRef .tc main_arg0 ∉ op.writes ∧ Proc.devRef .tc main_arg1 ∉ op.writes
    ∧ Proc.devRef .tc main_arg2 ∉ op.writes ∧ Proc.devRef .tc main_arg3 ∉ op.writes := by
  intro op hop
  obtain ⟨ops, hops, hop⟩ := List.mem_flatten.mp hop
  simp only [List.mem_cons, List.mem_nil_iff, or_false] at hops
  rcases hops with rfl | rfl | rfl | rfl | rfl
  · exact (List.forall_iff_forall_mem.mp hostOps1_keepsArgs) op hop
  · exact (List.forall_iff_forall_mem.mp hostOps1_1_keepsArgs) op hop
  · exact (List.forall_iff_forall_mem.mp hostOps1_2_keepsArgs) op hop
  · exact (List.forall_iff_forall_mem.mp hostOps1_3_keepsArgs) op hop
  · exact (List.forall_iff_forall_mem.mp hostOps1_4_keepsArgs) op hop

/-- An argument array is no array of the pipeline (those are the five buffers the lines before the region and the
    region itself produce). -/
theorem arg0_no_window : ∀ w, Pipeline.arrRef spec0 w ≠ main_arg0 := by decide
theorem arg1_no_window : ∀ w, Pipeline.arrRef spec0 w ≠ main_arg1 := by decide
theorem arg2_no_window : ∀ w, Pipeline.arrRef spec0 w ≠ main_arg2 := by decide
theorem arg3_no_window : ∀ w, Pipeline.arrRef spec0 w ≠ main_arg3 := by decide

/-- So after the later lines each argument array holds what the launch gave it: no later line writes it, the region
    stages no window of it, and no line before the region writes it. -/
theorem tail_keeps_arg0 (c : Dev nD) :
    Pipeline.afterTail₀ cfgs (dats m) 0 (V0 m) tailOps c main_arg0 = m ((c.tc : Thread nD τ).loc main_arg0) := by
  unfold Pipeline.afterTail₀
  rw [StableHlo.after_of_forall_not_mem _ _ fun op hop => (tail_keepsArgs op hop).1,
    Pipeline.withArrays_of_ne _ _ _ _ main_arg0 arg0_no_window]
  exact V_main_arg0 m c
theorem tail_keeps_arg1 (c : Dev nD) :
    Pipeline.afterTail₀ cfgs (dats m) 0 (V0 m) tailOps c main_arg1 = m ((c.tc : Thread nD τ).loc main_arg1) := by
  unfold Pipeline.afterTail₀
  rw [StableHlo.after_of_forall_not_mem _ _ fun op hop => (tail_keepsArgs op hop).2.1,
    Pipeline.withArrays_of_ne _ _ _ _ main_arg1 arg1_no_window]
  exact V_main_arg1 m c
theorem tail_keeps_arg2 (c : Dev nD) :
    Pipeline.afterTail₀ cfgs (dats m) 0 (V0 m) tailOps c main_arg2 = m ((c.tc : Thread nD τ).loc main_arg2) := by
  unfold Pipeline.afterTail₀
  rw [StableHlo.after_of_forall_not_mem _ _ fun op hop => (tail_keepsArgs op hop).2.2.1,
    Pipeline.withArrays_of_ne _ _ _ _ main_arg2 arg2_no_window]
  exact V_main_arg2 m c
theorem tail_keeps_arg3 (c : Dev nD) :
    Pipeline.afterTail₀ cfgs (dats m) 0 (V0 m) tailOps c main_arg3 = m ((c.tc : Thread nD τ).loc main_arg3) := by
  unfold Pipeline.afterTail₀
  rw [StableHlo.after_of_forall_not_mem _ _ fun op hop => (tail_keepsArgs op hop).2.2.2,
    Pipeline.withArrays_of_ne _ _ _ _ main_arg3 arg3_no_window]
  exact V_main_arg3 m c

/-- The argument arrays, the output array's successor buffers and the result are unscoped buffers no window stages. -/
theorem arg0_rest : main_arg0 ∈ Pipeline.restRefs sig spec0 := Pipeline.mem_restRefs_of main_arg0 rfl (by decide)
theorem arg1_rest : main_arg1 ∈ Pipeline.restRefs sig spec0 := Pipeline.mem_restRefs_of main_arg1 rfl (by decide)
theorem arg2_rest : main_arg2 ∈ Pipeline.restRefs sig spec0 := Pipeline.mem_restRefs_of main_arg2 rfl (by decide)
theorem arg3_rest : main_arg3 ∈ Pipeline.restRefs sig spec0 := Pipeline.mem_restRefs_of main_arg3 rfl (by decide)
theorem result_rest : main_v41 ∈ Pipeline.restRefs sig spec0 := Pipeline.mem_restRefs_of main_v41 rfl (by decide)

/-! ### Reading the run's post -/

/-- The run's post at the output array (window 4's array): what the library computes from the proof data, the
    array at the region's entry overwritten by each row tile's block at the write-backs. -/
theorem post_out (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_v5) = (dats m 0 c).arrAt 4 cfg0.N := (h c).1 4

/-- The run's post at the result buffer: what the later lines compute from the region's exit contents. -/
theorem post_result (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_v41) = Pipeline.afterTail₀ cfgs (dats m) 0 (V0 m) tailOps c main_v41 :=
  (h c).2 main_v41 result_rest

/-- The run's post at the four argument arrays: unchanged. -/
theorem post_args (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 arg0_rest).trans (tail_keeps_arg0 m c), ((h c).2 main_arg1 arg1_rest).trans (tail_keeps_arg1 m c),
    ((h c).2 main_arg2 arg2_rest).trans (tail_keeps_arg2 m c), ((h c).2 main_arg3 arg3_rest).trans (tail_keeps_arg3 m c)⟩

/-- THE FRAME: the program runs (terminates, nothing faulting) and its four argument arrays end unchanged, at any
    reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => post_args m r h c) (run_main m ρ)

end Cert.KernelIdeal.Hand

end
-- ==== Proof.Tail.lean ====
/-
  From the per-token log-probabilities to the scalar loss: the operations both programs apply, in the same order,
  to the 8 × 512 array of per-token log-probabilities and the 8 × 512 array of target words.

  With mask = [target ≠ −100] as a float: the per-sequence average avg b = Σ_t tok·mask / Σ_t mask; the
  negative log-likelihood of the first four sequences, −Σ tok·mask / Σ mask over them; z = 0.1·(avg[0:4] − avg[4:8]) − 0.5;
  the preference term Σ_b (−logσ(z_b)·1 − logσ(−z_b)·0) / 4, with logσ(x) = −softplus(−x) and
  softplus(y) = max(y, 0) + log1p(exp(−|y − 0|)) (y + 0 where y − 0 is not a number); the loss is 1·nll + pref.
  The function is stated once, over any float instance, so that the two programs' results are the same term of
  their per-token arrays; it is never unfolded.
-/
import Idealize.ShloMosaic.Lib.StableHlo
import Idealize.ShloMosaic.PureOps

noncomputable section

namespace Cert.Tail

open Idealize.ShloMosaic

abbrev S8x512 : Shape := ⟨2, ![8, 512]⟩
abbrev S8 : Shape := ⟨1, ![8]⟩
abbrev S4 : Shape := ⟨1, ![4]⟩
abbrev S4x512 : Shape := ⟨2, ![4, 512]⟩
abbrev S_ : Shape := ⟨0, ![]⟩

variable {F : FTy → Type} [FloatOps F]

/-- log σ(x) on four lanes, written as −softplus(−x). -/
def logSigmoid (hb4 : S_.BroadcastsInDim S4 (![] : Fin 0 → Fin S4.rank)) (x : FVec F S4 .f32) : FVec F S4 .f32 :=
  let y : FVec F S4 .f32 := Host.negf x
  let zero : FVec F S_ .f32 := constant S_ .f32 0x00000000#32
  let z0 : FVec F S4 .f32 := broadcastInDim S4 ![] hb4 zero
  let top : FVec F S4 .f32 := maximumf y z0
  let z2 : FVec F S4 .f32 := broadcastInDim S4 ![] hb4 zero
  let d : FVec F S4 .f32 := subf y z2
  let nan : IVec S4 1 := cmpf .une d d
  let z5 : FVec F S4 .f32 := broadcastInDim S4 ![] hb4 zero
  let s : FVec F S4 .f32 := addf y z5
  let a : FVec F S4 .f32 := Host.absf d
  let na : FVec F S4 .f32 := Host.negf a
  let e : FVec F S4 .f32 := Host.exp na
  let l : FVec F S4 .f32 := Host.log1p e
  let sp : FVec F S4 .f32 := addf top l
  let r : FVec F S4 .f32 := select nan s sp
  Host.negf r

/-- The loss from the per-token log-probabilities `tok` and the target words `tgt`. -/
def lossTail
    (hb : S_.BroadcastsInDim S8x512 (![] : Fin 0 → Fin S8x512.rank))
    (hr1 : S8x512.ReducesTo [1] S8) (h0 : 0 < S_.numel)
    (hs0 : S8.Slices ![0] S4) (hs4 : S8.Slices ![4] S4)
    (hs2 : S8x512.Slices ![0, 0] S4x512) (hr2 : S4x512.ReducesTo [0, 1] S_)
    (hb4 : S_.BroadcastsInDim S4 (![] : Fin 0 → Fin S4.rank)) (hr4 : S4.ReducesTo [0] S_)
    (tok : FVec F S8x512 .f32) (tgt : IVec S8x512 32) : FVec F S_ .f32 :=
  let ign : IVec S_ 32 := constantI S_ 32 4294967196#32
  let ignB : IVec S8x512 32 := broadcastInDim S8x512 ![] hb ign
  let keep : IVec S8x512 1 := cmpi .ne tgt ignB
  let mask : FVec F S8x512 .f32 := uitofp .f32 keep
  let tm : FVec F S8x512 .f32 := mulf tok mask
  let c0 : FVec F S_ .f32 := constant S_ .f32 0x00000000#32
  let num : FVec F S8 .f32 := Host.reduceAdd tm c0 hr1 h0
  let c1 : FVec F S_ .f32 := constant S_ .f32 0x00000000#32
  let den : FVec F S8 .f32 := Host.reduceAdd mask c1 hr1 h0
  let avg : FVec F S8 .f32 := Host.divf num den
  let cho : FVec F S4 .f32 := extractStridedSlice S4 ![0] avg hs0
  let rej : FVec F S4 .f32 := extractStridedSlice S4 ![4] avg hs4
  let tokC : FVec F S4x512 .f32 := extractStridedSlice S4x512 ![0, 0] tok hs2
  let maskC : FVec F S4x512 .f32 := extractStridedSlice S4x512 ![0, 0] mask hs2
  let tmC : FVec F S4x512 .f32 := mulf tokC maskC
  let c2 : FVec F S_ .f32 := constant S_ .f32 0x00000000#32
  let sC : FVec F S_ .f32 := Host.reduceAdd tmC c2 hr2 h0
  let nsC : FVec F S_ .f32 := Host.negf sC
  let maskC' : FVec F S4x512 .f32 := extractStridedSlice S4x512 ![0, 0] mask hs2
  let c3 : FVec F S_ .f32 := constant S_ .f32 0x00000000#32
  let nC : FVec F S_ .f32 := Host.reduceAdd maskC' c3 hr2 h0
  let nll : FVec F S_ .f32 := Host.divf nsC nC
  let diff : FVec F S4 .f32 := subf cho rej
  let beta : FVec F S_ .f32 := constant S_ .f32 0x3DCCCCCD#32
  let betaB : FVec F S4 .f32 := broadcastInDim S4 ![] hb4 beta
  let bd : FVec F S4 .f32 := mulf betaB diff
  let gam : FVec F S_ .f32 := constant S_ .f32 0x3F000000#32
  let gamB : FVec F S4 .f32 := broadcastInDim S4 ![] hb4 gam
  let z : FVec F S4 .f32 := subf bd gamB
  let ls : FVec F S4 .f32 := logSigmoid hb4 z
  let nls : FVec F S4 .f32 := Host.negf ls
  let one : FVec F S_ .f32 := constant S_ .f32 0x3F800000#32
  let oneB : FVec F S4 .f32 := broadcastInDim S4 ![] hb4 one
  let t1 : FVec F S4 .f32 := mulf nls oneB
  let nz : FVec F S4 .f32 := Host.negf z
  let ls' : FVec F S4 .f32 := logSigmoid hb4 nz
  let c6 : FVec F S_ .f32 := constant S_ .f32 0x00000000#32
  let zeroB : FVec F S4 .f32 := broadcastInDim S4 ![] hb4 c6
  let t2 : FVec F S4 .f32 := mulf ls' zeroB
  let pr : FVec F S4 .f32 := subf t1 t2
  let c7 : FVec F S_ .f32 := constant S_ .f32 0x00000000#32
  let prS : FVec F S_ .f32 := Host.reduceAdd pr c7 hr4 h0
  let four : FVec F S_ .f32 := constant S_ .f32 0x40800000#32
  let pref : FVec F S_ .f32 := Host.divf prS four
  let alpha : FVec F S_ .f32 := constant S_ .f32 0x3F800000#32
  let an : FVec F S_ .f32 := mulf alpha nll
  addf an pref

end Cert.Tail

end
-- ==== Proof.KiTail.lean ====
/-
  The lines after the region, read as one function.

  Whatever the buffers hold when the region has ended (a valuation `W`), the 78 later operations leave in the result
  buffer the loss `Cert.Tail.lossTail` of the 4096 × 1 output array re-laid as 8 × 512 and of the target words.
-/
import proofs.«416803_j17583596109825_2_alg».proof.Proof.Gen.KernelIdeal.Launch
import proofs.«416803_j17583596109825_2_alg».proof.Proof.Tail
import Idealize.ShloMosaic.Lib.StableHlo.Run

noncomputable section

namespace Cert.KernelIdeal.Hand

open Idealize.ShloMosaic Idealize.SL.Sem
open Cert.KernelIdeal Cert.KernelIdeal.Gen

variable {F : FTy → Type} [FloatOps F]

/-- The later lines as one list. -/
abbrev laterOps : List (HloOp τ sig (Elt F)) :=
  List.flatten [hostOps1, hostOps1_1, hostOps1_2, hostOps1_3, hostOps1_4]

set_option maxRecDepth 8192 in
/-- After the later lines the result buffer holds the loss of the re-laid output array and the target words. -/
theorem later_result (W : Valuation τ sig (Elt F)) :
    StableHlo.after (laterOps (F := F)) W (Proc.devRef .tc main_v41)
      = Cert.Tail.lossTail (F := F) Gen.bcast_S_S8x512 Gen.reducesTo_S8x512_S8_d1 Gen.h_S_ Gen.slices_S8_S4_0 Gen.slices_S8_S4_4
          Gen.slices_S8x512_S4x512_0_0 Gen.reducesTo_S4x512_S_d0_1 Gen.bcast_S_S4 Gen.reducesTo_S4_S_d0
          (shapeCast S8x512 (W (Proc.devRef .tc main_v5) : FVec F S4096x1 .f32) Gen.shapeCasts_S4096x1_S8x512)
          (W (Proc.devRef .tc main_arg2) : IVec S8x512 32) := by
  simp only [laterOps, hostOps1, hostOps1_1, hostOps1_2, hostOps1_3, hostOps1_4, List.flatten_cons, List.flatten_nil,
    List.append_nil, List.cons_append, List.nil_append]
  after_results_simp
  rfl

end Cert.KernelIdeal.Hand

end
-- ==== Proof.KiResult.lean ====
/-
  The kernel's run with its result named.

  The frame run leaves the region's output array at what the grid points wrote back, and every other buffer at what
  the later lines make of it; the later lines are one function (the loss of the re-laid output array and the target
  words), the output array is window 4's, and the target words are an argument no line writes.
-/
import proofs.«416803_j17583596109825_2_alg».proof.Proof.KiFrame
import proofs.«416803_j17583596109825_2_alg».proof.Proof.KiTail

noncomputable section

namespace Cert.KernelIdeal.Hand

open Idealize.ShloMosaic Idealize.SL.Sem
open Cert.KernelIdeal Cert.KernelIdeal.Gen

variable {F : FTy → Type} [FloatOps F]
variable (m : (ℓ : Loc nD τ sig) → Buf (Elt F) ℓ) (ρ : Dev nD → PrngReg)

/-- The region's output array after the last grid point, as a 4096 × 1 array. -/
abbrev outArr (c : Dev nD) : FVec F S4096x1 .f32 := (dats m 0 c).arrAt 4 cfg0.N

/-- What the later lines leave in the result buffer: the loss of the re-laid output array and the target words. -/
theorem result_eq (c : Dev nD) :
    Pipeline.afterTail₀ cfgs (dats m) 0 (V0 m) tailOps c main_v41
      = Cert.Tail.lossTail (F := F) Gen.bcast_S_S8x512 Gen.reducesTo_S8x512_S8_d1 Gen.h_S_ Gen.slices_S8_S4_0 Gen.slices_S8_S4_4
          Gen.slices_S8x512_S4x512_0_0 Gen.reducesTo_S4x512_S_d0_1 Gen.bcast_S_S4 Gen.reducesTo_S4_S_d0
          (shapeCast S8x512 (outArr m c) Gen.shapeCasts_S4096x1_S8x512)
          (m ((c.tc : Thread nD τ).loc main_arg2)) := by
  unfold Pipeline.afterTail₀
  refine (later_result (F := F) _).trans ?_
  have h5 : Pipeline.withArrays spec0 c (V0 m c) (fun w => (dats m 0 c).arrAt w cfg0.N) (Proc.devRef .tc main_v5)
      = outArr m c := Pipeline.withArrays_arr spec0 launch0.win.arr_inj c _ _ 4
  have h2 : Pipeline.withArrays spec0 c (V0 m c) (fun w => (dats m 0 c).arrAt w cfg0.N) (Proc.devRef .tc main_arg2)
      = m ((c.tc : Thread nD τ).loc main_arg2) :=
    (Pipeline.withArrays_of_ne spec0 c _ _ main_arg2 (by intro w; fin_cases w <;> decide)).trans (V_main_arg2 m c)
  rw [h5, h2]

/-- The kernel runs to the end with the loss in its result buffer and its four argument arrays unchanged. -/
theorem run_value : θ_run defs (onTc (τ := τ) (main (F := F))) ⟨m, fun _ => 0, ρ⟩ (fun r => ∀ c : Dev nD,
      r.2.mem ((c.tc : Thread nD τ).loc main_v41)
        = Cert.Tail.lossTail (F := F) Gen.bcast_S_S8x512 Gen.reducesTo_S8x512_S8_d1 Gen.h_S_ Gen.slices_S8_S4_0 Gen.slices_S8_S4_4
            Gen.slices_S8x512_S4x512_0_0 Gen.reducesTo_S4x512_S_d0_1 Gen.bcast_S_S4 Gen.reducesTo_S4_S_d0
            (shapeCast S8x512 (outArr m c) Gen.shapeCasts_S4096x1_S8x512)
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(post_result m r h c).trans (result_eq m c), post_args m r h c⟩) (run_main m ρ)

end Cert.KernelIdeal.Hand

end
-- ==== Proof.KiRunVals.lean ====
/- What the three runs' pieces read as: each accumulator after a chunk is one step of the streaming log-softmax
   from what it held before (from the reset values at a first chunk), and the output after a last chunk is the
   result formed from the three accumulators after that chunk's step. Stated through the canonical contents of a
   covering list of writes, so for any view and any prior contents. -/
import proofs.«416803_j17583596109825_2_alg».proof.Proof.KiRunLast
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One step of the streaming log-softmax, as the body's payloads compose -/

/-- The running maximum after a chunk: the maximum of the one before (m) with the row maxima of the chunk's logits
    x0 · x1ᵀ + x2. -/
abbrev bodyM (x0 : Vec F S1024x2048 .bf16) (x1 : Vec F S1280x2048 .bf16) (x2 : Vec F S1x1280 .f32) (m : Vec F S1024x1 .f32) :
    Vec F S1024x1 .f32 :=
  k0_pay3 (k0_pay10 x0 x1 x2 m)
/-- The running normaliser after a chunk: the one before (l) rescaled by exp (m − new maximum), plus the row sums of
    exp (logits − new maximum). -/
abbrev bodyL (x0 : Vec F S1024x2048 .bf16) (x1 : Vec F S1280x2048 .bf16) (x2 : Vec F S1x1280 .f32) (m l : Vec F S1024x1 .f32) :
    Vec F S1024x1 .f32 :=
  k0_pay1 (k0_pay11 x0 x1 x2 m) (k0_pay12 x0 x1 x2 m m l)
/-- The running target logit after a chunk: the one before (g) plus the row sums of the logits selected where the
    chunk's column index is the row's target x3. -/
abbrev bodyG (i : grid0.Coords) (x0 : Vec F S1024x2048 .bf16) (x1 : Vec F S1280x2048 .bf16) (x2 : Vec F S1x1280 .f32)
    (x3 : Vec F S1024x1 .i32) (g : Vec F S1024x1 .f32) : Vec F S1024x1 .f32 :=
  k0_pay2 (k0_pay9 i x0 x1 x2 x3) g
/-- What the last chunk stores: the target logit minus (the maximum plus the logarithm of the normaliser). -/
abbrev bodyOut (m l g : Vec F S1024x1 .f32) : Vec F S1024x1 .f32 := k0_pay4 m l g

theorem bodyM_eq (x0 : Vec F S1024x2048 .bf16) (x1 : Vec F S1280x2048 .bf16) (x2 : Vec F S1x1280 .f32) (m : Vec F S1024x1 .f32) :
    bodyM x0 x1 x2 m = k0_pay3 (k0_pay10 x0 x1 x2 m) := rfl
theorem bodyL_eq (x0 : Vec F S1024x2048 .bf16) (x1 : Vec F S1280x2048 .bf16) (x2 : Vec F S1x1280 .f32) (m l : Vec F S1024x1 .f32) :
    bodyL x0 x1 x2 m l = k0_pay1 (k0_pay11 x0 x1 x2 m) (k0_pay12 x0 x1 x2 m m l) := rfl
theorem bodyG_eq (i : grid0.Coords) (x0 : Vec F S1024x2048 .bf16) (x1 : Vec F S1280x2048 .bf16) (x2 : Vec F S1x1280 .f32)
    (x3 : Vec F S1024x1 .i32) (g : Vec F S1024x1 .f32) : bodyG i x0 x1 x2 x3 g = k0_pay2 (k0_pay9 i x0 x1 x2 x3) g := rfl
theorem bodyOut_eq (m l g : Vec F S1024x1 .f32) : bodyOut m l g = k0_pay4 m l g := rfl

/-- The zero offsets of a rank-2 rectangle. -/
theorem hz2 : (![0, 0] : Fin 2 → ℕ) = fun _ => 0 := by funext a; fin_cases a <;> rfl

section Vals
variable (c : Dev nD) (i : grid0.Coords) (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole) (x0 : Vec F S1024x2048 .bf16) (x1 : Vec F S1280x2048 .bf16) (x2 : Vec F S1x1280 .f32) (x3 : Vec F S1024x1 .i32)

/-! ## The first chunk: reset, then one step -/

theorem runFirst_L4 (hc0 : condFirst i) (hc1 : ¬condLast i) : (runFirst c i arg2 harg2 arg3 harg3 arg4 harg4 arg5 harg5 arg6 harg6 arg7 harg7 arg8 harg8 arg9 harg9 hc0 hc1 x0 x1 x2 x3).1 = [] := rfl
theorem runFirst_cover7 (hc0 : condFirst i) (hc1 : ¬condLast i) (y : S1024x1.Idx) :
    ∃ pc ∈ (runFirst c i arg2 harg2 arg3 harg3 arg4 harg4 arg5 harg5 arg6 harg6 arg7 harg7 arg8 harg8 arg9 harg9 hc0 hc1 x0 x1 x2 x3).2.1, y ∈ pc.1.set :=
  View.cover_of_tiledL _ S1024x1.size (by sl_kernel_rfl) y
theorem runFirst_cover8 (hc0 : condFirst i) (hc1 : ¬condLast i) (y : S1024x1.Idx) :
    ∃ pc ∈ (runFirst c i arg2 harg2 arg3 harg3 arg4 harg4 arg5 harg5 arg6 harg6 arg7 harg7 arg8 harg8 arg9 harg9 hc0 hc1 x0 x1 x2 x3).2.2.1, y ∈ pc.1.set :=
  View.cover_of_tiledL _ S1024x1.size (by sl_kernel_rfl) y
theorem runFirst_cover9 (hc0 : condFirst i) (hc1 : ¬condLast i) (y : S1024x1.Idx) :
    ∃ pc ∈ (runFirst c i arg2 harg2 arg3 harg3 arg4 harg4 arg5 harg5 arg6 harg6 arg7 harg7 arg8 harg8 arg9 harg9 hc0 hc1 x0 x1 x2 x3).2.2.2.1, y ∈ pc.1.set :=
  View.cover_of_tiledL _ S1024x1.size (by sl_kernel_rfl) y

/-- The first chunk leaves in arg7 one step from −∞: -/
theorem runFirst_val7 (hc0 : condFirst i) (hc1 : ¬condLast i) :
    View.canon (runFirst c i arg2 harg2 arg3 harg3 arg4 harg4 arg5 harg5 arg6 harg6 arg7 harg7 arg8 harg8 arg9 harg9 hc0 hc1 x0 x1 x2 x3).2.1 = bodyM x0 x1 x2 (k0_pay5 (F := F)) := by
  unfold runFirst bodyM; dsimp only; sl_unfold_words
  rw [View.canon_cons_unit_zero (S := S1024x1) hz2]
  simp only [View.readAt_eq_ld, harg2.read_unread, harg3.read_unread, harg4.read_unread, harg5.read_unread,
    View.ld_unit_zero (S := S1024x2048) hz2, View.ld_unit_zero (S := S1280x2048) hz2, View.ld_unit_zero (S := S1x1280) hz2,
    View.ld_unit_zero (S := S1024x1) hz2, View.readCov_unit_zero (S := S1024x1) _ hz2]
/-- in arg8 one step from 0 (and from −∞ for the maximum): -/
theorem runFirst_val8 (hc0 : condFirst i) (hc1 : ¬condLast i) :
    View.canon (runFirst c i arg2 harg2 arg3 harg3 arg4 harg4 arg5 harg5 arg6 harg6 arg7 harg7 arg8 harg8 arg9 harg9 hc0 hc1 x0 x1 x2 x3).2.2.1 = bodyL x0 x1 x2 (k0_pay5 (F := F)) (k0_pay6 (F := F)) := by
  unfold runFirst bodyL; dsimp only; sl_unfold_words
  rw [View.canon_cons_unit_zero (S := S1024x1) hz2]
  simp only [View.readAt_eq_ld, harg2.read_unread, harg3.read_unread, harg4.read_unread, harg5.read_unread,
    View.ld_unit_zero (S := S1024x2048) hz2, View.ld_unit_zero (S := S1280x2048) hz2, View.ld_unit_zero (S := S1x1280) hz2,
    View.ld_unit_zero (S := S1024x1) hz2, View.readCov_unit_zero (S := S1024x1) _ hz2]
/-- in arg9 one step from 0. -/
theorem runFirst_val9 (hc0 : condFirst i) (hc1 : ¬condLast i) :
    View.canon (runFirst c i arg2 harg2 arg3 harg3 arg4 harg4 arg5 harg5 arg6 harg6 arg7 harg7 arg8 harg8 arg9 harg9 hc0 hc1 x0 x1 x2 x3).2.2.2.1 = bodyG i x0 x1 x2 x3 (k0_pay7 (F := F)) := by
  unfold runFirst bodyG; dsimp only; sl_unfold_words
  rw [View.canon_cons_unit_zero (S := S1024x1) hz2]
  simp only [View.readAt_eq_ld, harg2.read_unread, harg3.read_unread, harg4.read_unread, harg5.read_unread,
    View.ld_unit_zero (S := S1024x2048) hz2, View.ld_unit_zero (S := S1280x2048) hz2, View.ld_unit_zero (S := S1x1280) hz2,
    View.ld_unit_zero (S := S1024x1) hz2, View.readCov_unit_zero (S := S1024x1) _ hz2]

variable (xs7 xs8 xs9 : Vec F S1024x1 .f32)

/-! ## A middle chunk: one step from what the chunk before left -/

theorem runMid_L4 (hc0 : ¬condFirst i) (hc1 : ¬condLast i) : (runMid c i arg2 harg2 arg3 harg3 arg4 harg4 arg5 harg5 arg6 harg6 arg7 harg7 arg8 harg8 arg9 harg9 hc0 hc1 x0 x1 x2 x3 xs7 xs8 xs9).1 = [] := rfl
theorem runMid_cover7 (hc0 : ¬condFirst i) (hc1 : ¬condLast i) (y : S1024x1.Idx) :
    ∃ pc ∈ (runMid c i arg2 harg2 arg3 harg3 arg4 harg4 arg5 harg5 arg6 harg6 arg7 harg7 arg8 harg8 arg9 harg9 hc0 hc1 x0 x1 x2 x3 xs7 xs8 xs9).2.1, y ∈ pc.1.set :=
  View.cover_of_tiledL _ S1024x1.size (by sl_kernel_rfl) y
theorem runMid_cover8 (hc0 : ¬condFirst i) (hc1 : ¬condLast i) (y : S1024x1.Idx) :
    ∃ pc ∈ (runMid c i arg2 harg2 arg3 harg3 arg4 harg4 arg5 harg5 arg6 harg6 arg7 harg7 arg8 harg8 arg9 harg9 hc0 hc1 x0 x1 x2 x3 xs7 xs8 xs9).2.2.1, y ∈ pc.1.set :=
  View.cover_of_tiledL _ S1024x1.size (by sl_kernel_rfl) y
theorem runMid_cover9 (hc0 : ¬condFirst i) (hc1 : ¬condLast i) (y : S1024x1.Idx) :
    ∃ pc ∈ (runMid c i arg2 harg2 arg3 harg3 arg4 harg4 arg5 harg5 arg6 harg6 arg7 harg7 arg8 harg8 arg9 harg9 hc0 hc1 x0 x1 x2 x3 xs7 xs8 xs9).2.2.2.1, y ∈ pc.1.set :=
  View.cover_of_tiledL _ S1024x1.size (by sl_kernel_rfl) y

theorem runMid_val7 (hc0 : ¬condFirst i) (hc1 : ¬condLast i) :
    View.canon (runMid c i arg2 harg2 arg3 harg3 arg4 harg4 arg5 harg5 arg6 harg6 arg7 harg7 arg8 harg8 arg9 harg9 hc0 hc1 x0 x1 x2 x3 xs7 xs8 xs9).2.1 = bodyM x0 x1 x2 xs7 := by
  unfold runMid bodyM; dsimp only; sl_unfold_words
  rw [View.canon_unit_zero (S := S1024x1) hz2]
  simp only [View.readAt_eq_ld, harg2.read_unread, harg3.read_unread, harg4.read_unread, harg5.read_unread,
    harg7.read_unread, harg8.read_unread, harg9.read_unread,
    View.ld_unit_zero (S := S1024x2048) hz2, View.ld_unit_zero (S := S1280x2048) hz2, View.ld_unit_zero (S := S1x1280) hz2,
    View.ld_unit_zero (S := S1024x1) hz2]
theorem runMid_val8 (hc0 : ¬condFirst i) (hc1 : ¬condLast i) :
    View.canon (runMid c i arg2 harg2 arg3 harg3 arg4 harg4 arg5 harg5 arg6 harg6 arg7 harg7 arg8 harg8 arg9 harg9 hc0 hc1 x0 x1 x2 x3 xs7 xs8 xs9).2.2.1 = bodyL x0 x1 x2 xs7 xs8 := by
  unfold runMid bodyL; dsimp only; sl_unfold_words
  rw [View.canon_unit_zero (S := S1024x1) hz2]
  simp only [View.readAt_eq_ld, harg2.read_unread, harg3.read_unread, harg4.read_unread, harg5.read_unread,
    harg7.read_unread, harg8.read_unread, harg9.read_unread,
    View.ld_unit_zero (S := S1024x2048) hz2, View.ld_unit_zero (S := S1280x2048) hz2, View.ld_unit_zero (S := S1x1280) hz2,
    View.ld_unit_zero (S := S1024x1) hz2]
theorem runMid_val9 (hc0 : ¬condFirst i) (hc1 : ¬condLast i) :
    View.canon (runMid c i arg2 harg2 arg3 harg3 arg4 harg4 arg5 harg5 arg6 harg6 arg7 harg7 arg8 harg8 arg9 harg9 hc0 hc1 x0 x1 x2 x3 xs7 xs8 xs9).2.2.2.1 = bodyG i x0 x1 x2 x3 xs9 := by
  unfold runMid bodyG; dsimp only; sl_unfold_words
  rw [View.canon_unit_zero (S := S1024x1) hz2]
  simp only [View.readAt_eq_ld, harg2.read_unread, harg3.read_unread, harg4.read_unread, harg5.read_unread,
    harg7.read_unread, harg8.read_unread, harg9.read_unread,
    View.ld_unit_zero (S := S1024x2048) hz2, View.ld_unit_zero (S := S1280x2048) hz2, View.ld_unit_zero (S := S1x1280) hz2,
    View.ld_unit_zero (S := S1024x1) hz2]

/-! ## The last chunk: one step, then the result from the three accumulators as the step left them -/

theorem runLast_cover4 (hc0 : ¬condFirst i) (hc1 : condLast i) (y : S1024x1.Idx) :
    ∃ pc ∈ (runLast c i arg2 harg2 arg3 harg3 arg4 harg4 arg5 harg5 arg6 harg6 arg7 harg7 arg8 harg8 arg9 harg9 hc0 hc1 x0 x1 x2 x3 xs7 xs8 xs9).1, y ∈ pc.1.set :=
  View.cover_of_tiledL _ S1024x1.size (by sl_kernel_rfl) y
theorem runLast_cover7 (hc0 : ¬condFirst i) (hc1 : condLast i) (y : S1024x1.Idx) :
    ∃ pc ∈ (runLast c i arg2 harg2 arg3 harg3 arg4 harg4 arg5 harg5 arg6 harg6 arg7 harg7 arg8 harg8 arg9 harg9 hc0 hc1 x0 x1 x2 x3 xs7 xs8 xs9).2.1, y ∈ pc.1.set :=
  View.cover_of_tiledL _ S1024x1.size (by sl_kernel_rfl) y
theorem runLast_cover8 (hc0 : ¬condFirst i) (hc1 : condLast i) (y : S1024x1.Idx) :
    ∃ pc ∈ (runLast c i arg2 harg2 arg3 harg3 arg4 harg4 arg5 harg5 arg6 harg6 arg7 harg7 arg8 harg8 arg9 harg9 hc0 hc1 x0 x1 x2 x3 xs7 xs8 xs9).2.2.1, y ∈ pc.1.set :=
  View.cover_of_tiledL _ S1024x1.size (by sl_kernel_rfl) y
theorem runLast_cover9 (hc0 : ¬condFirst i) (hc1 : condLast i) (y : S1024x1.Idx) :
    ∃ pc ∈ (runLast c i arg2 harg2 arg3 harg3 arg4 harg4 arg5 harg5 arg6 harg6 arg7 harg7 arg8 harg8 arg9 harg9 hc0 hc1 x0 x1 x2 x3 xs7 xs8 xs9).2.2.2.1, y ∈ pc.1.set :=
  View.cover_of_tiledL _ S1024x1.size (by sl_kernel_rfl) y

theorem runLast_val7 (hc0 : ¬condFirst i) (hc1 : condLast i) :
    View.canon (runLast c i arg2 harg2 arg3 harg3 arg4 harg4 arg5 harg5 arg6 harg6 arg7 harg7 arg8 harg8 arg9 harg9 hc0 hc1 x0 x1 x2 x3 xs7 xs8 xs9).2.1 = bodyM x0 x1 x2 xs7 := by
  unfold runLast bodyM; dsimp only; sl_unfold_words; dsimp only
  rw [View.canon_unit_zero (S := S1024x1) hz2]
  simp only [View.readAt_eq_ld, harg2.read_unread, harg3.read_unread, harg4.read_unread, harg5.read_unread,
    harg7.read_unread, harg8.read_unread, harg9.read_unread,
    View.ld_unit_zero (S := S1024x2048) hz2, View.ld_unit_zero (S := S1280x2048) hz2, View.ld_unit_zero (S := S1x1280) hz2,
    View.ld_unit_zero (S := S1024x1) hz2]
theorem runLast_val8 (hc0 : ¬condFirst i) (hc1 : condLast i) :
    View.canon (runLast c i arg2 harg2 arg3 harg3 arg4 harg4 arg5 harg5 arg6 harg6 arg7 harg7 arg8 harg8 arg9 harg9 hc0 hc1 x0 x1 x2 x3 xs7 xs8 xs9).2.2.1 = bodyL x0 x1 x2 xs7 xs8 := by
  unfold runLast bodyL; dsimp only; sl_unfold_words; dsimp only
  rw [View.canon_unit_zero (S := S1024x1) hz2]
  simp only [View.readAt_eq_ld, harg2.read_unread, harg3.read_unread, harg4.read_unread, harg5.read_unread,
    harg7.read_unread, harg8.read_unread, harg9.read_unread,
    View.ld_unit_zero (S := S1024x2048) hz2, View.ld_unit_zero (S := S1280x2048) hz2, View.ld_unit_zero (S := S1x1280) hz2,
    View.ld_unit_zero (S := S1024x1) hz2]
theorem runLast_val9 (hc0 : ¬condFirst i) (hc1 : condLast i) :
    View.canon (runLast c i arg2 harg2 arg3 harg3 arg4 harg4 arg5 harg5 arg6 harg6 arg7 harg7 arg8 harg8 arg9 harg9 hc0 hc1 x0 x1 x2 x3 xs7 xs8 xs9).2.2.2.1 = bodyG i x0 x1 x2 x3 xs9 := by
  unfold runLast bodyG; dsimp only; sl_unfold_words; dsimp only
  rw [View.canon_unit_zero (S := S1024x1) hz2]
  simp only [View.readAt_eq_ld, harg2.read_unread, harg3.read_unread, harg4.read_unread, harg5.read_unread,
    harg7.read_unread, harg8.read_unread, harg9.read_unread,
    View.ld_unit_zero (S := S1024x2048) hz2, View.ld_unit_zero (S := S1280x2048) hz2, View.ld_unit_zero (S := S1x1280) hz2,
    View.ld_unit_zero (S := S1024x1) hz2]
/-- The result the last chunk stores: read off the accumulators AFTER this chunk's step. -/
theorem runLast_val4 (hc0 : ¬condFirst i) (hc1 : condLast i) :
    View.canon (runLast c i arg2 harg2 arg3 harg3 arg4 harg4 arg5 harg5 arg6 harg6 arg7 harg7 arg8 harg8 arg9 harg9 hc0 hc1 x0 x1 x2 x3 xs7 xs8 xs9).1
      = bodyOut (bodyM x0 x1 x2 xs7) (bodyL x0 x1 x2 xs7 xs8) (bodyG i x0 x1 x2 x3 xs9) := by
  unfold runLast bodyOut bodyM bodyL bodyG; dsimp only; sl_unfold_words; dsimp only
  rw [View.canon_unit_zero (S := S1024x1) hz2]
  simp only [View.readAt_eq_ld, harg2.read_unread, harg3.read_unread, harg4.read_unread, harg5.read_unread,
    harg7.read_unread, harg8.read_unread, harg9.read_unread,
    View.ld_unit_zero (S := S1024x2048) hz2, View.ld_unit_zero (S := S1280x2048) hz2, View.ld_unit_zero (S := S1x1280) hz2,
    View.ld_unit_zero (S := S1024x1) hz2, View.readCov_unit_zero (S := S1024x1) _ hz2]

end Vals

end Cert.KernelIdeal.Hand

end
-- ==== Proof.LibSoftmax.lean ====
/-
  The streaming form of a softmax-weighted sum, over the extended reals. A row's logits `s j` and values `v j` are real.
  For a finite set S of columns write M(S) for the largest logit over S (bottom for the empty set), and for a shift M
  the sums Z(S, M) = Σ_{j∈S} exp (s j − M) and A(S, M) = Σ_{j∈S} exp (s j − M)·v j. Taking in a further nonempty block T
  disjoint from S, with M' = max (M(S)) (M(T)), rescales the old sums by exp (M(S) − M') — which is 0 when S is empty,
  the maximum then being bottom — and adds T's terms at the new shift; and at the end A/Z is the weighted sum with the
  normalised weights. General: no program is mentioned.
-/
import Idealize.ShloMosaic.PureOps.Ideal
import Mathlib.Data.EReal.Operations
import Mathlib.Data.EReal.Inv
import Mathlib.Data.Finset.Lattice.Fold
import Mathlib.Algebra.BigOperators.Group.Finset.Basic
import Mathlib.Algebra.BigOperators.Ring.Finset
import Mathlib.Algebra.Order.BigOperators.Group.Finset
import Mathlib.Analysis.Complex.Exponential

noncomputable section

namespace Cert.LibSoftmax

open Idealize.ShloMosaic

variable {ι : Type} [DecidableEq ι]

/-- The largest logit over `S` (bottom for the empty set). -/
def smax (s : ι → ℝ) (S : Finset ι) : EReal := S.sup fun j => ((s j : ℝ) : EReal)

/-- Σ_{j∈S} exp (s j − M). -/
def ssum (s : ι → ℝ) (S : Finset ι) (M : EReal) : EReal := ∑ j ∈ S, Ideal.exp (((s j : ℝ) : EReal) - M)

/-- Σ_{j∈S} exp (s j − M)·v j. -/
def swsum (s v : ι → ℝ) (S : Finset ι) (M : EReal) : EReal := ∑ j ∈ S, Ideal.exp (((s j : ℝ) : EReal) - M) * ((v j : ℝ) : EReal)

/-! ### Coercions -/

/-- The coercion of a finite real sum is the sum of the coercions. -/
theorem coe_finset_sum (f : ι → ℝ) (S : Finset ι) : ((∑ j ∈ S, f j : ℝ) : EReal) = ∑ j ∈ S, ((f j : ℝ) : EReal) := by
  induction S using Finset.induction_on with
  | empty => simp
  | insert a S ha ih => rw [Finset.sum_insert ha, Finset.sum_insert ha, EReal.coe_add, ih]

/-- The coercion of a maximum of reals is the maximum of the coercions. -/
theorem coe_max (x y : ℝ) : ((max x y : ℝ) : EReal) = max (x : EReal) (y : EReal) :=
  EReal.coe_strictMono.monotone.map_max

/-- Over a nonempty set the largest logit is the coercion of the real maximum. -/
theorem smax_coe (s : ι → ℝ) (S : Finset ι) (hS : S.Nonempty) : smax s S = ((S.sup' hS s : ℝ) : EReal) := by
  rw [smax, ← Finset.sup'_eq_sup hS]
  exact (Finset.comp_sup'_eq_sup'_comp hS (fun x : ℝ => (x : EReal)) coe_max).symm

theorem smax_empty (s : ι → ℝ) : smax s ∅ = ⊥ := Finset.sup_empty

/-- The normaliser at a real shift is the coercion of the real sum of exponentials. -/
theorem ssum_coe (s : ι → ℝ) (S : Finset ι) (M : ℝ) :
    ssum s S (M : EReal) = ((∑ j ∈ S, Real.exp (s j - M) : ℝ) : EReal) := by
  rw [ssum, coe_finset_sum]
  refine Finset.sum_congr rfl fun j _ => ?_
  rw [← EReal.coe_sub, Ideal.exp_coe]

/-- The weighted sum at a real shift is the coercion of the real weighted sum. -/
theorem swsum_coe (s v : ι → ℝ) (S : Finset ι) (M : ℝ) :
    swsum s v S (M : EReal) = ((∑ j ∈ S, Real.exp (s j - M) * v j : ℝ) : EReal) := by
  rw [swsum, coe_finset_sum]
  refine Finset.sum_congr rfl fun j _ => ?_
  rw [← EReal.coe_sub, Ideal.exp_coe, EReal.coe_mul]

/-- Over a nonempty set the largest logit is a real. -/
theorem smax_real (s : ι → ℝ) (S : Finset ι) (hS : S.Nonempty) : ∃ r : ℝ, smax s S = (r : EReal) :=
  ⟨_, smax_coe s S hS⟩

/-- The sums at a real shift are reals; the normaliser over a nonempty set at its own maximum is a positive real. -/
theorem ssum_real (s : ι → ℝ) (S : Finset ι) (M : ℝ) : ∃ r : ℝ, ssum s S (M : EReal) = (r : EReal) :=
  ⟨_, ssum_coe s S M⟩
theorem swsum_real (s v : ι → ℝ) (S : Finset ι) (M : ℝ) : ∃ r : ℝ, swsum s v S (M : EReal) = (r : EReal) :=
  ⟨_, swsum_coe s v S M⟩

/-- A sum of exponentials over a nonempty set is positive. -/
theorem sum_exp_pos (s : ι → ℝ) (S : Finset ι) (hS : S.Nonempty) (M : ℝ) : 0 < ∑ j ∈ S, Real.exp (s j - M) :=
  Finset.sum_pos (fun j _ => Real.exp_pos _) hS

theorem ssum_pos (s : ι → ℝ) (S : Finset ι) (hS : S.Nonempty) : ∃ r : ℝ, 0 < r ∧ ssum s S (smax s S) = (r : EReal) := by
  rw [smax_coe s S hS]
  exact ⟨_, sum_exp_pos s S hS _, ssum_coe s S _⟩

/-- Rescaling a real sum of exponentials from the shift M to the shift M'. -/
theorem rescale_sum (s : ι → ℝ) (S : Finset ι) (M M' : ℝ) :
    Real.exp (M - M') * ∑ j ∈ S, Real.exp (s j - M) = ∑ j ∈ S, Real.exp (s j - M') := by
  rw [Finset.mul_sum]
  refine Finset.sum_congr rfl fun j _ => ?_
  rw [← Real.exp_add]; congr 1; ring

theorem rescale_wsum (s v : ι → ℝ) (S : Finset ι) (M M' : ℝ) :
    Real.exp (M - M') * ∑ j ∈ S, Real.exp (s j - M) * v j = ∑ j ∈ S, Real.exp (s j - M') * v j := by
  rw [Finset.mul_sum]
  refine Finset.sum_congr rfl fun j _ => ?_
  rw [← mul_assoc, ← Real.exp_add]; congr 2; ring

/-- Taking in a block: the new maximum, the rescaled normaliser, the rescaled weighted sum. -/
theorem online_step (s v : ι → ℝ) (S T : Finset ι) (hd : Disjoint S T) (hT : T.Nonempty) :
    max (smax s S) (smax s T) = smax s (S ∪ T)
    ∧ Ideal.exp (smax s S - max (smax s S) (smax s T)) * ssum s S (smax s S) + ssum s T (max (smax s S) (smax s T))
        = ssum s (S ∪ T) (smax s (S ∪ T))
    ∧ Ideal.exp (smax s S - max (smax s S) (smax s T)) * swsum s v S (smax s S) + swsum s v T (max (smax s S) (smax s T))
        = swsum s v (S ∪ T) (smax s (S ∪ T)) := by
  have hmax : max (smax s S) (smax s T) = smax s (S ∪ T) := (Finset.sup_union).symm
  refine ⟨hmax, ?_, ?_⟩
  all_goals rw [← hmax]
  all_goals rcases S.eq_empty_or_nonempty with rfl | hS
  · -- the old set empty: the factor is exp ⊥ = 0, the old sum the empty sum
    rw [smax_empty, bot_sup_eq, EReal.bot_sub, Ideal.exp_bot, zero_mul, zero_add, Finset.empty_union]
  · rw [smax_coe s S hS, smax_coe s T hT, ← coe_max, ← EReal.coe_sub, Ideal.exp_coe, ssum_coe, ssum_coe, ssum_coe,
      ← EReal.coe_mul, ← EReal.coe_add, rescale_sum, Finset.sum_union hd]
  · rw [smax_empty, bot_sup_eq, EReal.bot_sub, Ideal.exp_bot, zero_mul, zero_add, Finset.empty_union]
  · rw [smax_coe s S hS, smax_coe s T hT, ← coe_max, ← EReal.coe_sub, Ideal.exp_coe, swsum_coe, swsum_coe, swsum_coe,
      ← EReal.coe_mul, ← EReal.coe_add, rescale_wsum, Finset.sum_union hd]

/-- At the end the quotient of the two sums is the weighted sum with normalised weights. -/
theorem online_final (s v : ι → ℝ) (S : Finset ι) (hS : S.Nonempty) :
    Ideal.div (swsum s v S (smax s S)) (ssum s S (smax s S))
      = ∑ j ∈ S, Ideal.div (Ideal.exp (((s j : ℝ) : EReal) - smax s S)) (ssum s S (smax s S)) * ((v j : ℝ) : EReal) := by
  rw [smax_coe s S hS, ssum_coe, swsum_coe]
  have hZ : (∑ j ∈ S, Real.exp (s j - S.sup' hS s)) ≠ 0 := (sum_exp_pos s S hS _).ne'
  rw [Ideal.div_coe hZ, ← EReal.coe_mul, Finset.sum_mul, coe_finset_sum]
  refine Finset.sum_congr rfl fun j _ => ?_
  rw [Ideal.div_coe hZ, ← EReal.coe_sub, Ideal.exp_coe, ← EReal.coe_mul, ← EReal.coe_mul]
  congr 1; ring

end Cert.LibSoftmax

end
-- ==== Proof.Spec.lean ====
/-
  One row of the loss, as mathematics over the extended reals.

  A row has 32000 logits s v.  The kernel sees them in 25 consecutive chunks of 1280 columns and keeps
  three numbers per row: the running maximum m, the running normaliser l = Σ exp (s v − m) over the
  columns seen so far (rescaled by exp (m_old − m_new) whenever the maximum moves), and the running
  target logit g = Σ [target = v] · s v.  After the last chunk it returns g − (m + log l).
  The reference returns (s j − M) − log Σ_v exp (s v − M) at the target column j, with M the row maximum.
  For real logits and a target inside the row the two agree (`tokStream_eq_tokRef`).
-/
import Idealize.ShloMosaic.PureOps.Ideal
import Mathlib.Data.EReal.Operations
import Mathlib.Data.Finset.Lattice.Fold
import Mathlib.Algebra.BigOperators.Group.Finset.Basic
import Mathlib.Algebra.BigOperators.Group.Finset.Piecewise
import Mathlib.Analysis.SpecialFunctions.Log.Basic
import proofs.«416803_j17583596109825_2_alg».proof.Proof.LibSoftmax

noncomputable section

namespace Cert.Spec

open Idealize.ShloMosaic

/-- Column `c` of chunk `k`: the chunks are consecutive runs of 1280 columns. -/
def col (k : Fin 25) (c : Fin 1280) : Fin 32000 :=
  ⟨k.val * 1280 + c.val, by have := k.isLt; have := c.isLt; omega⟩

/-- The largest logit of chunk `k`. -/
def cmax (s : Fin 32000 → EReal) (k : Fin 25) : EReal := Finset.univ.sup fun c : Fin 1280 => s (col k c)

/-- The running maximum after taking in chunk `k`. -/
def stepM (s : Fin 32000 → EReal) (k : Fin 25) (m : EReal) : EReal := max m (cmax s k)

/-- The running normaliser after taking in chunk `k`: the old one rescaled to the new maximum, plus the chunk's terms. -/
def stepL (s : Fin 32000 → EReal) (k : Fin 25) (m l : EReal) : EReal :=
  Ideal.exp (m - stepM s k m) * l + ∑ c : Fin 1280, Ideal.exp (s (col k c) - stepM s k m)

/-- The running target logit after taking in chunk `k`: a column contributes its logit when the target word names it. -/
def stepG (s : Fin 32000 → EReal) (tg : BitVec 32) (k : Fin 25) (g : EReal) : EReal :=
  g + ∑ c : Fin 1280, if tg = BitVec.ofNat 32 (col k c).val then s (col k c) else 0

/-- The running maximum after the first `j` chunks (from −∞). -/
def stM (s : Fin 32000 → EReal) : ℕ → EReal
  | 0 => ⊥
  | j + 1 => if h : j < 25 then stepM s ⟨j, h⟩ (stM s j) else stM s j

/-- The running normaliser after the first `j` chunks (from 0). -/
def stL (s : Fin 32000 → EReal) : ℕ → EReal
  | 0 => 0
  | j + 1 => if h : j < 25 then stepL s ⟨j, h⟩ (stM s j) (stL s j) else stL s j

/-- The running target logit after the first `j` chunks (from 0). -/
def stG (s : Fin 32000 → EReal) (tg : BitVec 32) : ℕ → EReal
  | 0 => 0
  | j + 1 => if h : j < 25 then stepG s tg ⟨j, h⟩ (stG s tg j) else stG s tg j

/-- What the streaming computation returns for a row. -/
def tokStream (s : Fin 32000 → EReal) (tg : BitVec 32) : EReal :=
  stG s tg 25 - (stM s 25 + Ideal.log (stL s 25))

/-- What the reference returns for a row at target column `j`. -/
def tokRef (s : Fin 32000 → EReal) (j : Fin 32000) : EReal :=
  (s j - Finset.univ.sup s) - Ideal.log (∑ v : Fin 32000, Ideal.exp (s v - Finset.univ.sup s))

/-- The logit of row `n`, column `v`: the row of `x` against the row of `w`, plus the bias. -/
def logit (x : Fin 4096 → Fin 2048 → EReal) (w : Fin 32000 → Fin 2048 → EReal) (b : Fin 32000 → EReal)
    (n : Fin 4096) (v : Fin 32000) : EReal :=
  (∑ h : Fin 2048, x n h * w v h) + b v

/-- Finite entries give real logits. -/
theorem logit_real (x : Fin 4096 → Fin 2048 → EReal) (w : Fin 32000 → Fin 2048 → EReal) (b : Fin 32000 → EReal)
    (hx : ∀ n h, ∃ r : ℝ, x n h = (r : EReal)) (hw : ∀ v h, ∃ r : ℝ, w v h = (r : EReal))
    (hb : ∀ v, ∃ r : ℝ, b v = (r : EReal)) (n : Fin 4096) :
    ∃ r : Fin 32000 → ℝ, logit x w b n = fun v => ((r v : ℝ) : EReal) := by
  choose rx hrx using hx
  choose wr hwr using hw
  choose rb hrb using hb
  refine ⟨fun v => (∑ h : Fin 2048, rx n h * wr v h) + rb v, ?_⟩
  funext v
  have hs : ∑ h : Fin 2048, x n h * w v h = ((∑ h : Fin 2048, rx n h * wr v h : ℝ) : EReal) := by
    rw [Cert.LibSoftmax.coe_finset_sum]
    refine Finset.sum_congr rfl fun h _ => ?_
    rw [hrx, hwr, EReal.coe_mul]
  rw [logit, hs, hrb, EReal.coe_add]

/-! ### The chunks enumerate the row -/

open Cert.LibSoftmax

/-- The columns before chunk `j`. -/
def seen (j : ℕ) : Finset (Fin 32000) := Finset.univ.filter fun v => v.val < 1280 * j

/-- The columns of chunk `k`. -/
def chunk (k : Fin 25) : Finset (Fin 32000) := Finset.univ.image (col k)

theorem col_injective (k : Fin 25) : Function.Injective (col k) := by
  intro a b h
  have h' := congrArg Fin.val h
  simp only [col] at h'
  exact Fin.ext (by omega)

theorem mem_chunk (k : Fin 25) (v : Fin 32000) : v ∈ chunk k ↔ 1280 * k.val ≤ v.val ∧ v.val < 1280 * (k.val + 1) := by
  rw [chunk, Finset.mem_image]
  constructor
  · rintro ⟨c, _, rfl⟩
    have := c.isLt
    simp only [col]
    omega
  · rintro ⟨h1, h2⟩
    refine ⟨⟨v.val - 1280 * k.val, by omega⟩, Finset.mem_univ _, Fin.ext ?_⟩
    simp only [col]
    omega

theorem mem_seen (j : ℕ) (v : Fin 32000) : v ∈ seen j ↔ v.val < 1280 * j := by
  rw [seen, Finset.mem_filter]; exact ⟨fun h => h.2, fun h => ⟨Finset.mem_univ _, h⟩⟩

theorem chunk_nonempty (k : Fin 25) : (chunk k).Nonempty :=
  ⟨col k ⟨0, by omega⟩, Finset.mem_image_of_mem _ (Finset.mem_univ _)⟩

theorem seen_zero : seen 0 = ∅ := by
  ext v; rw [mem_seen]; simp

theorem seen_all : seen 25 = Finset.univ := by
  ext v; rw [mem_seen]; have := v.isLt; exact ⟨fun _ => Finset.mem_univ _, fun _ => by omega⟩

theorem seen_succ (k : Fin 25) : seen (k.val + 1) = seen k.val ∪ chunk k := by
  ext v; rw [Finset.mem_union, mem_seen, mem_seen, mem_chunk]; omega

theorem seen_disjoint (k : Fin 25) : Disjoint (seen k.val) (chunk k) := by
  rw [Finset.disjoint_left]
  intro v h1 h2
  rw [mem_seen] at h1; rw [mem_chunk] at h2; omega

/-- Two words naming columns of the row are equal exactly when the columns are. -/
theorem word_eq_iff (a b : Fin 32000) : BitVec.ofNat 32 a.val = BitVec.ofNat 32 b.val ↔ a = b := by
  constructor
  · intro h
    have h' := congrArg BitVec.toNat h
    rw [BitVec.toNat_ofNat, BitVec.toNat_ofNat] at h'
    have ha := a.isLt
    have hb := b.isLt
    rw [Nat.mod_eq_of_lt (by omega), Nat.mod_eq_of_lt (by omega)] at h'
    exact Fin.ext h'
  · rintro rfl; rfl

/-! ### One chunk, in terms of sets of columns -/

section Row

variable (r : Fin 32000 → ℝ)

/-- The largest logit of a chunk is the largest over its set of columns. -/
theorem cmax_eq (k : Fin 25) : cmax (fun v => ((r v : ℝ) : EReal)) k = smax r (chunk k) := by
  rw [cmax, smax, chunk, Finset.sup_image]; rfl

/-- A chunk's exponentials at a shift are the sum over its set of columns. -/
theorem chunk_sum (k : Fin 25) (M : EReal) :
    ∑ c : Fin 1280, Ideal.exp (((r (col k c) : ℝ) : EReal) - M) = ssum r (chunk k) M := by
  rw [ssum, chunk, Finset.sum_image (fun a _ b _ h => col_injective k h)]

/-- A chunk's contribution to the target logit is the sum over its set of columns of the picked logit. -/
theorem chunk_pick (j : Fin 32000) (k : Fin 25) :
    (∑ c : Fin 1280, if BitVec.ofNat 32 j.val = BitVec.ofNat 32 (col k c).val then ((r (col k c) : ℝ) : EReal) else 0)
      = ∑ v ∈ chunk k, if j = v then ((r v : ℝ) : EReal) else 0 := by
  rw [chunk, Finset.sum_image (fun a _ b _ h => col_injective k h)]
  refine Finset.sum_congr rfl fun c _ => ?_
  by_cases h : j = col k c
  · rw [if_pos h, if_pos ((word_eq_iff _ _).mpr h)]
  · rw [if_neg h, if_neg (fun h' => h ((word_eq_iff _ _).mp h'))]

/-- After `j ≤ 25` chunks the three running numbers are the maximum, the normaliser at that maximum and the picked
    logit over the columns seen so far. -/
theorem stream_inv (j₀ : Fin 32000) : ∀ j : ℕ, j ≤ 25 →
    stM (fun v => ((r v : ℝ) : EReal)) j = smax r (seen j)
    ∧ stL (fun v => ((r v : ℝ) : EReal)) j = ssum r (seen j) (smax r (seen j))
    ∧ stG (fun v => ((r v : ℝ) : EReal)) (BitVec.ofNat 32 j₀.val) j
        = ∑ v ∈ seen j, if j₀ = v then ((r v : ℝ) : EReal) else 0
  | 0, _ => by
    refine ⟨?_, ?_, ?_⟩
    · rw [stM, seen_zero, smax_empty]
    · rw [stL, seen_zero, ssum, Finset.sum_empty]
    · rw [stG, seen_zero, Finset.sum_empty]
  | j + 1, hj => by
    have h : j < 25 := by omega
    obtain ⟨hm, hl, hg⟩ := stream_inv j₀ j (by omega)
    have hs : seen (j + 1) = seen j ∪ chunk ⟨j, h⟩ := seen_succ ⟨j, h⟩
    have hd : Disjoint (seen j) (chunk ⟨j, h⟩) := seen_disjoint ⟨j, h⟩
    obtain ⟨o1, o2, _⟩ := online_step r r (seen j) (chunk ⟨j, h⟩) hd (chunk_nonempty _)
    have hM : stM (fun v => ((r v : ℝ) : EReal)) (j + 1) = smax r (seen (j + 1)) := by
      rw [stM, dif_pos h, stepM, hm, cmax_eq, o1, hs]
    refine ⟨hM, ?_, ?_⟩
    · rw [stL, dif_pos h, stepL, stepM, hm, hl, cmax_eq, chunk_sum, o2, hs]
    · rw [stG, dif_pos h, stepG, hg, chunk_pick, hs, Finset.sum_union hd]

end Row

/-- For real logits and a target word naming column `j`, streaming over the 25 chunks returns the reference's value. -/
theorem tokStream_eq_tokRef (r : Fin 32000 → ℝ) (j : Fin 32000) :
    tokStream (fun v => ((r v : ℝ) : EReal)) (BitVec.ofNat 32 j.val) = tokRef (fun v => ((r v : ℝ) : EReal)) j := by
  obtain ⟨hm, hl, hg⟩ := stream_inv r j 25 le_rfl
  have hne : (Finset.univ : Finset (Fin 32000)).Nonempty := Finset.univ_nonempty
  obtain ⟨M, hM⟩ : ∃ M : ℝ, smax r Finset.univ = (M : EReal) := smax_real r _ hne
  obtain ⟨Z, hpos, hZ⟩ : ∃ Z : ℝ, 0 < Z ∧ ssum r Finset.univ (M : EReal) = (Z : EReal) :=
    ⟨_, sum_exp_pos r _ hne M, ssum_coe r _ M⟩
  rw [seen_all] at hm hl hg
  rw [Finset.sum_ite_eq, if_pos (Finset.mem_univ _)] at hg
  rw [hM] at hm hl
  rw [hZ] at hl
  have hsup : Finset.univ.sup (fun v => ((r v : ℝ) : EReal)) = (M : EReal) := hM
  have hsum : ∑ v : Fin 32000, Ideal.exp (((r v : ℝ) : EReal) - (M : EReal)) = (Z : EReal) := hZ
  rw [tokStream, tokRef, hm, hl, hg, hsup, hsum, Ideal.log_coe, if_neg (not_le.mpr hpos),
    ← EReal.coe_add, ← EReal.coe_sub, ← EReal.coe_sub, ← EReal.coe_sub]
  exact congrArg (fun t : ℝ => (t : EReal)) (by ring)

end Cert.Spec

end
-- ==== Proof.KiPay.lean ====
/-
  The body of the fused linear + streaming log-softmax kernel, read at the extended reals, payload by payload.

  One grid point sees a tile of 1024 rows and one chunk of 1280 columns. Its logits are the rows of the tile of
  inputs against the rows of the chunk of weights, plus the chunk's bias (`chunkLogit`). From them and from the three
  carried columns (running maximum, running normaliser, running target logit) the body computes the new three; the
  first chunk starts them from −∞, 0, 0; the last one writes out `g − (m + log l)`.

  Each payload is read at an index, first over opaque tiles (so that no equation ever asks for a tile's value), then
  composed; the last section states one chunk's step as `Cert.Spec.stepM`, `stepL`, `stepG` of a row of logits
  whose chunk the tile's row is.
-/
import proofs.«416803_j17583596109825_2_alg».proof.Proof.Gen.KernelIdeal.Skeleton
import proofs.«416803_j17583596109825_2_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Data.Finset.Fold

noncomputable section

open scoped BigOperators

namespace Cert.KernelIdeal.HandValue

open Idealize.ShloMosaic Idealize.ShloMosaic.ValueIdx Cert.KernelIdeal Cert.KernelIdeal.Gen

variable {α : Type}

/-- A vector of length `a` viewed as a column `[a, 1]` reads, at `(r, z)`, the vector at `r`. -/
theorem column_of_vector_apply {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_two, Shape.rowMajor_val_one]
    show r.val = r.val * 1 + z.val
    rw [hz, Nat.mul_one, Nat.add_zero])

/-- A column `[a, 1]` broadcast along the lanes to `[a, b]` reads, at `(r, c)`, the column at `r`. -/
theorem lanes_of_column_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

abbrev chunkDot := dot_S1024x2048_S1280x2048_S1024x1280_1_1_0_0_n_n

theorem lhs_chunkDot_0 (i : S1024x1280.Idx) (q : dot_S1024x2048_S1280x2048_S1024x1280_1_1_0_0_n_n.contr.Idx) :
    (dot_S1024x2048_S1280x2048_S1024x1280_1_1_0_0_n_n.lhsIdx i q 0).val = (i 0).val := by
  unfold DotDims.lhsIdx
  rw [dif_neg (show ¬(0 : Fin S1024x2048.rank) ∈ dot_S1024x2048_S1280x2048_S1024x1280_1_1_0_0_n_n.lhsBatch by decide),
    dif_pos (show (0 : Fin S1024x2048.rank) ∈ dot_S1024x2048_S1280x2048_S1024x1280_1_1_0_0_n_n.lhsNonContracting by decide)]
  rfl
theorem lhs_chunkDot_1 (i : S1024x1280.Idx) (q : dot_S1024x2048_S1280x2048_S1024x1280_1_1_0_0_n_n.contr.Idx) :
    (dot_S1024x2048_S1280x2048_S1024x1280_1_1_0_0_n_n.lhsIdx i q 1).val = (q ⟨0, by decide⟩).val :=
  dot_S1024x2048_S1280x2048_S1024x1280_1_1_0_0_n_n.lhsIdx_val_of_single rfl i q
theorem rhs_chunkDot_0 (i : S1024x1280.Idx) (q : dot_S1024x2048_S1280x2048_S1024x1280_1_1_0_0_n_n.contr.Idx) :
    (dot_S1024x2048_S1280x2048_S1024x1280_1_1_0_0_n_n.rhsIdx i q 0).val = (i 1).val := by
  unfold DotDims.rhsIdx
  rw [dif_neg (show ¬(0 : Fin S1280x2048.rank) ∈ dot_S1024x2048_S1280x2048_S1024x1280_1_1_0_0_n_n.rhsBatch by decide),
    dif_pos (show (0 : Fin S1280x2048.rank) ∈ dot_S1024x2048_S1280x2048_S1024x1280_1_1_0_0_n_n.rhsNonContracting by decide)]
  rfl
theorem rhs_chunkDot_1 (i : S1024x1280.Idx) (q : dot_S1024x2048_S1280x2048_S1024x1280_1_1_0_0_n_n.contr.Idx) :
    (dot_S1024x2048_S1280x2048_S1024x1280_1_1_0_0_n_n.rhsIdx i q 1).val = (q ⟨0, by decide⟩).val :=
  dot_S1024x2048_S1280x2048_S1024x1280_1_1_0_0_n_n.rhsIdx_val_of_single rfl i q

/-- The matrix unit's product into a zero accumulator, at row `r` and column `c` of the chunk: the row of `x` against the row of `w`. -/
theorem product_apply (x : FVec Ideal S1024x2048 .bf16) (w : FVec Ideal S1280x2048 .bf16) (r : Fin 1024) (c : Fin 1280) :
    matmul dot_S1024x2048_S1280x2048_S1024x1280_1_1_0_0_n_n none x w (constant S1024x1280 .f32 0x00000000#32) (ix2 r c)
      = ∑ h : Fin 2048, x (ix2 r h) * w (ix2 c h) := by
  show FloatOps.matmul _ _ _ _ _ _ = _
  rw [Ideal.matmul_constant_zero_apply,
    ← Equiv.sum_comp (contrEquiv1 dot_S1024x2048_S1280x2048_S1024x1280_1_1_0_0_n_n 2048 rfl rfl).symm]
  refine Finset.sum_congr rfl fun k _ => ?_
  have hk := contrEquiv1_symm_val dot_S1024x2048_S1280x2048_S1024x1280_1_1_0_0_n_n 2048 rfl rfl k
  have el : dot_S1024x2048_S1280x2048_S1024x1280_1_1_0_0_n_n.lhsIdx (ix2 r c)
      ((contrEquiv1 dot_S1024x2048_S1280x2048_S1024x1280_1_1_0_0_n_n 2048 rfl rfl).symm k) = ix2 r k :=
    funext fun a => Fin.ext (by
      match a with
      | ⟨0, _⟩ => exact lhs_chunkDot_0 _ _
      | ⟨1, _⟩ => exact (lhs_chunkDot_1 _ _).trans hk)
  have er : dot_S1024x2048_S1280x2048_S1024x1280_1_1_0_0_n_n.rhsIdx (ix2 r c)
      ((contrEquiv1 dot_S1024x2048_S1280x2048_S1024x1280_1_1_0_0_n_n 2048 rfl rfl).symm k) = ix2 c k :=
    funext fun a => Fin.ext (by
      match a with
      | ⟨0, _⟩ => exact rhs_chunkDot_0 _ _
      | ⟨1, _⟩ => exact (rhs_chunkDot_1 _ _).trans hk)
  rw [el, er]

/-! ## The chunk's logits -/

/-- The logit of row `r` and column `c` of the chunk: the row of `x` against the row of `w`, plus the bias. -/
def chunkLogit (x : Vec Ideal S1024x2048 .bf16) (w : Vec Ideal S1280x2048 .bf16) (b : Vec Ideal S1x1280 .f32)
    (r : Fin 1024) (c : Fin 1280) : EReal :=
  (∑ h : Fin 2048, x (ix2 r h) * w (ix2 c h)) + b (ix2 (0 : Fin 1) c)

theorem pay8_apply (x : Vec Ideal S1024x2048 .bf16) (w : Vec Ideal S1280x2048 .bf16) (b : Vec Ideal S1x1280 .f32)
    (r : Fin 1024) (c : Fin 1280) :
    k0_pay8 (F := Ideal) x w b (ix2 r c) = chunkLogit x w b r c := by
  unfold k0_pay8 chunkLogit
  show matmul (F := Ideal) (φ₁ := .bf16) (φ₂ := .bf16) dot_S1024x2048_S1280x2048_S1024x1280_1_1_0_0_n_n none
      (shapeCast S1024x2048 x _) (shapeCast S1280x2048 w _)
      (constant S1024x1280 .f32 0x00000000#32) (ix2 r c) + broadcastTo S1024x1280 (shapeCast S1x1280 b _) _ (ix2 r c) = _
  rw [shapeCast_self, shapeCast_self, shapeCast_self, product_apply, broadcastTo_1b_ab_apply]

/-! ## The lane reductions -/

theorem lift_lane (r : Fin 1024) (c : Fin 1280) :
    reduces_S1024x1280_S1024.lift (ix1 r) c = ix2 r c :=
  funext fun a => Fin.ext (by
    match a with
    | ⟨0, _⟩ => rfl
    | ⟨1, _⟩ => rfl)

theorem negInf_word : Ideal.ofBits .f32 0xFF800000#32 = ⊥ := by simp [Ideal.ofBits, Ideal.ieee]

/-- The lane maximum of a `[1024, 1280]` tile from −∞, at row `r`: the largest entry of the row. -/
theorem laneMax_apply (src : FVec Ideal S1024x1280 .f32) (r : Fin 1024) :
    multiReduction (F := Ideal) .maximumf [1] S1024 src 0xFF800000#32 reduces_S1024x1280_S1024 (.inl rfl) rfl (ix1 r)
      = Finset.univ.sup fun c : Fin 1280 => src (ix2 r c) := by
  refine (Ideal.multiReduction_maximumf_single src _ reduces_S1024x1280_S1024 _ _ (ix1 r)).trans ?_
  show (Finset.univ : Finset (Fin 1280)).fold max (Ideal.ofBits .f32 0xFF800000#32) _ = _
  rw [negInf_word, show (src ∘ reduces_S1024x1280_S1024.lift (ix1 r)) = fun c : Fin 1280 => src (ix2 r c) from
    funext fun c => congrArg src (lift_lane r c)]
  exact le_antisymm ((Finset.fold_max_le _).mpr ⟨bot_le, fun c hc => Finset.le_sup (f := fun c : Fin 1280 => src (ix2 r c)) hc⟩)
    (Finset.sup_le fun c hc => (Finset.le_fold_max _).mpr (Or.inr ⟨c, hc, le_rfl⟩))

/-- The lane sum of a `[1024, 1280]` tile from 0, at row `r`: the sum of the row's entries. -/
theorem laneSum_apply (src : FVec Ideal S1024x1280 .f32) (r : Fin 1024) :
    multiReduction (F := Ideal) .add [1] S1024 src 0x00000000#32 reduces_S1024x1280_S1024 (.inl rfl) rfl (ix1 r)
      = ∑ c : Fin 1280, src (ix2 r c) := by
  refine (Ideal.multiReduction_add_single src _ reduces_S1024x1280_S1024 _ _ (ix1 r)).trans ?_
  show ∑ c : Fin 1280, src (reduces_S1024x1280_S1024.lift (ix1 r) c) = _
  exact Finset.sum_congr rfl fun c _ => congrArg src (lift_lane r c)

/-! ## The body's arithmetic on opaque tiles

Each step of the body is first read at an index over VARIABLES, so that no equation here ever asks for the value of a
tile: the payloads below are these steps applied to one another. -/

/-- The old maximum against the lane maximum of a tile, at row `r`. -/
theorem rowMax_apply (src : FVec Ideal S1024x1280 .f32) (m0 : FVec Ideal S1024x1 .f32) (r : Fin 1024) (z : Fin 1) :
    maximumf m0 (shapeCast S1024x1 (multiReduction (F := Ideal) .maximumf [1] S1024 src 0xFF800000#32
        reduces_S1024x1280_S1024 (.inl rfl) rfl) shapeCasts_S1024_S1024x1) (ix2 r z)
      = max (m0 (ix2 r z)) (Finset.univ.sup fun c : Fin 1280 => src (ix2 r c)) := by
  show max (m0 (ix2 r z)) (shapeCast S1024x1 (multiReduction (F := Ideal) .maximumf [1] S1024 src 0xFF800000#32
        reduces_S1024x1280_S1024 (.inl rfl) rfl) shapeCasts_S1024_S1024x1 (ix2 r z)) = _
  rw [column_of_vector_apply, laneMax_apply]

/-- The exponential of a tile's distance below a column broadcast along the lanes, at `(r, c)`. -/
theorem expBelow_apply (s : FVec Ideal S1024x1280 .f32) (p : FVec Ideal S1024x1 .f32) (r : Fin 1024) (c : Fin 1280) :
    exp (subf s (broadcastTo S1024x1280 p broadcasts_S1024x1_S1024x1280)) (ix2 r c)
      = Ideal.exp (s (ix2 r c) - p (ix2 r (0 : Fin 1))) := by
  show Ideal.exp (s (ix2 r c) - broadcastTo S1024x1280 p broadcasts_S1024x1_S1024x1280 (ix2 r c)) = _
  rw [lanes_of_column_apply]

/-- A column rescaled by the exponential of the distance between two other columns. -/
theorem rescale_apply (m1 p l0 : FVec Ideal S1024x1 .f32) (j : S1024x1.Idx) :
    mulf (exp (subf m1 p)) l0 j = Ideal.exp (m1 j - p j) * l0 j := rfl

/-- A column plus the lane sum of a tile, at row `r`. -/
theorem plusRowSum_apply (e : FVec Ideal S1024x1280 .f32) (a : FVec Ideal S1024x1 .f32) (r : Fin 1024) (z : Fin 1) :
    addf a (shapeCast S1024x1 (multiReduction (F := Ideal) .add [1] S1024 e 0x00000000#32
        reduces_S1024x1280_S1024 (.inl rfl) rfl) shapeCasts_S1024_S1024x1) (ix2 r z)
      = a (ix2 r z) + ∑ c : Fin 1280, e (ix2 r c) := by
  show a (ix2 r z) + shapeCast S1024x1 (multiReduction (F := Ideal) .add [1] S1024 e 0x00000000#32
        reduces_S1024x1280_S1024 (.inl rfl) rfl) shapeCasts_S1024_S1024x1 (ix2 r z) = _
  rw [column_of_vector_apply, laneSum_apply]

/-- The word of column `c` of chunk `k`, as the body computes it: the equation holds modulo 2³² whatever the numbers. -/
theorem column_word (k c : ℕ) :
    IntOp.addi (Scalar.muli (BitVec.ofNat 32 k) 1280#32) (BitVec.ofNat 32 c) = BitVec.ofNat 32 (k * 1280 + c) := by
  show BitVec.ofNat 32 k * BitVec.ofNat 32 1280 + BitVec.ofNat 32 c = _
  rw [← BitVec.ofNat_mul, ← BitVec.ofNat_add]

/-- A select on an integer equality is the `if` on the equation. -/
theorem select_cmpi_eq {α : Type} (t u : BitVec 32) (a b : α) :
    Scalar.select (IntOp.cmpi .eq t u) a b = if t = u then a else b := by
  show (if BitVec.ofBool (t == u) = 1#1 then a else b) = _
  by_cases h : t = u
  · rw [if_pos h, if_pos (by rw [beq_iff_eq.mpr h]; rfl)]
  · rw [if_neg h, if_neg (by rw [beq_eq_false_iff_ne.mpr h]; decide)]

/-- The lane sum of a tile masked to the column the row's target word names, at row `r`, in chunk `k`. -/
theorem maskedRowSum_apply (k : ℕ) (s : FVec Ideal S1024x1280 .f32) (tg : IVec S1024x1 32) (r : Fin 1024) (z : Fin 1) :
    shapeCast S1024x1 (multiReduction (F := Ideal) .add [1] S1024
        (select (cmpi .eq (broadcastTo S1024x1280 (shapeCast S1024x1 tg shapeCasts_S1024x1_S1024x1) broadcasts_S1024x1_S1024x1280)
            (addi (broadcast S1024x1280 (Scalar.muli (BitVec.ofNat 32 k) 1280#32))
              (iota .tc S1024x1280 32 [1] iota_S1024x1280_d1_w32)))
          s (broadcast S1024x1280 (Scalar.ofBits (F := Ideal) .f32 0x00000000#32)))
        0x00000000#32 reduces_S1024x1280_S1024 (.inl rfl) rfl) shapeCasts_S1024_S1024x1 (ix2 r z)
      = ∑ c : Fin 1280, if tg (ix2 r z) = BitVec.ofNat 32 (k * 1280 + c.val) then s (ix2 r c) else 0 := by
  obtain rfl : z = 0 := Subsingleton.elim _ _
  rw [column_of_vector_apply, laneSum_apply]
  refine Finset.sum_congr rfl fun c _ => ?_
  show Scalar.select (IntOp.cmpi .eq (broadcastTo S1024x1280 (shapeCast S1024x1 tg shapeCasts_S1024x1_S1024x1)
      broadcasts_S1024x1_S1024x1280 (ix2 r c))
    (IntOp.addi (Scalar.muli (BitVec.ofNat 32 k) 1280#32) (iota .tc S1024x1280 32 [1] iota_S1024x1280_d1_w32 (ix2 r c))))
    (s (ix2 r c)) (Ideal.ofBits .f32 0x00000000#32) = _
  rw [lanes_of_column_apply, shapeCast_self, iota_single_apply, Ideal.ofBits_zero_f32, select_cmpi_eq]
  show (if tg (ix2 r 0) = IntOp.addi (Scalar.muli (BitVec.ofNat 32 k) 1280#32) (BitVec.ofNat 32 c.val) then _ else _) = _
  rw [column_word]

/-! ## The carried quantities' payloads at a row -/

/-- The new running maximum at row `r`: the old one against the chunk's largest logit. -/
theorem pay10_apply (x : Vec Ideal S1024x2048 .bf16) (w : Vec Ideal S1280x2048 .bf16) (b : Vec Ideal S1x1280 .f32)
    (m0 : Vec Ideal S1024x1 .f32) (r : Fin 1024) (z : Fin 1) :
    k0_pay10 (F := Ideal) x w b m0 (ix2 r z)
      = max (m0 (ix2 r z)) (Finset.univ.sup fun c : Fin 1280 => chunkLogit x w b r c) := by
  unfold k0_pay10
  refine (rowMax_apply (k0_pay8 (F := Ideal) x w b) m0 r z).trans ?_
  exact congrArg (fun f : Fin 1280 → EReal => max (m0 (ix2 r z)) (Finset.univ.sup f)) (funext fun c => pay8_apply x w b r c)

/-- A logit's term of the normaliser: the exponential of its distance below the new maximum. -/
theorem pay11_apply (x : Vec Ideal S1024x2048 .bf16) (w : Vec Ideal S1280x2048 .bf16) (b : Vec Ideal S1x1280 .f32)
    (m0 : Vec Ideal S1024x1 .f32) (r : Fin 1024) (c : Fin 1280) :
    k0_pay11 (F := Ideal) x w b m0 (ix2 r c)
      = Ideal.exp (chunkLogit x w b r c - k0_pay10 (F := Ideal) x w b m0 (ix2 r (0 : Fin 1))) := by
  unfold k0_pay11
  refine (expBelow_apply (k0_pay8 (F := Ideal) x w b) (k0_pay10 (F := Ideal) x w b m0) r c).trans ?_
  rw [pay8_apply]

/-- The old normaliser rescaled to the new maximum. -/
theorem pay12_apply (x : Vec Ideal S1024x2048 .bf16) (w : Vec Ideal S1280x2048 .bf16) (b : Vec Ideal S1x1280 .f32)
    (m0 m1 l0 : Vec Ideal S1024x1 .f32) (j : S1024x1.Idx) :
    k0_pay12 (F := Ideal) x w b m0 m1 l0 j = Ideal.exp (m1 j - k0_pay10 (F := Ideal) x w b m0 j) * l0 j := by
  unfold k0_pay12
  exact rescale_apply m1 (k0_pay10 (F := Ideal) x w b m0) l0 j

/-- The new normaliser from its two parts: the rescaled old one plus the row sum of the chunk's terms. -/
theorem pay1_apply (e : Vec Ideal S1024x1280 .f32) (a : Vec Ideal S1024x1 .f32) (r : Fin 1024) (z : Fin 1) :
    k0_pay1 (F := Ideal) e a (ix2 r z) = a (ix2 r z) + ∑ c : Fin 1280, e (ix2 r c) := by
  unfold k0_pay1
  show shapeCast S1024x1 (addf (F := Ideal) (φ := .f32) a (shapeCast S1024x1 (multiReduction (F := Ideal) .add [1] S1024 e
    0x00000000#32 reduces_S1024x1280_S1024 (.inl rfl) rfl) shapeCasts_S1024_S1024x1)) shapeCasts_S1024x1_S1024x1 (ix2 r z) = _
  rw [shapeCast_self]
  exact plusRowSum_apply e a r z

/-- The chunk's share of the target logit at row `r`: a column contributes its logit when the row's target word
    names it. -/
theorem pay9_apply (i : grid0.Coords) (x : Vec Ideal S1024x2048 .bf16) (w : Vec Ideal S1280x2048 .bf16)
    (b : Vec Ideal S1x1280 .f32) (tg : Vec Ideal S1024x1 .i32) (r : Fin 1024) (z : Fin 1) :
    k0_pay9 (F := Ideal) i x w b tg (ix2 r z)
      = ∑ c : Fin 1280, if tg (ix2 r z) = BitVec.ofNat 32 ((i 1).val * 1280 + c.val) then chunkLogit x w b r c else 0 := by
  unfold k0_pay9
  refine (maskedRowSum_apply (i 1).val (k0_pay8 (F := Ideal) x w b) tg r z).trans ?_
  exact Finset.sum_congr rfl fun c _ => by rw [pay8_apply]

/-- The new running target logit: the old one plus the chunk's share. -/
theorem pay2_apply (p g0 : Vec Ideal S1024x1 .f32) (j : S1024x1.Idx) :
    k0_pay2 (F := Ideal) p g0 j = g0 j + p j := by
  unfold k0_pay2
  show shapeCast S1024x1 (addf (F := Ideal) (φ := .f32) g0 p) shapeCasts_S1024x1_S1024x1 j = _
  rw [shapeCast_self]
  rfl

/-- The running maximum is stored as it was computed. -/
theorem pay3_eq (m : Vec Ideal S1024x1 .f32) : k0_pay3 (F := Ideal) m = m := by
  unfold k0_pay3
  exact shapeCast_self _ _

/-- What the last chunk writes out: the target logit minus the log of the row's total, `g − (m + log l)`. -/
theorem pay4_apply (m l g : Vec Ideal S1024x1 .f32) (j : S1024x1.Idx) :
    k0_pay4 (F := Ideal) m l g j = g j - (m j + Ideal.log (l j)) := rfl

/-- The first chunk resets the running maximum to −∞ … -/
theorem pay5_apply (j : S1024x1.Idx) : (k0_pay5 (F := Ideal)) j = ⊥ := by
  unfold k0_pay5
  show shapeCast S1024x1 (broadcast S1024x1 (Ideal.ofBits .f32 0xFF800000#32)) shapeCasts_S1024x1_S1024x1 j = _
  rw [shapeCast_self]
  exact negInf_word

/-- … the running normaliser to 0 … -/
theorem pay6_apply (j : S1024x1.Idx) : (k0_pay6 (F := Ideal)) j = 0 := by
  unfold k0_pay6
  show shapeCast S1024x1 (broadcast S1024x1 (Ideal.ofBits .f32 0x00000000#32)) shapeCasts_S1024x1_S1024x1 j = _
  rw [shapeCast_self]
  exact Ideal.ofBits_zero_f32

/-- … and the running target logit to 0. -/
theorem pay7_apply (j : S1024x1.Idx) : (k0_pay7 (F := Ideal)) j = 0 := by
  unfold k0_pay7
  show shapeCast S1024x1 (broadcast S1024x1 (Ideal.ofBits .f32 0x00000000#32)) shapeCasts_S1024x1_S1024x1 j = _
  rw [shapeCast_self]
  exact Ideal.ofBits_zero_f32

/-! ## One chunk's step, in the vocabulary of the row's mathematics

Let `s` be a row of 32000 logits whose chunk `k` is the tile's row `r`: `hs`. Then what the body leaves in the three
scratch columns at row `r` is one step of the streaming recurrences on `s`. -/

/-- The new running maximum is `stepM`. -/
theorem newMax_eq (x : Vec Ideal S1024x2048 .bf16) (w : Vec Ideal S1280x2048 .bf16) (b : Vec Ideal S1x1280 .f32)
    (m0 : Vec Ideal S1024x1 .f32) (r : Fin 1024) (z : Fin 1) (s : Fin 32000 → EReal) (k : Fin 25)
    (hs : ∀ c : Fin 1280, chunkLogit x w b r c = s (Cert.Spec.col k c)) :
    k0_pay3 (F := Ideal) (k0_pay10 (F := Ideal) x w b m0) (ix2 r z) = Cert.Spec.stepM s k (m0 (ix2 r z)) := by
  rw [pay3_eq, pay10_apply]
  exact congrArg (fun f : Fin 1280 → EReal => max (m0 (ix2 r z)) (Finset.univ.sup f)) (funext hs)

/-- The new running normaliser is `stepL`. -/
theorem newNorm_eq (x : Vec Ideal S1024x2048 .bf16) (w : Vec Ideal S1280x2048 .bf16) (b : Vec Ideal S1x1280 .f32)
    (m0 l0 : Vec Ideal S1024x1 .f32) (r : Fin 1024) (z : Fin 1) (s : Fin 32000 → EReal) (k : Fin 25)
    (hs : ∀ c : Fin 1280, chunkLogit x w b r c = s (Cert.Spec.col k c)) :
    k0_pay1 (F := Ideal) (k0_pay11 (F := Ideal) x w b m0) (k0_pay12 (F := Ideal) x w b m0 m0 l0) (ix2 r z)
      = Cert.Spec.stepL s k (m0 (ix2 r z)) (l0 (ix2 r z)) := by
  obtain rfl : z = 0 := Subsingleton.elim _ _
  have hM : k0_pay10 (F := Ideal) x w b m0 (ix2 r (0 : Fin 1)) = Cert.Spec.stepM s k (m0 (ix2 r (0 : Fin 1))) := by
    have := newMax_eq x w b m0 r 0 s k hs
    rwa [pay3_eq] at this
  rw [pay1_apply, pay12_apply, hM]
  unfold Cert.Spec.stepL
  refine congrArg (Ideal.exp (m0 (ix2 r (0 : Fin 1)) - Cert.Spec.stepM s k (m0 (ix2 r (0 : Fin 1)))) * l0 (ix2 r (0 : Fin 1)) + ·) ?_
  refine Finset.sum_congr rfl fun c _ => ?_
  rw [pay11_apply, hM, hs c]

/-- The new running target logit is `stepG`. -/
theorem newTarget_eq (i : grid0.Coords) (x : Vec Ideal S1024x2048 .bf16) (w : Vec Ideal S1280x2048 .bf16)
    (b : Vec Ideal S1x1280 .f32) (tg : Vec Ideal S1024x1 .i32) (g0 : Vec Ideal S1024x1 .f32) (r : Fin 1024) (z : Fin 1)
    (s : Fin 32000 → EReal) (k : Fin 25) (hk : (i 1).val = k.val)
    (hs : ∀ c : Fin 1280, chunkLogit x w b r c = s (Cert.Spec.col k c)) :
    k0_pay2 (F := Ideal) (k0_pay9 (F := Ideal) i x w b tg) g0 (ix2 r z)
      = Cert.Spec.stepG s (tg (ix2 r z)) k (g0 (ix2 r z)) := by
  rw [pay2_apply, pay9_apply]
  unfold Cert.Spec.stepG
  refine congrArg (g0 (ix2 r z) + ·) ?_
  refine Finset.sum_congr rfl fun c _ => ?_
  rw [hs c, hk]
  rfl

/-- What the last chunk writes out is the streaming value `g − (m + log l)` of the three columns. -/
theorem flushOut_apply (m l g : Vec Ideal S1024x1 .f32) (j : S1024x1.Idx) :
    k0_pay4 (F := Ideal) m l g j = g j - (m j + Ideal.log (l j)) := pay4_apply m l g j

end Cert.KernelIdeal.HandValue

end
-- ==== Proof.PreFacts.lean ====
/-
  What the printed precondition says of the four inputs, read at the extended reals.

  The precondition is the conjunction of four "all" tests: |w| < +∞ at every entry of the weights, |x| < +∞ at every
  entry of the input, |b| < +∞ at every entry of the bias, and 0 ≤ t ∧ t < 32000 (signed) at every target word.
  An extended real whose absolute value max x (−x) lies below +∞ is a real; a 32-bit word in [0, 32000) signed is the
  word of a number below 32000.
-/
import proofs.«416803_j17583596109825_2_alg».proof.Pre_finite_inputs
import Idealize.ShloMosaic.Lib.ReduceAll
import Idealize.ShloMosaic.Lib.ValueIdx

noncomputable section

namespace Cert.PreFacts

open Idealize.ShloMosaic Cert.Pre_finite_inputs

/-- The scalar shape has one index. -/
instance : Subsingleton S_.Idx := ⟨fun a b => funext fun d => d.elim0⟩

/-- The f32 pattern 0x7F800000 is +∞. -/
theorem inf_bits : Ideal.ofBits .f32 0x7F800000#32 = (⊤ : EReal) := by
  simp [Ideal.ofBits, Ideal.ieee]

/-- An extended real whose absolute value lies below +∞ is a real. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- A word that tests 0 ≤ t and t < 32000 signed is the word of a number below 32000. -/
theorem word_of_range (t : BitVec 32) (h0 : IntOp.cmpi .sge t 0#32 = 1#1) (h1 : IntOp.cmpi .slt t 32000#32 = 1#1) :
    ∃ j : Fin 32000, t = BitVec.ofNat 32 j.val := by
  rw [IntOp.cmpi_sge, show (0#32 : BitVec 32).toInt = 0 from by decide] at h0
  rw [IntOp.cmpi_slt, show (32000#32 : BitVec 32).toInt = 32000 from by decide] at h1
  have hlt := t.isLt
  have hc := BitVec.toInt_eq_toNat_cond t
  have hn : t.toNat < 32000 := by
    split at hc <;> omega
  exact ⟨⟨t.toNat, hn⟩, BitVec.eq_of_toNat_eq (by rw [BitVec.toNat_ofNat]; exact (Nat.mod_eq_of_lt hlt).symm)⟩

variable [Facts]

/-- The precondition, taken apart: the four "all" tests hold at every index. -/
theorem decode (a0 : FVec Ideal S32000x2048 .f32) (a1 : FVec Ideal S8x512x2048 .f32) (a2 : IVec S8x512 32)
    (a3 : FVec Ideal S32000 .f32) (h : Cert.Pre_finite_inputs.fn (F := Ideal) a0 a1 a2 a3 = fun _ => 1#1) :
    (∀ i, Ideal.cmp .olt (max (a0 i) (-(a0 i))) (Ideal.ofBits .f32 0x7F800000#32) = 1#1)
    ∧ (∀ i, Ideal.cmp .olt (max (a1 i) (-(a1 i))) (Ideal.ofBits .f32 0x7F800000#32) = 1#1)
    ∧ (∀ i, Ideal.cmp .olt (max (a3 i) (-(a3 i))) (Ideal.ofBits .f32 0x7F800000#32) = 1#1)
    ∧ (∀ i, IntOp.andi (IntOp.cmpi .sge (a2 i) 0#32) (IntOp.cmpi .slt (a2 i) 32000#32) = 1#1) := by
  have e := congrFun h ValueIdx.ix0
  dsimp only [Cert.Pre_finite_inputs.fn, Cert.Pre_finite_inputs.fn_part1] at e
  have e' : IntOp.andi (IntOp.andi (IntOp.andi _ _) _) _ = 1#1 := e
  obtain ⟨e013, e2⟩ := IntOp.andi_eq_one.1 e'
  obtain ⟨e01, e3⟩ := IntOp.andi_eq_one.1 e013
  obtain ⟨e0, e1⟩ := IntOp.andi_eq_one.1 e01
  exact ⟨fun i => Host.reduce_andi_all _ _ _ _ _ e0 i, fun i => Host.reduce_andi_all _ _ _ _ _ e1 i,
    fun i => Host.reduce_andi_all _ _ _ _ _ e3 i, fun i => Host.reduce_andi_all _ _ _ _ _ e2 i⟩

section Facts

variable {a0 : FVec Ideal S32000x2048 .f32} {a1 : FVec Ideal S8x512x2048 .f32} {a2 : IVec S8x512 32}
  {a3 : FVec Ideal S32000 .f32} (h : Cert.Pre_finite_inputs.fn (F := Ideal) a0 a1 a2 a3 = fun _ => 1#1)
include h

/-- Every weight is a real. -/
theorem weights_real (i : S32000x2048.Idx) : ∃ r : ℝ, a0 i = (r : EReal) :=
  real_of_abs_lt_top _ (inf_bits ▸ (decode a0 a1 a2 a3 h).1 i)

/-- Every entry of the input is a real. -/
theorem input_real (i : S8x512x2048.Idx) : ∃ r : ℝ, a1 i = (r : EReal) :=
  real_of_abs_lt_top _ (inf_bits ▸ (decode a0 a1 a2 a3 h).2.1 i)

/-- Every bias is a real. -/
theorem bias_real (i : S32000.Idx) : ∃ r : ℝ, a3 i = (r : EReal) :=
  real_of_abs_lt_top _ (inf_bits ▸ (decode a0 a1 a2 a3 h).2.2.1 i)

/-- Every target word names a column of the row. -/
theorem target_word (i : S8x512.Idx) : ∃ j : Fin 32000, a2 i = BitVec.ofNat 32 j.val := by
  obtain ⟨h0, h1⟩ := IntOp.andi_eq_one.1 ((decode a0 a1 a2 a3 h).2.2.2 i)
  exact word_of_range _ h0 h1

end Facts

end Cert.PreFacts

end
-- ==== Proof.Glue.lean ====
/-
  From the four input arrays to the row form of the loss.

  The input of shape 8 × 512 × 2048 is read as 4096 rows of 2048 entries, row n being (n / 512, n % 512); the target
  of shape 8 × 512 likewise as 4096 words. Row n's logits are the row of the input against each row of the weights,
  plus the bias. Under the precondition every row's logits are real and its target word names a column, so the
  streaming value of the row is the reference's value.
-/
import proofs.«416803_j17583596109825_2_alg».proof.Proof.Spec
import proofs.«416803_j17583596109825_2_alg».proof.Proof.PreFacts
import Idealize.ShloMosaic.Lib.ValueIdx

noncomputable section

namespace Cert.Glue

open Idealize.ShloMosaic Idealize.ShloMosaic.ValueIdx Cert.Pre_finite_inputs

/-- Row `n` of 4096 lies in batch `n / 512`. -/
def rowB (n : Fin 4096) : Fin 8 := ⟨n.val / 512, by have := n.isLt; omega⟩

/-- Row `n` of 4096 is position `n % 512` of its batch. -/
def rowT (n : Fin 4096) : Fin 512 := ⟨n.val % 512, by omega⟩

/-- Position `t` of batch `b` is row `512·b + t`. -/
def rowOf (b : Fin 8) (t : Fin 512) : Fin 4096 := ⟨b.val * 512 + t.val, by have := b.isLt; have := t.isLt; omega⟩

/-- The input re-laid as 4096 × 2048, row-major. -/
def Xof (a1 : FVec Ideal S8x512x2048 .f32) (n : Fin 4096) (h : Fin 2048) : EReal := a1 (ix3 (rowB n) (rowT n) h)

/-- The weights as 32000 rows of 2048. -/
def Wof (a0 : FVec Ideal S32000x2048 .f32) (v : Fin 32000) (h : Fin 2048) : EReal := a0 (ix2 v h)

/-- The bias by column. -/
def Bof (a3 : FVec Ideal S32000 .f32) (v : Fin 32000) : EReal := a3 (ix1 v)

/-- The target words re-laid as 4096. -/
def Tof (a2 : IVec S8x512 32) (n : Fin 4096) : BitVec 32 := a2 (ix2 (rowB n) (rowT n))

/-- Row `n`'s logits. -/
def rowLogit (a0 : FVec Ideal S32000x2048 .f32) (a1 : FVec Ideal S8x512x2048 .f32) (a3 : FVec Ideal S32000 .f32)
    (n : Fin 4096) : Fin 32000 → EReal := Cert.Spec.logit (Xof a1) (Wof a0) (Bof a3) n

theorem rowB_rowOf (b : Fin 8) (t : Fin 512) : rowB (rowOf b t) = b := by
  apply Fin.ext; have := t.isLt; simp only [rowB, rowOf]; omega

theorem rowT_rowOf (b : Fin 8) (t : Fin 512) : rowT (rowOf b t) = t := by
  apply Fin.ext; have := t.isLt; simp only [rowT, rowOf]; omega

theorem rowOf_rowB_rowT (n : Fin 4096) : rowOf (rowB n) (rowT n) = n := by
  apply Fin.ext; simp only [rowB, rowT, rowOf]; omega

/-- The (batch, position) form of the re-laid target and input. -/
theorem Tof_rowOf (a2 : IVec S8x512 32) (b : Fin 8) (t : Fin 512) : Tof a2 (rowOf b t) = a2 (ix2 b t) := by
  rw [Tof, rowB_rowOf, rowT_rowOf]

theorem Xof_rowOf (a1 : FVec Ideal S8x512x2048 .f32) (b : Fin 8) (t : Fin 512) (h : Fin 2048) :
    Xof a1 (rowOf b t) h = a1 (ix3 b t h) := by
  rw [Xof, rowB_rowOf, rowT_rowOf]

variable [Facts]

/-- Under the precondition, row `n`'s target word names a column `j`, and streaming over the row's logits returns the
    reference's value at `j`. -/
theorem row_bridge {a0 : FVec Ideal S32000x2048 .f32} {a1 : FVec Ideal S8x512x2048 .f32} {a2 : IVec S8x512 32}
    {a3 : FVec Ideal S32000 .f32} (h : Cert.Pre_finite_inputs.fn (F := Ideal) a0 a1 a2 a3 = fun _ => 1#1) (n : Fin 4096) :
    ∃ j : Fin 32000, Tof a2 n = BitVec.ofNat 32 j.val
      ∧ Cert.Spec.tokStream (rowLogit a0 a1 a3 n) (Tof a2 n) = Cert.Spec.tokRef (rowLogit a0 a1 a3 n) j := by
  obtain ⟨j, hj⟩ := Cert.PreFacts.target_word h (ix2 (rowB n) (rowT n))
  obtain ⟨r, hr⟩ := Cert.Spec.logit_real (Xof a1) (Wof a0) (Bof a3)
    (fun n h' => Cert.PreFacts.input_real h _) (fun v h' => Cert.PreFacts.weights_real h _)
    (fun v => Cert.PreFacts.bias_real h _) n
  refine ⟨j, hj, ?_⟩
  rw [rowLogit, hr, Tof, hj]
  exact Cert.Spec.tokStream_eq_tokRef r j

end Cert.Glue

end
-- ==== Proof.KiBlocks.lean ====
/-
  Where the kernel's operands come from, index by index.

  Before the region the hidden states are re-laid as 4096 rows and narrowed, the weights narrowed, the target words
  re-laid as a column, the bias as a row; at the extended reals a change of float format is the identity, so each staged
  array is the corresponding argument re-indexed. Grid point `t` works on row tile `t / 25` and chunk `t % 25`: its
  input blocks are the rows `(t / 25)·1024 + r` of the hidden states and target words, and the columns
  `(t % 25)·1280 + c` of the weights and the bias.
-/
import proofs.«416803_j17583596109825_2_alg».proof.Proof.KiKit
import proofs.«416803_j17583596109825_2_alg».proof.Proof.Glue
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

open scoped BigOperators

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Idealize.ShloMosaic.Pipeline (Dat)

variable (m : (ℓ : Loc nD τ sig) → Buf (Elt Ideal) ℓ)

/-! ## The four staged arrays, read back to the arguments -/

/-- The region finds the hidden states re-laid as 4096 rows (the change of float format is the identity here). -/
theorem staged_x (c : Dev nD) : (V m c main_v1 : S4096x2048.Idx → EReal)
    = truncf (F := Ideal) .bf16 (shapeCast S4096x2048 (m ((c : Thread nD τ).loc main_arg1)) shapeCasts_S8x512x2048_S4096x2048) bitsLt_bf16_f32 := by
  show StableHlo.after hostOps0 (fun b => m (c, b)) (Proc.devRef .tc main_v1) = _
  after_results
  rfl

/-- Row `n` of the staged hidden states is position `n % 512` of batch `n / 512`. -/
theorem staged_x_apply (c : Dev nD) (n : Fin 4096) (h : Fin 2048) :
    (V m c main_v1 : S4096x2048.Idx → EReal) (ix2 n h) = Cert.Glue.Xof (m ((c : Thread nD τ).loc main_arg1)) n h := by
  rw [staged_x]
  show shapeCast S4096x2048 (m ((c : Thread nD τ).loc main_arg1)) shapeCasts_S8x512x2048_S4096x2048 (ix2 n h) = _
  refine shapeCast_apply _ _ _ (ix3 (Cert.Glue.rowB n) (Cert.Glue.rowT n) h) ?_
  rw [Shape.rowMajor_val_three, Shape.rowMajor_val_two]
  show ((n.val / 512) * 512 + n.val % 512) * 2048 + h.val = n.val * 2048 + h.val
  have := Nat.div_add_mod n.val 512
  omega

/-- The staged weights are the weights. -/
theorem staged_w (c : Dev nD) : (V m c main_v2 : S32000x2048.Idx → EReal)
    = truncf (F := Ideal) .bf16 (m ((c : Thread nD τ).loc main_arg0)) bitsLt_bf16_f32 := by
  show StableHlo.after hostOps0 (fun b => m (c, b)) (Proc.devRef .tc main_v2) = _
  after_results

theorem staged_w_apply (c : Dev nD) (v : Fin 32000) (h : Fin 2048) :
    (V m c main_v2 : S32000x2048.Idx → EReal) (ix2 v h) = Cert.Glue.Wof (m ((c : Thread nD τ).loc main_arg0)) v h := by
  rw [staged_w]
  rfl

/-- The staged target words are the targets re-laid as a column of 4096. -/
theorem staged_t (c : Dev nD) : (V m c main_v3 : S4096x1.Idx → BitVec 32)
    = shapeCast S4096x1 (m ((c : Thread nD τ).loc main_arg2)) shapeCasts_S8x512_S4096x1 := by
  show StableHlo.after hostOps0 (fun b => m (c, b)) (Proc.devRef .tc main_v3) = _
  after_results
  rfl

theorem staged_t_apply (c : Dev nD) (n : Fin 4096) (z : Fin 1) :
    (V m c main_v3 : S4096x1.Idx → BitVec 32) (ix2 n z) = Cert.Glue.Tof (m ((c : Thread nD τ).loc main_arg2)) n := by
  rw [staged_t]
  refine shapeCast_apply _ _ _ (ix2 (Cert.Glue.rowB n) (Cert.Glue.rowT n)) ?_
  rw [Shape.rowMajor_val_two, Shape.rowMajor_val_two]
  show (n.val / 512) * 512 + n.val % 512 = n.val * 1 + z.val
  have := Nat.div_add_mod n.val 512
  omega

/-- The staged bias is the bias as one row. -/
theorem staged_b (c : Dev nD) : (V m c main_v4 : S1x32000.Idx → EReal)
    = shapeCast S1x32000 (m ((c : Thread nD τ).loc main_arg3)) shapeCasts_S32000_S1x32000 := by
  show StableHlo.after hostOps0 (fun b => m (c, b)) (Proc.devRef .tc main_v4) = _
  after_results
  rfl

theorem staged_b_apply (c : Dev nD) (u : Fin 1) (v : Fin 32000) :
    (V m c main_v4 : S1x32000.Idx → EReal) (ix2 u v) = Cert.Glue.Bof (m ((c : Thread nD τ).loc main_arg3)) v := by
  rw [staged_b]
  exact shapeCast_a_1a_apply _ _ u v

/-! ## The windows' blocks, read where their rectangles say -/

/-- Point `t` is chunk `t % 25` of row tile `t / 25`: the index maps and the chunk coordinate, decided over the grid. -/
theorem point_facts : ∀ t : Fin cfg0.N,
    win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = 0 ∧ win0_2.index t (1 : Fin 2) = t.val % 25
    ∧ win0_3.index t (0 : Fin 2) = t.val / 25 ∧ win0_3.index t (1 : Fin 2) = 0
    ∧ win0_4.index t (0 : Fin 2) = t.val / 25 ∧ win0_4.index t (1 : Fin 2) = 0
    ∧ (grid0.coords t 1).val = t.val % 25 :=
  (by decide +kernel : ∀ t : Fin grid0.N, _)

theorem tile_lt (t : Fin cfg0.N) (r : Fin 1024) : t.val / 25 * 1024 + r.val < 4096 := by
  have hN : cfg0.N = 100 := N_0
  have := t.isLt; have := r.isLt; omega

theorem chunk_lt (t : Fin cfg0.N) : t.val % 25 < 25 := Nat.mod_lt _ (by decide)

/-- The global row under row `r` of point `t`'s tile. -/
def rowAt (t : Fin cfg0.N) (r : Fin 1024) : Fin 4096 := ⟨t.val / 25 * 1024 + r.val, tile_lt t r⟩

/-- The chunk of point `t`. -/
def chunkAt (t : Fin cfg0.N) : Fin 25 := ⟨t.val % 25, chunk_lt t⟩

/-- The input blocks of point `t`, at their literal types. -/
abbrev xblk (c : Dev nD) (t : Fin cfg0.N) : Vec Ideal S1024x2048 .bf16 := iblk m c 0 t
abbrev wblk (c : Dev nD) (t : Fin cfg0.N) : Vec Ideal S1280x2048 .bf16 := iblk m c 1 t
abbrev bblk (c : Dev nD) (t : Fin cfg0.N) : Vec Ideal S1x1280 .f32 := iblk m c 2 t
abbrev tblk (c : Dev nD) (t : Fin cfg0.N) : Vec Ideal S1024x1 .i32 := iblk m c 3 t

theorem xblk_apply (c : Dev nD) (t : Fin cfg0.N) (r : Fin 1024) (h : Fin 2048) :
    xblk m c t (ix2 r h) = Cert.Glue.Xof (m ((c : Thread nD τ).loc main_arg1)) (rowAt t r) h := by
  obtain ⟨e0, e1, -⟩ := point_facts t
  rw [← staged_x_apply]
  unfold xblk iblk
  rw [View.read_apply]
  show V m c main_v1 _ = V m c main_v1 _
  congr 1
  funext a
  apply Fin.ext
  match a with
  | ⟨0, _⟩ => show win0_0.index t (0 : Fin 2) * 1024 + 1 * r.val = t.val / 25 * 1024 + r.val; rw [e0]; omega
  | ⟨1, _⟩ => show win0_0.index t (1 : Fin 2) * 2048 + 1 * h.val = h.val; rw [e1]; omega

theorem wblk_apply (c : Dev nD) (t : Fin cfg0.N) (c' : Fin 1280) (h : Fin 2048) :
    wblk m c t (ix2 c' h) = Cert.Glue.Wof (m ((c : Thread nD τ).loc main_arg0)) (Cert.Spec.col (chunkAt t) c') h := by
  obtain ⟨-, -, e0, e1, -⟩ := point_facts t
  rw [← staged_w_apply]
  unfold wblk iblk
  rw [View.read_apply]
  show V m c main_v2 _ = V m c main_v2 _
  congr 1
  funext a
  apply Fin.ext
  match a with
  | ⟨0, _⟩ => show win0_1.index t (0 : Fin 2) * 1280 + 1 * c'.val = t.val % 25 * 1280 + c'.val; rw [e0]; omega
  | ⟨1, _⟩ => show win0_1.index t (1 : Fin 2) * 2048 + 1 * h.val = h.val; rw [e1]; omega

theorem bblk_apply (c : Dev nD) (t : Fin cfg0.N) (u : Fin 1) (c' : Fin 1280) :
    bblk m c t (ix2 u c') = Cert.Glue.Bof (m ((c : Thread nD τ).loc main_arg3)) (Cert.Spec.col (chunkAt t) c') := by
  obtain ⟨-, -, -, -, e0, e1, -⟩ := point_facts t
  rw [← staged_b_apply m c u]
  unfold bblk iblk
  rw [View.read_apply]
  show V m c main_v4 _ = V m c main_v4 _
  congr 1
  funext a
  apply Fin.ext
  match a with
  | ⟨0, _⟩ => show win0_2.index t (0 : Fin 2) * 1 + 1 * u.val = u.val; rw [e0]; omega
  | ⟨1, _⟩ => show win0_2.index t (1 : Fin 2) * 1280 + 1 * c'.val = t.val % 25 * 1280 + c'.val; rw [e1]; omega

theorem tblk_apply (c : Dev nD) (t : Fin cfg0.N) (r : Fin 1024) (z : Fin 1) :
    tblk m c t (ix2 r z) = Cert.Glue.Tof (m ((c : Thread nD τ).loc main_arg2)) (rowAt t r) := by
  obtain ⟨-, -, -, -, -, -, e0, e1, -⟩ := point_facts t
  rw [← staged_t_apply m c (rowAt t r) z]
  unfold tblk iblk
  rw [View.read_apply]
  show V m c main_v3 _ = V m c main_v3 _
  congr 1
  funext a
  apply Fin.ext
  match a with
  | ⟨0, _⟩ => show win0_3.index t (0 : Fin 2) * 1024 + 1 * r.val = t.val / 25 * 1024 + r.val; rw [e0]; omega
  | ⟨1, _⟩ => show win0_3.index t (1 : Fin 2) * 1 + 1 * z.val = z.val; rw [e1]; omega

/-! ## A row's value -/

/-- The arguments as launched on core `c`: weights, hidden states, target words, bias. -/
abbrev argW (c : Dev nD) : FVec Ideal S32000x2048 .f32 := m ((c : Thread nD τ).loc main_arg0)
abbrev argX (c : Dev nD) : FVec Ideal S8x512x2048 .f32 := m ((c : Thread nD τ).loc main_arg1)
abbrev argT (c : Dev nD) : IVec S8x512 32 := m ((c : Thread nD τ).loc main_arg2)
abbrev argB (c : Dev nD) : FVec Ideal S32000 .f32 := m ((c : Thread nD τ).loc main_arg3)

/-- Row `n`'s logits, from the arguments as launched. -/
def rowLogits (c : Dev nD) (n : Fin 4096) : Fin 32000 → EReal :=
  Cert.Glue.rowLogit (m ((c : Thread nD τ).loc main_arg0)) (m ((c : Thread nD τ).loc main_arg1)) (m ((c : Thread nD τ).loc main_arg3)) n

/-- Row `n`'s target word. -/
def rowWord (c : Dev nD) (n : Fin 4096) : BitVec 32 := Cert.Glue.Tof (m ((c : Thread nD τ).loc main_arg2)) n

/-- What the streaming computation returns for row `n`. -/
def rowValue (c : Dev nD) (n : Fin 4096) : EReal := Cert.Spec.tokStream (rowLogits m c n) (rowWord m c n)

theorem rowValue_eq (c : Dev nD) (n : Fin 4096) : rowValue m c n
    = Cert.Spec.tokStream (Cert.Glue.rowLogit (m ((c : Thread nD τ).loc main_arg0)) (m ((c : Thread nD τ).loc main_arg1))
        (m ((c : Thread nD τ).loc main_arg3)) n) (Cert.Glue.Tof (m ((c : Thread nD τ).loc main_arg2)) n) := rfl

/-- Column `c'` of point `t`'s chunk, of the row under row `r` of its tile: the logit the body computes there. -/
theorem rowLogits_col (c : Dev nD) (t : Fin cfg0.N) (r : Fin 1024) (c' : Fin 1280) :
    (∑ h : Fin 2048, xblk m c t (ix2 r h) * wblk m c t (ix2 c' h)) + bblk m c t (ix2 (0 : Fin 1) c')
      = rowLogits m c (rowAt t r) (Cert.Spec.col (chunkAt t) c') := by
  rw [bblk_apply]
  simp only [xblk_apply, wblk_apply]
  rfl

end Cert.KernelIdeal.HandValue

end
-- ==== Proof.KiHeld.lean ====
/- What the four buffers hold after a grid point, case by case, in terms of one step of the streaming log-softmax:
   after a tile's first chunk the three accumulators are one step from the reset values (−∞, 0, 0); after any other
   chunk one step from what the point before left; and after a tile's last chunk the output block is the target
   logit minus (the maximum plus the logarithm of the normaliser), each after that chunk's step. Ten equations
   between vectors of one value per row, at any float reading F. -/
import proofs.«416803_j17583596109825_2_alg».proof.Proof.KiFrame
import proofs.«416803_j17583596109825_2_alg».proof.Proof.KiRunVals

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The read-back, component by component -/

theorem readBack_out (L4 LS7 LS8 LS9 : List (View.Piece (Elt F) S1024x1 .f32)) : (readBack L4 LS7 LS8 LS9).out = VO4.read (Elt F) (VO4.writes (Elt F) VO4.junk L4) := rfl
theorem readBack_mx (L4 LS7 LS8 LS9 : List (View.Piece (Elt F) S1024x1 .f32)) : (readBack L4 LS7 LS8 LS9).mx = VS7.read (Elt F) (VS7.writes (Elt F) VS7.junk LS7) := rfl
theorem readBack_nrm (L4 LS7 LS8 LS9 : List (View.Piece (Elt F) S1024x1 .f32)) : (readBack L4 LS7 LS8 LS9).nrm = VS8.read (Elt F) (VS8.writes (Elt F) VS8.junk LS8) := rfl
theorem readBack_tgt (L4 LS7 LS8 LS9 : List (View.Piece (Elt F) S1024x1 .f32)) : (readBack L4 LS7 LS8 LS9).tgt = VS9.read (Elt F) (VS9.writes (Elt F) VS9.junk LS9) := rfl

variable (m : (ℓ : Loc nD τ sig) → Buf (Elt F) ℓ)

/-! ## A tile's first chunk: one step from the reset values -/

/-- The running maximum a tile's first chunk leaves: one step from −∞ over the point's blocks. -/
theorem firstHeld_mx (c : Dev nD) (t : Fin cfg0.N) (h0 : t.val % 25 = 0) :
    (firstHeld m c t h0).mx = bodyM (iblk m c 0 t) (iblk m c 1 t) (iblk m c 2 t) (k0_pay5 (F := F)) := by
  unfold firstHeld
  rw [readBack_mx, View.read_writes_eq_canon VS7 VS7.junk _ (runFirst_cover7 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) ((hcondFirst t).mpr h0) (fun h => not_last_of_first h0 ((hcondLast t).mp h)))]
  exact runFirst_val7 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) ((hcondFirst t).mpr h0) (fun h => not_last_of_first h0 ((hcondLast t).mp h))
/-- The running normaliser it leaves: one step from 0 (and from −∞ for the maximum). -/
theorem firstHeld_nrm (c : Dev nD) (t : Fin cfg0.N) (h0 : t.val % 25 = 0) :
    (firstHeld m c t h0).nrm = bodyL (iblk m c 0 t) (iblk m c 1 t) (iblk m c 2 t) (k0_pay5 (F := F)) (k0_pay6 (F := F)) := by
  unfold firstHeld
  rw [readBack_nrm, View.read_writes_eq_canon VS8 VS8.junk _ (runFirst_cover8 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) ((hcondFirst t).mpr h0) (fun h => not_last_of_first h0 ((hcondLast t).mp h)))]
  exact runFirst_val8 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) ((hcondFirst t).mpr h0) (fun h => not_last_of_first h0 ((hcondLast t).mp h))
/-- The running target logit it leaves: one step from 0. -/
theorem firstHeld_tgt (c : Dev nD) (t : Fin cfg0.N) (h0 : t.val % 25 = 0) :
    (firstHeld m c t h0).tgt = bodyG (grid0.coords t) (iblk m c 0 t) (iblk m c 1 t) (iblk m c 2 t) (iblk m c 3 t) (k0_pay7 (F := F)) := by
  unfold firstHeld
  rw [readBack_tgt, View.read_writes_eq_canon VS9 VS9.junk _ (runFirst_cover9 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) ((hcondFirst t).mpr h0) (fun h => not_last_of_first h0 ((hcondLast t).mp h)))]
  exact runFirst_val9 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) ((hcondFirst t).mpr h0) (fun h => not_last_of_first h0 ((hcondLast t).mp h))

/-! ## A chunk inside a tile: one step from what the point before left -/

theorem midHeld_mx (c : Dev nD) (t : Fin cfg0.N) (h0 : ¬t.val % 25 = 0) (h1 : ¬t.val % 25 = 24) (p : Held F) :
    (midHeld m c t h0 h1 p).mx = bodyM (iblk m c 0 t) (iblk m c 1 t) (iblk m c 2 t) p.mx := by
  unfold midHeld
  rw [readBack_mx, View.read_writes_eq_canon VS7 VS7.junk _ (runMid_cover7 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) p.mx p.nrm p.tgt (fun h => h0 ((hcondFirst t).mp h)) (fun h => h1 ((hcondLast t).mp h)))]
  exact runMid_val7 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) p.mx p.nrm p.tgt (fun h => h0 ((hcondFirst t).mp h)) (fun h => h1 ((hcondLast t).mp h))
theorem midHeld_nrm (c : Dev nD) (t : Fin cfg0.N) (h0 : ¬t.val % 25 = 0) (h1 : ¬t.val % 25 = 24) (p : Held F) :
    (midHeld m c t h0 h1 p).nrm = bodyL (iblk m c 0 t) (iblk m c 1 t) (iblk m c 2 t) p.mx p.nrm := by
  unfold midHeld
  rw [readBack_nrm, View.read_writes_eq_canon VS8 VS8.junk _ (runMid_cover8 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) p.mx p.nrm p.tgt (fun h => h0 ((hcondFirst t).mp h)) (fun h => h1 ((hcondLast t).mp h)))]
  exact runMid_val8 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) p.mx p.nrm p.tgt (fun h => h0 ((hcondFirst t).mp h)) (fun h => h1 ((hcondLast t).mp h))
theorem midHeld_tgt (c : Dev nD) (t : Fin cfg0.N) (h0 : ¬t.val % 25 = 0) (h1 : ¬t.val % 25 = 24) (p : Held F) :
    (midHeld m c t h0 h1 p).tgt = bodyG (grid0.coords t) (iblk m c 0 t) (iblk m c 1 t) (iblk m c 2 t) (iblk m c 3 t) p.tgt := by
  unfold midHeld
  rw [readBack_tgt, View.read_writes_eq_canon VS9 VS9.junk _ (runMid_cover9 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) p.mx p.nrm p.tgt (fun h => h0 ((hcondFirst t).mp h)) (fun h => h1 ((hcondLast t).mp h)))]
  exact runMid_val9 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) p.mx p.nrm p.tgt (fun h => h0 ((hcondFirst t).mp h)) (fun h => h1 ((hcondLast t).mp h))

/-! ## A tile's last chunk: one step, and the result formed from the three accumulators after it -/

theorem lastHeld_mx (c : Dev nD) (t : Fin cfg0.N) (h1 : t.val % 25 = 24) (p : Held F) :
    (lastHeld m c t h1 p).mx = bodyM (iblk m c 0 t) (iblk m c 1 t) (iblk m c 2 t) p.mx := by
  unfold lastHeld
  rw [readBack_mx, View.read_writes_eq_canon VS7 VS7.junk _ (runLast_cover7 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) p.mx p.nrm p.tgt (fun h => not_first_of_last h1 ((hcondFirst t).mp h)) ((hcondLast t).mpr h1))]
  exact runLast_val7 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) p.mx p.nrm p.tgt (fun h => not_first_of_last h1 ((hcondFirst t).mp h)) ((hcondLast t).mpr h1)
theorem lastHeld_nrm (c : Dev nD) (t : Fin cfg0.N) (h1 : t.val % 25 = 24) (p : Held F) :
    (lastHeld m c t h1 p).nrm = bodyL (iblk m c 0 t) (iblk m c 1 t) (iblk m c 2 t) p.mx p.nrm := by
  unfold lastHeld
  rw [readBack_nrm, View.read_writes_eq_canon VS8 VS8.junk _ (runLast_cover8 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) p.mx p.nrm p.tgt (fun h => not_first_of_last h1 ((hcondFirst t).mp h)) ((hcondLast t).mpr h1))]
  exact runLast_val8 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) p.mx p.nrm p.tgt (fun h => not_first_of_last h1 ((hcondFirst t).mp h)) ((hcondLast t).mpr h1)
theorem lastHeld_tgt (c : Dev nD) (t : Fin cfg0.N) (h1 : t.val % 25 = 24) (p : Held F) :
    (lastHeld m c t h1 p).tgt = bodyG (grid0.coords t) (iblk m c 0 t) (iblk m c 1 t) (iblk m c 2 t) (iblk m c 3 t) p.tgt := by
  unfold lastHeld
  rw [readBack_tgt, View.read_writes_eq_canon VS9 VS9.junk _ (runLast_cover9 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) p.mx p.nrm p.tgt (fun h => not_first_of_last h1 ((hcondFirst t).mp h)) ((hcondLast t).mpr h1))]
  exact runLast_val9 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) p.mx p.nrm p.tgt (fun h => not_first_of_last h1 ((hcondFirst t).mp h)) ((hcondLast t).mpr h1)
/-- The output block a tile's last chunk leaves: the target logit minus (the maximum plus the logarithm of the normaliser), each AFTER this chunk's step. -/
theorem lastHeld_out (c : Dev nD) (t : Fin cfg0.N) (h1 : t.val % 25 = 24) (p : Held F) :
    (lastHeld m c t h1 p).out = bodyOut (bodyM (iblk m c 0 t) (iblk m c 1 t) (iblk m c 2 t) p.mx) (bodyL (iblk m c 0 t) (iblk m c 1 t) (iblk m c 2 t) p.mx p.nrm) (bodyG (grid0.coords t) (iblk m c 0 t) (iblk m c 1 t) (iblk m c 2 t) (iblk m c 3 t) p.tgt) := by
  unfold lastHeld
  rw [readBack_out, View.read_writes_eq_canon VO4 VO4.junk _ (runLast_cover4 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) p.mx p.nrm p.tgt (fun h => not_first_of_last h1 ((hcondFirst t).mp h)) ((hcondLast t).mpr h1))]
  exact runLast_val4 c (grid0.coords t) (ms0 t) (hs0 t) (ms1 t) (hs1 t) (ms2 t) (hs2 t) (ms3 t) (hs3 t) (ms4 t) (hs4 t) scM7 (Memref.isWhole_whole _) scM8 (Memref.isWhole_whole _) scM9 (Memref.isWhole_whole _) (iblk m c 0 t) (iblk m c 1 t) (iblk m c 2 t) (iblk m c 3 t) p.mx p.nrm p.tgt (fun h => not_first_of_last h1 ((hcondFirst t).mp h)) ((hcondLast t).mpr h1)

end Cert.KernelIdeal.Hand

end
-- ==== Proof.KiValue.lean ====
/-
  What the kernel's scratch columns and output block hold, grid point by grid point, at the extended reals.

  The grid walks each of the four row tiles through the 25 chunks of the vocabulary. Within a tile the three scratch
  columns carry, for every row, the running maximum, normaliser and target logit of that row's 32000 logits: the
  first chunk resets them to −∞, 0, 0 and takes in chunk 0, every later chunk takes in one more, by the step laws of
  the row's mathematics (`Cert.Spec.stepM`, `stepL`, `stepG`). By induction along the grid, after chunk `v` they are
  `stM`, `stL`, `stG` at `v + 1` of the row's logits; the last chunk then writes `g − (m + log l)` at 25, the
  row's streaming value, into the output block.
-/
import proofs.«416803_j17583596109825_2_alg».proof.Proof.KiFrame
import proofs.«416803_j17583596109825_2_alg».proof.Proof.KiRunVals
import proofs.«416803_j17583596109825_2_alg».proof.Proof.KiPay
import proofs.«416803_j17583596109825_2_alg».proof.Proof.KiBlocks
import proofs.«416803_j17583596109825_2_alg».proof.Proof.KiHeld

noncomputable section

open scoped BigOperators

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Idealize.ShloMosaic.Pipeline (Dat)

variable (m : (ℓ : Loc nD τ sig) → Buf (Elt Ideal) ℓ)

/-! ## The recurrences, one chunk at a time -/

theorem stM_succ (s : Fin 32000 → EReal) (j : ℕ) (h : j < 25) :
    Cert.Spec.stM s (j + 1) = Cert.Spec.stepM s ⟨j, h⟩ (Cert.Spec.stM s j) := by
  rw [Cert.Spec.stM, dif_pos h]

theorem stL_succ (s : Fin 32000 → EReal) (j : ℕ) (h : j < 25) :
    Cert.Spec.stL s (j + 1) = Cert.Spec.stepL s ⟨j, h⟩ (Cert.Spec.stM s j) (Cert.Spec.stL s j) := by
  rw [Cert.Spec.stL, dif_pos h]

theorem stG_succ (s : Fin 32000 → EReal) (tg : BitVec 32) (j : ℕ) (h : j < 25) :
    Cert.Spec.stG s tg (j + 1) = Cert.Spec.stepG s tg ⟨j, h⟩ (Cert.Spec.stG s tg j) := by
  rw [Cert.Spec.stG, dif_pos h]

/-- At point `t`, the tile's row `r` is chunk `t % 25` of the logits of the row under it. -/
theorem chunk_of_row (c : Dev nD) (t : Fin cfg0.N) (r : Fin 1024) (c' : Fin 1280) :
    chunkLogit (xblk m c t) (wblk m c t) (bblk m c t) r c' = rowLogits m c (rowAt t r) (Cert.Spec.col (chunkAt t) c') :=
  rowLogits_col m c t r c'

/-! ## What the scratch columns hold -/

/-- The three scratch columns hold, at every row of point `t`'s tile, the running maximum, normaliser and target
    logit of the row under it after its first `j` chunks. -/
def Streamed (c : Dev nD) (t : Fin cfg0.N) (j : ℕ) (p : Held Ideal) : Prop :=
  ∀ (r : Fin 1024) (z : Fin 1),
    p.mx (ix2 r z) = Cert.Spec.stM (rowLogits m c (rowAt t r)) j
    ∧ p.nrm (ix2 r z) = Cert.Spec.stL (rowLogits m c (rowAt t r)) j
    ∧ p.tgt (ix2 r z) = Cert.Spec.stG (rowLogits m c (rowAt t r)) (rowWord m c (rowAt t r)) j

/-- One more chunk, from columns `mm ll gg` that hold the first `j` chunks' quantities at row `r`: the body's three
    results hold the first `j + 1` chunks'. -/
theorem step_streamed (c : Dev nD) (t : Fin cfg0.N) (j : ℕ) (hj : t.val % 25 = j) (mm ll gg : Vec Ideal S1024x1 .f32)
    (r : Fin 1024) (z : Fin 1)
    (e1 : mm (ix2 r z) = Cert.Spec.stM (rowLogits m c (rowAt t r)) j)
    (e2 : ll (ix2 r z) = Cert.Spec.stL (rowLogits m c (rowAt t r)) j)
    (e3 : gg (ix2 r z) = Cert.Spec.stG (rowLogits m c (rowAt t r)) (rowWord m c (rowAt t r)) j) :
    bodyM (xblk m c t) (wblk m c t) (bblk m c t) mm (ix2 r z) = Cert.Spec.stM (rowLogits m c (rowAt t r)) (j + 1)
    ∧ bodyL (xblk m c t) (wblk m c t) (bblk m c t) mm ll (ix2 r z) = Cert.Spec.stL (rowLogits m c (rowAt t r)) (j + 1)
    ∧ bodyG (grid0.coords t) (xblk m c t) (wblk m c t) (bblk m c t) (tblk m c t) gg (ix2 r z)
        = Cert.Spec.stG (rowLogits m c (rowAt t r)) (rowWord m c (rowAt t r)) (j + 1) := by
  have hj25 : j < 25 := by rw [← hj]; exact Nat.mod_lt _ (by decide)
  have hk : chunkAt t = ⟨j, hj25⟩ := Fin.ext hj
  have hs : ∀ c' : Fin 1280, chunkLogit (xblk m c t) (wblk m c t) (bblk m c t) r c'
      = rowLogits m c (rowAt t r) (Cert.Spec.col ⟨j, hj25⟩ c') := fun c' => by rw [← hk]; exact chunk_of_row m c t r c'
  have hcoord : (grid0.coords t 1).val = (⟨j, hj25⟩ : Fin 25).val := by
    obtain ⟨-, -, -, -, -, -, -, -, -, -, e⟩ := point_facts t
    exact e.trans hj
  refine ⟨?_, ?_, ?_⟩
  · rw [stM_succ _ j hj25, ← e1]
    exact newMax_eq (xblk m c t) (wblk m c t) (bblk m c t) mm r z _ ⟨j, hj25⟩ hs
  · rw [stL_succ _ j hj25, ← e1, ← e2]
    exact newNorm_eq (xblk m c t) (wblk m c t) (bblk m c t) mm ll r z _ ⟨j, hj25⟩ hs
  · have hw : tblk m c t (ix2 r z) = rowWord m c (rowAt t r) := tblk_apply m c t r z
    rw [stG_succ _ _ j hj25, ← e3, ← hw]
    exact newTarget_eq (grid0.coords t) (xblk m c t) (wblk m c t) (bblk m c t) (tblk m c t) gg r z _ ⟨j, hj25⟩ hcoord hs

/-- The first chunk of a tile: from the reset columns. -/
theorem first_streamed (c : Dev nD) (t : Fin cfg0.N) (h0 : t.val % 25 = 0) : Streamed m c t 1 (firstHeld m c t h0) := by
  intro r z
  rw [firstHeld_mx, firstHeld_nrm, firstHeld_tgt]
  exact step_streamed m c t 0 h0 (k0_pay5 (F := Ideal)) (k0_pay6 (F := Ideal)) (k0_pay7 (F := Ideal)) r z
    (pay5_apply _) (pay6_apply _) (pay7_apply _)

/-- A chunk inside a tile. -/
theorem mid_streamed (c : Dev nD) (t : Fin cfg0.N) (h0 : ¬t.val % 25 = 0) (h1 : ¬t.val % 25 = 24) (p : Held Ideal)
    (j : ℕ) (hj : t.val % 25 = j) (hp : Streamed m c t j p) : Streamed m c t (j + 1) (midHeld m c t h0 h1 p) := by
  intro r z
  obtain ⟨e1, e2, e3⟩ := hp r z
  rw [midHeld_mx, midHeld_nrm, midHeld_tgt]
  exact step_streamed m c t j hj p.mx p.nrm p.tgt r z e1 e2 e3

/-- The last chunk of a tile. -/
theorem last_streamed (c : Dev nD) (t : Fin cfg0.N) (h1 : t.val % 25 = 24) (p : Held Ideal)
    (hp : Streamed m c t 24 p) : Streamed m c t 25 (lastHeld m c t h1 p) := by
  intro r z
  obtain ⟨e1, e2, e3⟩ := hp r z
  rw [lastHeld_mx, lastHeld_nrm, lastHeld_tgt]
  exact step_streamed m c t 24 h1 p.mx p.nrm p.tgt r z e1 e2 e3

/-- … and what it writes into the output block: the row's streaming value. -/
theorem last_out (c : Dev nD) (t : Fin cfg0.N) (h1 : t.val % 25 = 24) (p : Held Ideal)
    (hp : Streamed m c t 24 p) (r : Fin 1024) (z : Fin 1) :
    (lastHeld m c t h1 p).out (ix2 r z) = rowValue m c (rowAt t r) := by
  obtain ⟨e1, e2, e3⟩ := hp r z
  obtain ⟨f1, f2, f3⟩ := step_streamed m c t 24 h1 p.mx p.nrm p.tgt r z e1 e2 e3
  rw [lastHeld_out]
  refine (pay4_apply _ _ _ (ix2 r z)).trans ?_
  rw [f1, f2, f3]
  rfl

/-! ## Along the grid -/

/-- After point `n` the scratch columns hold the first `n % 25 + 1` chunks' quantities of the rows of its tile. -/
theorem streamed (c : Dev nD) (n : ℕ) :
    ∀ hn : n < cfg0.N, Streamed m c ⟨n, hn⟩ (n % 25 + 1) (outsAt m c n hn) := by
  induction n with
  | zero =>
    intro hn
    exact first_streamed m c ⟨0, hn⟩ (Nat.zero_mod _)
  | succ n ih =>
    intro hn
    have hn' : n < cfg0.N := Nat.lt_of_succ_lt hn
    by_cases h0 : (n + 1) % 25 = 0
    · have e : outsAt m c (n + 1) hn = firstHeld m c ⟨n + 1, hn⟩ h0 := outsAt_first m c ⟨n + 1, hn⟩ h0
      rw [e, h0]
      exact first_streamed m c ⟨n + 1, hn⟩ h0
    · have hprev : Streamed m c ⟨n + 1, hn⟩ ((n + 1) % 25) (outsAt m c n hn') := by
        intro r z
        have hrow : rowAt ⟨n + 1, hn⟩ r = rowAt ⟨n, hn'⟩ r :=
          Fin.ext (by show (n + 1) / 25 * 1024 + r.val = n / 25 * 1024 + r.val; omega)
        have hj : (n + 1) % 25 = n % 25 + 1 := by omega
        rw [hrow, hj]
        exact ih hn' r z
      by_cases h1 : (n + 1) % 25 = 24
      · have e : outsAt m c (n + 1) hn = lastHeld m c ⟨n + 1, hn⟩ h1 (outsAt m c n hn') :=
          outsAt_last m c ⟨n + 1, hn⟩ h1
        rw [e, h1]
        exact last_streamed m c ⟨n + 1, hn⟩ h1 _ (by rw [← h1]; exact hprev)
      · have e : outsAt m c (n + 1) hn = midHeld m c ⟨n + 1, hn⟩ h0 h1 (outsAt m c n hn') :=
          outsAt_mid m c ⟨n + 1, hn⟩ h0 h1
        rw [e]
        exact mid_streamed m c ⟨n + 1, hn⟩ h0 h1 _ ((n + 1) % 25) rfl hprev

/-- At the last chunk of a tile the output block holds, at every row, the streaming value of the row under it. -/
theorem last_rows (c : Dev nD) (t : Fin cfg0.N) (h1 : t.val % 25 = 24) (r : Fin 1024) (z : Fin 1) :
    (outsAt m c t.val t.isLt).out (ix2 r z) = rowValue m c (rowAt t r) := by
  obtain ⟨n, hn⟩ := t
  cases n with
  | zero => exact absurd (show 0 % 25 = 24 from h1) (by decide)
  | succ n =>
    have hn' : n < cfg0.N := Nat.lt_of_succ_lt hn
    have e : outsAt m c (n + 1) hn = lastHeld m c ⟨n + 1, hn⟩ h1 (outsAt m c n hn') :=
      outsAt_last m c ⟨n + 1, hn⟩ h1
    show (outsAt m c (n + 1) hn).out (ix2 r z) = _
    rw [e]
    refine last_out m c ⟨n + 1, hn⟩ h1 _ ?_ r z
    intro r' z'
    have h1' : (n + 1) % 25 = 24 := h1
    have hrow : rowAt ⟨n + 1, hn⟩ r' = rowAt ⟨n, hn'⟩ r' :=
      Fin.ext (by show (n + 1) / 25 * 1024 + r'.val = n / 25 * 1024 + r'.val; omega)
    have hj : 24 = n % 25 + 1 := by omega
    rw [hrow, hj]
    exact streamed m c n hn' r' z'

end Cert.KernelIdeal.HandValue

end
-- ==== Proof.KiCover.lean ====
/-
  From the last chunks' stores to the whole output array.

  The output array has 4096 rows of one entry; a row tile's block is written back once, after the tile's last chunk.
  If at every such point the output block holds, row by row, the streaming value of the global row under it, then
  after the run the whole array holds every row's streaming value: the four blocks tile the array. The same array
  re-laid as 8 × 512 holds at (b, t) the value of row 512·b + t.
-/
import proofs.«416803_j17583596109825_2_alg».proof.Proof.KiFrame
import proofs.«416803_j17583596109825_2_alg».proof.Proof.KiBlocks

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Idealize.ShloMosaic.Pipeline (Dat)

variable (m : (ℓ : Loc nD τ sig) → Buf (Elt Ideal) ℓ)

/-- The output array with every row at its streaming value. -/
def rowValues (c : Dev nD) : S4096x1.Idx → EReal := fun j => rowValue m c ⟨(j 0).val, idx2_lt0 j⟩

/-- The row values at an index whose row is n. -/
theorem rowValues_apply (c : Dev nD) (i : S4096x1.Idx) (n : Fin 4096) (h : (i 0).val = n.val) :
    rowValues m c i = rowValue m c n := by
  unfold rowValues
  exact congrArg (rowValue m c) (Fin.ext h)

/-- An index of the output array is in point t's block iff each coordinate is in the block's range on its axis. -/
theorem mem_outBlock (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v5).slice (win0_4.rect t)).set ↔ _
  rw [View.set_slice_whole, Rect.mem_set_unit]
  exact Iff.rfl

/-- What a tile's last chunk writes back is its block of the row values: row r of the block lies over global row
    (t / 25)·1024 + r. -/
theorem flushed_last (c : Dev nD)
    (hlast : ∀ t : Fin cfg0.N, t.val % 25 = 24 → ∀ (r : Fin 1024) (z : Fin 1), (outsAt m c t.val t.isLt).out (ix2 r z) = rowValue m c (rowAt t r))
    (t : Fin cfg0.N) (hf : (cfg0.win 4).flush t = true) :
    (dats m 0 c).flushed 4 t = ((cfg0.win 4).blk t).view.read (Elt Ideal) (rowValues m c) := by
  have h24 : t.val % 25 = 24 := (flush0_4 t).mp hf
  obtain ⟨-, -, -, -, -, -, -, -, e0, e1, -⟩ := point_facts t
  show (cfg0.win 4).cut (grid0.coords t) ((dats m 0 c).after 4 t) = _
  rw [after_4]
  funext j
  rw [View.read_apply]
  show (outsAt m c t.val t.isLt).out j = rowValues m c (((cfg0.win 4).blk t).view.emb j)
  have hj : (j : S1024x1.Idx) = ix2 (j 0) (j 1) := eq_ix2 (n0 := 1024) (n1 := 1) j
  refine ((congrArg (outsAt m c t.val t.isLt).out hj).trans (hlast t h24 (j 0) (j 1))).trans ?_
  refine (rowValues_apply m c _ (rowAt t (j 0)) ?_).symm
  show win0_4.index t (0 : Fin 2) * 1024 + 1 * (j 0).val = t.val / 25 * 1024 + (j 0).val
  rw [e0]; omega

/-- Every row of the output array lies in the block some tile's last chunk writes back: row n in that of point
    (n / 1024)·25 + 24. -/
theorem rows_covered (i : S4096x1.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 100 := N_0
  have ht : (i 0).val / 1024 * 25 + 24 < cfg0.N := by omega
  obtain ⟨-, -, -, -, -, -, -, -, e0, e1, -⟩ := point_facts ⟨(i 0).val / 1024 * 25 + 24, ht⟩
  refine ⟨⟨(i 0).val / 1024 * 25 + 24, ht⟩, (flush0_4 _).mpr (by show ((i 0).val / 1024 * 25 + 24) % 25 = 24; omega), ?_⟩
  rw [mem_outBlock]
  intro a
  match a with
  | ⟨0, _⟩ =>
    show win0_4.index ⟨(i 0).val / 1024 * 25 + 24, ht⟩ (0 : Fin 2) * 1024 ≤ (i 0).val ∧ (i 0).val < win0_4.index ⟨(i 0).val / 1024 * 25 + 24, ht⟩ (0 : Fin 2) * 1024 + 1024
    rw [e0]
    show ((i 0).val / 1024 * 25 + 24) / 25 * 1024 ≤ (i 0).val ∧ (i 0).val < ((i 0).val / 1024 * 25 + 24) / 25 * 1024 + 1024
    omega
  | ⟨1, _⟩ =>
    show win0_4.index ⟨(i 0).val / 1024 * 25 + 24, ht⟩ (1 : Fin 2) * 1 ≤ (i 1).val ∧ (i 1).val < win0_4.index ⟨(i 0).val / 1024 * 25 + 24, ht⟩ (1 : Fin 2) * 1 + 1
    rw [e1]; omega

/-- THE OUTPUT ARRAY after the run, given what the last chunks hold: every row at its streaming value. -/
theorem final_of_last (c : Dev nD)
    (hlast : ∀ t : Fin cfg0.N, t.val % 25 = 24 → ∀ (r : Fin 1024) (z : Fin 1), (outsAt m c t.val t.isLt).out (ix2 r z) = rowValue m c (rowAt t r)) :
    ((dats m 0 c).arrAt 4 cfg0.N : S4096x1.Idx → EReal) = fun j => rowValue m c ⟨(j 0).val, idx2_lt0 j⟩ :=
  (dats m 0 c).arrAt_eq_of_cover 4 (rowValues m c) (fun t hf => flushed_last m c hlast t hf) rows_covered

/-- The same array re-laid as 8 × 512: position t of batch b holds the value of row 512·b + t. -/
theorem relaid_of_last (c : Dev nD)
    (hlast : ∀ t : Fin cfg0.N, t.val % 25 = 24 → ∀ (r : Fin 1024) (z : Fin 1), (outsAt m c t.val t.isLt).out (ix2 r z) = rowValue m c (rowAt t r))
    (b : Fin 8) (t : Fin 512) :
    shapeCast S8x512 ((dats m 0 c).arrAt 4 cfg0.N : S4096x1.Idx → EReal) shapeCasts_S4096x1_S8x512 (ix2 b t) = rowValue m c (Cert.Glue.rowOf b t) := by
  rw [final_of_last m c hlast]
  refine (shapeCast_apply _ _ _ (ix2 (Cert.Glue.rowOf b t) (0 : Fin 1)) ?_).trans rfl
  rw [Shape.rowMajor_val_two, Shape.rowMajor_val_two]
  show (b.val * 512 + t.val) * 1 + 0 = b.val * 512 + t.val
  omega

end Cert.KernelIdeal.HandValue

end
-- ==== Proof.KiOut.lean ====
/-
  The kernel's output array after the region, at the extended reals: row `n` of the 4096 × 1 array holds the
  streaming value of row `n`'s logits at its target word — each tile's last chunk writes its 1024 rows, and the four
  tiles cover the array. The re-laid 8 × 512 form reads row `512·b + t` at `(b, t)`.
-/
import proofs.«416803_j17583596109825_2_alg».proof.Proof.KiValue
import proofs.«416803_j17583596109825_2_alg».proof.Proof.KiCover

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Idealize.ShloMosaic.Pipeline (Dat)

variable (m : (ℓ : Loc nD τ sig) → Buf (Elt Ideal) ℓ)

/-- The output array after the region: row `n` holds the streaming value of row `n`. -/
theorem final (c : Dev nD) :
    ((dats m 0 c).arrAt 4 cfg0.N : S4096x1.Idx → EReal) = fun j => rowValue m c ⟨(j 0).val, idx2_lt0 j⟩ :=
  final_of_last m c (last_rows m c)

/-- The same at a row, in the vocabulary of the argument arrays. -/
theorem final_apply (c : Dev nD) (n : Fin 4096) (z : Fin 1) :
    ((dats m 0 c).arrAt 4 cfg0.N : S4096x1.Idx → EReal) (ix2 n z)
      = Cert.Spec.tokStream
          (Cert.Glue.rowLogit (m ((c : Thread nD τ).loc main_arg0)) (m ((c : Thread nD τ).loc main_arg1))
            (m ((c : Thread nD τ).loc main_arg3)) n)
          (Cert.Glue.Tof (m ((c : Thread nD τ).loc main_arg2)) n) := by
  rw [final]
  rfl

/-- The output array re-laid as 8 × 512: position `t` of batch `b` holds the streaming value of row `512·b + t`. -/
theorem final_relaid (c : Dev nD) (b : Fin 8) (t : Fin 512) :
    shapeCast S8x512 ((dats m 0 c).arrAt 4 cfg0.N : S4096x1.Idx → EReal) shapeCasts_S4096x1_S8x512 (ix2 b t)
      = Cert.Spec.tokStream
          (Cert.Glue.rowLogit (m ((c : Thread nD τ).loc main_arg0)) (m ((c : Thread nD τ).loc main_arg1))
            (m ((c : Thread nD τ).loc main_arg3)) (Cert.Glue.rowOf b t))
          (Cert.Glue.Tof (m ((c : Thread nD τ).loc main_arg2)) (Cert.Glue.rowOf b t)) :=
  (relaid_of_last m c (last_rows m c) b t).trans (rowValue_eq m c _)

end Cert.KernelIdeal.HandValue

end
-- ==== Proof.RefOps.lean ====
/-
  The reference's @main read back as its list of host operations.

  The outlined functions are listed inline at their call sites over the call's buffers: the logits
  (a contraction over the hidden axis plus the broadcast bias), the row-wise log-softmax (maximum from −∞,
  shifted exponentials, their sum from 0, its logarithm), the gather of the target column (with the
  wrap of negative indices, the bounds mask and the fill) and its reshape to the 8 × 512 per-token array
  (the first stretch, 43 operations); then the operations from the per-token array to the scalar loss
  (the second stretch, 77 operations). @main is the two stretches in sequence, and every operation touches
  TensorCore buffers only.
-/
import proofs.«416803_j17583596109825_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations up to the per-token array: the logits, the log-softmax, the gather, the reshape. -/
abbrev opsTok : List (HloOp τ sig (Elt F)) :=
  [ binary main_arg1 main_arg0 main_v0 ((fun l r => Host.dotGeneral dot_S8x512x2048_S32000x2048_S8x512x32000_2_1_01_0_n_n none l r) : (⟨S8x512x2048, .f32⟩ : BufTy).Contents (Elt F) → (⟨S32000x2048, .f32⟩ : BufTy).Contents (Elt F) → (⟨S8x512x32000, .f32⟩ : BufTy).Contents (Elt F)),
    unary main_arg3 main_v1 (broadcastInDim S1x1x32000 ![2] bcast_S32000_S1x1x32000_2 : (⟨S32000, .f32⟩ : BufTy).Contents (Elt F) → (⟨S1x1x32000, .f32⟩ : BufTy).Contents (Elt F)),
    unary main_v1 main_v2 (broadcastInDim S8x512x32000 ![0, 1, 2] bcast_S1x1x32000_S8x512x32000_0_1_2 : (⟨S1x1x32000, .f32⟩ : BufTy).Contents (Elt F) → (⟨S8x512x32000, .f32⟩ : BufTy).Contents (Elt F)),
    binary main_v0 main_v2 main_v3 (addf : (⟨S8x512x32000, .f32⟩ : BufTy).Contents (Elt F) → (⟨S8x512x32000, .f32⟩ : BufTy).Contents (Elt F) → (⟨S8x512x32000, .f32⟩ : BufTy).Contents (Elt F)),
    TRef.nullary main_call0.cst (constant S_ .f32 0xFF800000#32),
    TRef.binary (.of main_v3 : TRef sig ⟨S8x512x32000, .f32⟩) main_call0.cst main_call0.v0 (fun x v => Host.reduce FloatOps.maximumf x v reducesTo_S8x512x32000_S8x512_d2 h_S_),
    TRef.nullary main_call0.cst_0 (constant S_ .f32 0xFF800000#32),
    TRef.unary main_call0.cst_0 main_call0.v1 (broadcastInDim S8x512 ![] bcast_S_S8x512),
    TRef.binary main_call0.v1 main_call0.v0 main_call0.v2 maximumf,
    TRef.unary main_call0.v2 main_call0.v3 (broadcastInDim S8x512x1 ![0, 1] bcast_S8x512_S8x512x1_0_1),
    TRef.unary main_call0.v3 main_call0.v4 (broadcastInDim S8x512x32000 ![0, 1, 2] bcast_S8x512x1_S8x512x32000_0_1_2),
    TRef.binary (.of main_v3 : TRef sig ⟨S8x512x32000, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S8x512x32000_S8x512_d2 h_S_),
    TRef.unary main_call0.v7 main_call0.v8 (broadcastInDim S8x512x1 ![0, 1] bcast_S8x512_S8x512x1_0_1),
    TRef.unary main_call0.v8 main_call0.v9 Host.log,
    TRef.unary main_call0.v9 main_call0.v10 (broadcastInDim S8x512x32000 ![0, 1, 2] bcast_S8x512x1_S8x512x32000_0_1_2),
    TRef.binary main_call0.v5 main_call0.v10 main_call0.v11 subf,
    unary main_arg2 main_v5 (broadcastInDim S8x512x1 ![0, 1] bcast_S8x512_S8x512x1_0_1 : (⟨S8x512, .i32⟩ : BufTy).Contents (Elt F) → (⟨S8x512x1, .i32⟩ : BufTy).Contents (Elt F)),
    TRef.nullary main_call1.c (constantI S_ 32 0#32),
    TRef.unary main_call1.c main_call1.v0 (broadcastInDim S8x512x1 ![] bcast_S_S8x512x1),
    TRef.binary (.of main_v5 : TRef sig ⟨S8x512x1, .i32⟩) main_call1.v0 main_call1.v1 (cmpi .slt),
    TRef.nullary main_call1.c_0 (constantI S_ 32 32000#32),
    TRef.unary main_call1.c_0 main_call1.v2 (broadcastInDim S8x512x1 ![] bcast_S_S8x512x1),
    TRef.binary (.of main_v5 : TRef sig ⟨S8x512x1, .i32⟩) main_call1.v2 main_call1.v3 addi,
    TRef.ternary main_call1.v1 main_call1.v3 (.of main_v5 : TRef sig ⟨S8x512x1, .i32⟩) main_call1.v4 select,
    TRef.reshape main_call1.v4 main_call1.v5 rfl shapeCasts_S8x512x1_S8x512x1x1,
    TRef.nullary main_call1.c_1 (constantI S1 32 31999#32),
    TRef.nullary main_call1.c_2 (constantI S_ 32 0#32),
    TRef.unary main_call1.c_2 main_call1.v6 (broadcastInDim S8x512x1x1 ![] bcast_S_S8x512x1x1),
    TRef.binary main_call1.v5 main_call1.v6 main_call1.v7 (cmpi .sge),
    TRef.unary main_call1.c_1 main_call1.v8 (broadcastInDim S1x1x1x1 ![3] bcast_S1_S1x1x1x1_3),
    TRef.unary main_call1.v8 main_call1.v9 (broadcastInDim S8x512x1x1 ![0, 1, 2, 3] bcast_S1x1x1x1_S8x512x1x1_0_1_2_3),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8x512x1x1_S8x512x1_d3 h_S_),
    TRef.binary (.of main_v4 : TRef sig ⟨S8x512x32000, .f32⟩) main_call1.v5 main_call1.v13 (fun x i => Host.gather gather_S8x512x32000_S8x512x1x1_S8x512x1_n_2_01_01_2_3_111 x i),
    TRef.nullary main_call1.cst (constant S_ .f32 0x7FC00000#32),
    TRef.unary main_call1.cst main_call1.v14 (broadcastInDim S8x512x1 ![] bcast_S_S8x512x1),
    TRef.ternary main_call1.v12 main_call1.v13 main_call1.v14 main_call1.v15 select,
    reshape main_v6 main_v7 rfl shapeCasts_S8x512x1_S8x512 ]

/-- The operations from the per-token array to the loss. -/
abbrev opsLoss : List (HloOp τ sig (Elt F)) :=
  [ nullary main_c (constantI S_ 32 4294967196#32),
    unary main_c main_v8 (broadcastInDim S8x512 ![] bcast_S_S8x512 : (⟨S_, .i32⟩ : BufTy).Contents (Elt F) → (⟨S8x512, .i32⟩ : BufTy).Contents (Elt F)),
    binary main_arg2 main_v8 main_v9 (cmpi .ne : (⟨S8x512, .i32⟩ : BufTy).Contents (Elt F) → (⟨S8x512, .i32⟩ : BufTy).Contents (Elt F) → (⟨S8x512, .i1⟩ : BufTy).Contents (Elt F)),
    unary main_v9 main_v10 (uitofp .f32 : (⟨S8x512, .i1⟩ : BufTy).Contents (Elt F) → (⟨S8x512, .f32⟩ : BufTy).Contents (Elt F)),
    binary main_v7 main_v10 main_v11 (mulf : (⟨S8x512, .f32⟩ : BufTy).Contents (Elt F) → (⟨S8x512, .f32⟩ : BufTy).Contents (Elt F) → (⟨S8x512, .f32⟩ : BufTy).Contents (Elt F)),
    nullary main_cst (constant S_ .f32 0x00000000#32),
    binary main_v11 main_cst main_v12 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    nullary main_cst_0 (constant S_ .f32 0x00000000#32),
    binary main_v10 main_cst_0 main_v13 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    binary main_v12 main_v13 main_v14 (Host.divf : (⟨S8, .f32⟩ : BufTy).Contents (Elt F) → (⟨S8, .f32⟩ : BufTy).Contents (Elt F) → (⟨S8, .f32⟩ : BufTy).Contents (Elt F)),
    unary main_v14 main_v15 ((extractStridedSlice S4 ![0] · slices_S8_S4_0) : (⟨S8, .f32⟩ : BufTy).Contents (Elt F) → (⟨S4, .f32⟩ : BufTy).Contents (Elt F)),
    unary main_v14 main_v16 ((extractStridedSlice S4 ![4] · slices_S8_S4_4) : (⟨S8, .f32⟩ : BufTy).Contents (Elt F) → (⟨S4, .f32⟩ : BufTy).Contents (Elt F)),
    unary main_v7 main_v17 ((extractStridedSlice S4x512 ![0, 0] · slices_S8x512_S4x512_0_0) : (⟨S8x512, .f32⟩ : BufTy).Contents (Elt F) → (⟨S4x512, .f32⟩ : BufTy).Contents (Elt F)),
    unary main_v10 main_v18 ((extractStridedSlice S4x512 ![0, 0] · slices_S8x512_S4x512_0_0) : (⟨S8x512, .f32⟩ : BufTy).Contents (Elt F) → (⟨S4x512, .f32⟩ : BufTy).Contents (Elt F)),
    binary main_v17 main_v18 main_v19 (mulf : (⟨S4x512, .f32⟩ : BufTy).Contents (Elt F) → (⟨S4x512, .f32⟩ : BufTy).Contents (Elt F) → (⟨S4x512, .f32⟩ : BufTy).Contents (Elt F)),
    nullary main_cst_1 (constant S_ .f32 0x00000000#32),
    binary main_v19 main_cst_1 main_v20 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    unary main_v20 main_v21 (Host.negf : (⟨S_, .f32⟩ : BufTy).Contents (Elt F) → (⟨S_, .f32⟩ : BufTy).Contents (Elt F)),
    unary main_v10 main_v22 ((extractStridedSlice S4x512 ![0, 0] · slices_S8x512_S4x512_0_0) : (⟨S8x512, .f32⟩ : BufTy).Contents (Elt F) → (⟨S4x512, .f32⟩ : BufTy).Contents (Elt F)),
    nullary main_cst_2 (constant S_ .f32 0x00000000#32),
    binary main_v22 main_cst_2 main_v23 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    binary main_v21 main_v23 main_v24 (Host.divf : (⟨S_, .f32⟩ : BufTy).Contents (Elt F) → (⟨S_, .f32⟩ : BufTy).Contents (Elt F) → (⟨S_, .f32⟩ : BufTy).Contents (Elt F)),
    binary main_v15 main_v16 main_v25 (subf : (⟨S4, .f32⟩ : BufTy).Contents (Elt F) → (⟨S4, .f32⟩ : BufTy).Contents (Elt F) → (⟨S4, .f32⟩ : BufTy).Contents (Elt F)),
    nullary main_cst_3 (constant S_ .f32 0x3DCCCCCD#32),
    unary main_cst_3 main_v26 (broadcastInDim S4 ![] bcast_S_S4 : (⟨S_, .f32⟩ : BufTy).Contents (Elt F) → (⟨S4, .f32⟩ : BufTy).Contents (Elt F)),
    binary main_v26 main_v25 main_v27 (mulf : (⟨S4, .f32⟩ : BufTy).Contents (Elt F) → (⟨S4, .f32⟩ : BufTy).Contents (Elt F) → (⟨S4, .f32⟩ : BufTy).Contents (Elt F)),
    nullary main_cst_4 (constant S_ .f32 0x3F000000#32),
    unary main_cst_4 main_v28 (broadcastInDim S4 ![] bcast_S_S4 : (⟨S_, .f32⟩ : BufTy).Contents (Elt F) → (⟨S4, .f32⟩ : BufTy).Contents (Elt F)),
    binary main_v27 main_v28 main_v29 (subf : (⟨S4, .f32⟩ : BufTy).Contents (Elt F) → (⟨S4, .f32⟩ : BufTy).Contents (Elt F) → (⟨S4, .f32⟩ : BufTy).Contents (Elt F)),
    TRef.unary (.of main_v29 : TRef sig ⟨S4, .f32⟩) main_call2.v0 Host.negf,
    TRef.nullary main_call2.call0.cst (constant S_ .f32 0x00000000#32),
    TRef.unary main_call2.call0.cst main_call2.call0.v0 (broadcastInDim S4 ![] bcast_S_S4),
    TRef.binary main_call2.v0 main_call2.call0.v0 main_call2.call0.v1 maximumf,
    TRef.unary main_call2.call0.cst main_call2.call0.v2 (broadcastInDim S4 ![] bcast_S_S4),
    TRef.binary main_call2.v0 main_call2.call0.v2 main_call2.call0.v3 subf,
    TRef.binary main_call2.call0.v3 main_call2.call0.v3 main_call2.call0.v4 (cmpf .une),
    TRef.unary main_call2.call0.cst main_call2.call0.v5 (broadcastInDim S4 ![] bcast_S_S4),
    TRef.binary main_call2.v0 main_call2.call0.v5 main_call2.call0.v6 addf,
    TRef.unary main_call2.call0.v3 main_call2.call0.v7 Host.absf,
    TRef.unary main_call2.call0.v7 main_call2.call0.v8 Host.negf,
    TRef.unary main_call2.call0.v8 main_call2.call0.v9 Host.exp,
    TRef.unary main_call2.call0.v9 main_call2.call0.v10 Host.log1p,
    TRef.binary main_call2.call0.v1 main_call2.call0.v10 main_call2.call0.v11 addf,
    TRef.ternary main_call2.call0.v4 main_call2.call0.v6 main_call2.call0.v11 main_call2.call0.v12 select,
    TRef.unary main_call2.call0.v12 main_call2.v2 Host.negf,
    unary main_v30 main_v31 (Host.negf : (⟨S4, .f32⟩ : BufTy).Contents (Elt F) → (⟨S4, .f32⟩ : BufTy).Contents (Elt F)),
    nullary main_cst_5 (constant S_ .f32 0x3F800000#32),
    unary main_cst_5 main_v32 (broadcastInDim S4 ![] bcast_S_S4 : (⟨S_, .f32⟩ : BufTy).Contents (Elt F) → (⟨S4, .f32⟩ : BufTy).Contents (Elt F)),
    binary main_v31 main_v32 main_v33 (mulf : (⟨S4, .f32⟩ : BufTy).Contents (Elt F) → (⟨S4, .f32⟩ : BufTy).Contents (Elt F) → (⟨S4, .f32⟩ : BufTy).Contents (Elt F)),
    unary main_v29 main_v34 (Host.negf : (⟨S4, .f32⟩ : BufTy).Contents (Elt F) → (⟨S4, .f32⟩ : BufTy).Contents (Elt F)),
    TRef.unary (.of main_v34 : TRef sig ⟨S4, .f32⟩) main_call3.v0 Host.negf,
    TRef.nullary main_call3.call0.cst (constant S_ .f32 0x00000000#32),
    TRef.unary main_call3.call0.cst main_call3.call0.v0 (broadcastInDim S4 ![] bcast_S_S4),
    TRef.binary main_call3.v0 main_call3.call0.v0 main_call3.call0.v1 maximumf,
    TRef.unary main_call3.call0.cst main_call3.call0.v2 (broadcastInDim S4 ![] bcast_S_S4),
    TRef.binary main_call3.v0 main_call3.call0.v2 main_call3.call0.v3 subf,
    TRef.binary main_call3.call0.v3 main_call3.call0.v3 main_call3.call0.v4 (cmpf .une),
    TRef.unary main_call3.call0.cst main_call3.call0.v5 (broadcastInDim S4 ![] bcast_S_S4),
    TRef.binary main_call3.v0 main_call3.call0.v5 main_call3.call0.v6 addf,
    TRef.unary main_call3.call0.v3 main_call3.call0.v7 Host.absf,
    TRef.unary main_call3.call0.v7 main_call3.call0.v8 Host.negf,
    TRef.unary main_call3.call0.v8 main_call3.call0.v9 Host.exp,
    TRef.unary main_call3.call0.v9 main_call3.call0.v10 Host.log1p,
    TRef.binary main_call3.call0.v1 main_call3.call0.v10 main_call3.call0.v11 addf,
    TRef.ternary main_call3.call0.v4 main_call3.call0.v6 main_call3.call0.v11 main_call3.call0.v12 select,
    TRef.unary main_call3.call0.v12 main_call3.v2 Host.negf,
    nullary main_cst_6 (constant S_ .f32 0x00000000#32),
    unary main_cst_6 main_v36 (broadcastInDim S4 ![] bcast_S_S4 : (⟨S_, .f32⟩ : BufTy).Contents (Elt F) → (⟨S4, .f32⟩ : BufTy).Contents (Elt F)),
    binary main_v35 main_v36 main_v37 (mulf : (⟨S4, .f32⟩ : BufTy).Contents (Elt F) → (⟨S4, .f32⟩ : BufTy).Contents (Elt F) → (⟨S4, .f32⟩ : BufTy).Contents (Elt F)),
    binary main_v33 main_v37 main_v38 (subf : (⟨S4, .f32⟩ : BufTy).Contents (Elt F) → (⟨S4, .f32⟩ : BufTy).Contents (Elt F) → (⟨S4, .f32⟩ : BufTy).Contents (Elt F)),
    nullary main_cst_7 (constant S_ .f32 0x00000000#32),
    binary main_v38 main_cst_7 main_v39 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_8 (constant S_ .f32 0x40800000#32),
    binary main_v39 main_cst_8 main_v40 (Host.divf : (⟨S_, .f32⟩ : BufTy).Contents (Elt F) → (⟨S_, .f32⟩ : BufTy).Contents (Elt F) → (⟨S_, .f32⟩ : BufTy).Contents (Elt F)),
    nullary main_cst_9 (constant S_ .f32 0x3F800000#32),
    binary main_cst_9 main_v24 main_v41 (mulf : (⟨S_, .f32⟩ : BufTy).Contents (Elt F) → (⟨S_, .f32⟩ : BufTy).Contents (Elt F) → (⟨S_, .f32⟩ : BufTy).Contents (Elt F)),
    binary main_v41 main_v40 main_v42 (addf : (⟨S_, .f32⟩ : BufTy).Contents (Elt F) → (⟨S_, .f32⟩ : BufTy).Contents (Elt F) → (⟨S_, .f32⟩ : BufTy).Contents (Elt F)) ]

/-- @main's operations, in order. -/
abbrev ops : List (HloOp τ sig (Elt F)) := opsTok ++ opsLoss

set_option maxRecDepth 8192 in
set_option maxHeartbeats 4000000 in
/-- @main is that straight line: the functions' definitions unfolded at their calls, both sides are one chain of
    steps once sequencing is reassociated. -/
theorem main_eq (c : Dev nD) : main (F := F) c = seq ops := by
  simp only [ops, seq_append]
  simp only [main, fn_log_softmax.body, fn_take_along_axis.body, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsTok_sub : (opsTok : List (HloOp τ sig (Elt F))).Forall fun op => op.bufs ⊆ tcRefs τ sig :=
  ⟨binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    reshape_bufs_sub ..⟩

theorem opsLoss_sub : (opsLoss : List (HloOp τ sig (Elt F))).Forall fun op => op.bufs ⊆ tcRefs τ sig :=
  ⟨nullary_bufs_sub .., unary_bufs_sub .., binary_bufs_sub .., unary_bufs_sub .., binary_bufs_sub .., nullary_bufs_sub ..,
    binary_bufs_sub .., nullary_bufs_sub .., binary_bufs_sub .., binary_bufs_sub .., unary_bufs_sub .., unary_bufs_sub ..,
    unary_bufs_sub .., unary_bufs_sub .., binary_bufs_sub .., nullary_bufs_sub .., binary_bufs_sub .., unary_bufs_sub ..,
    unary_bufs_sub .., nullary_bufs_sub .., binary_bufs_sub .., binary_bufs_sub .., binary_bufs_sub .., nullary_bufs_sub ..,
    unary_bufs_sub .., binary_bufs_sub .., nullary_bufs_sub .., unary_bufs_sub .., binary_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub .., unary_bufs_sub .., nullary_bufs_sub .., unary_bufs_sub ..,
    binary_bufs_sub .., unary_bufs_sub .., unary_bufs_sub .., nullary_bufs_sub .., unary_bufs_sub .., binary_bufs_sub ..,
    unary_bufs_sub .., binary_bufs_sub .., binary_bufs_sub .., unary_bufs_sub .., binary_bufs_sub .., unary_bufs_sub ..,
    unary_bufs_sub .., unary_bufs_sub .., unary_bufs_sub .., binary_bufs_sub .., ternary_bufs_sub .., unary_bufs_sub ..,
    nullary_bufs_sub .., unary_bufs_sub .., binary_bufs_sub .., binary_bufs_sub .., nullary_bufs_sub .., binary_bufs_sub ..,
    nullary_bufs_sub .., binary_bufs_sub .., nullary_bufs_sub .., binary_bufs_sub .., binary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp opsTok_sub op) (List.forall_iff_forall_mem.mp opsLoss_sub op)

/-- Two lines run one after the other: the second folds over what the first leaves. -/
theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.Hand

end
-- ==== Proof.RefTokDef.lean ====
/-
  The reference's per-token array as one term of its four argument arrays: the logits (each token's hidden
  vector against each vocabulary row, plus that row's bias), their log-softmax over the vocabulary (largest
  logit from −∞, shifted exponentials, their sum from 0, its logarithm), and the entry at each token's
  target word (a negative word wrapped by 32000, the gathered entry kept where the index is in 0 … 31999, a
  fill elsewhere), with the trailing unit axis dropped. The operations in the program's order, at any float
  instance.
-/
import proofs.«416803_j17583596109825_2_alg».proof.Proof.Gen.ReferenceIdeal
import Idealize.ShloMosaic.PureOps

noncomputable section

namespace Cert.ReferenceIdeal.Hand

open Cert.ReferenceIdeal Cert.ReferenceIdeal.Gen Idealize.ShloMosaic

variable {F : FTy → Type} [FloatOps F]

/-- The logits: each token's hidden vector against each vocabulary row, plus the bias of that row. -/
def logits (a0 : FVec F S32000x2048 .f32) (a1 : FVec F S8x512x2048 .f32) (a3 : FVec F S32000 .f32) :
    FVec F S8x512x32000 .f32 :=
  addf (Host.dotGeneral dot_S8x512x2048_S32000x2048_S8x512x32000_2_1_01_0_n_n none a1 a0)
    (broadcastInDim S8x512x32000 ![0, 1, 2] bcast_S1x1x32000_S8x512x32000_0_1_2
      (broadcastInDim S1x1x32000 ![2] bcast_S32000_S1x1x32000_2 a3))

/-- A token's largest logit: the maximum over the vocabulary from −∞, once more against −∞. -/
def rowMax (s : FVec F S8x512x32000 .f32) : FVec F S8x512 .f32 :=
  maximumf (broadcastInDim S8x512 ![] bcast_S_S8x512 (constant S_ .f32 0xFF800000#32))
    (Host.reduce FloatOps.maximumf s (constant S_ .f32 0xFF800000#32) reducesTo_S8x512x32000_S8x512_d2 h_S_)

/-- The logits less their token's largest. -/
def shifted (s : FVec F S8x512x32000 .f32) : FVec F S8x512x32000 .f32 :=
  subf s (broadcastInDim S8x512x32000 ![0, 1, 2] bcast_S8x512x1_S8x512x32000_0_1_2
    (broadcastInDim S8x512x1 ![0, 1] bcast_S8x512_S8x512x1_0_1 (rowMax s)))

/-- The logarithm of a token's sum of shifted exponentials (from 0). -/
def logNorm (s : FVec F S8x512x32000 .f32) : FVec F S8x512x1 .f32 :=
  Host.log (broadcastInDim S8x512x1 ![0, 1] bcast_S8x512_S8x512x1_0_1
    (Host.reduceAdd (Host.exp (shifted s)) (constant S_ .f32 0x00000000#32) reducesTo_S8x512x32000_S8x512_d2 h_S_))

/-- The log-softmax over the vocabulary. -/
def logSoftmax (s : FVec F S8x512x32000 .f32) : FVec F S8x512x32000 .f32 :=
  subf (shifted s) (broadcastInDim S8x512x32000 ![0, 1, 2] bcast_S8x512x1_S8x512x32000_0_1_2 (logNorm s))

/-- The start indices of the gather: a negative word has 32000 added, then a unit axis is appended. -/
def wrapIdx (ix : IVec S8x512x1 32) : IVec S8x512x1x1 32 :=
  shapeCast S8x512x1x1
    (select (cmpi .slt ix (broadcastInDim S8x512x1 ![] bcast_S_S8x512x1 (constantI S_ 32 0#32)))
      (addi ix (broadcastInDim S8x512x1 ![] bcast_S_S8x512x1 (constantI S_ 32 32000#32))) ix)
    shapeCasts_S8x512x1_S8x512x1x1

/-- Whether a start index lies in 0 … 31999 (the conjunction over the one index component, from true). -/
def inBounds (w : IVec S8x512x1x1 32) : IVec S8x512x1 1 :=
  Host.reduce IntOp.andi
    (andi (cmpi .sge w (broadcastInDim S8x512x1x1 ![] bcast_S_S8x512x1x1 (constantI S_ 32 0#32)))
      (cmpi .sle w (broadcastInDim S8x512x1x1 ![0, 1, 2, 3] bcast_S1x1x1x1_S8x512x1x1_0_1_2_3
        (broadcastInDim S1x1x1x1 ![3] bcast_S1_S1x1x1x1_3 (constantI S1 32 31999#32)))))
    (constantI S_ 1 1#1) reducesTo_S8x512x1x1_S8x512x1_d3 h_S_

/-- The entry of each token's row at its index: the gathered entry where the index is in bounds, the fill elsewhere. -/
def takeAlong (lp : FVec F S8x512x32000 .f32) (ix : IVec S8x512x1 32) : FVec F S8x512x1 .f32 :=
  select (inBounds (wrapIdx ix))
    (Host.gather gather_S8x512x32000_S8x512x1x1_S8x512x1_n_2_01_01_2_3_111 lp (wrapIdx ix))
    (broadcastInDim S8x512x1 ![] bcast_S_S8x512x1 (constant S_ .f32 0x7FC00000#32))

/-- The per-token array: the log-softmax of the logits read at each token's target word. -/
def tokArr (a0 : FVec F S32000x2048 .f32) (a1 : FVec F S8x512x2048 .f32) (a2 : IVec S8x512 32) (a3 : FVec F S32000 .f32) :
    FVec F S8x512 .f32 :=
  shapeCast S8x512
    (takeAlong (logSoftmax (logits a0 a1 a3)) (broadcastInDim S8x512x1 ![0, 1] bcast_S8x512_S8x512x1_0_1 a2))
    shapeCasts_S8x512x1_S8x512

end Cert.ReferenceIdeal.Hand

end
-- ==== Proof.RefRunTok.lean ====
/-
  The reference's first stretch of operations, read as one function: whatever the buffers hold before it, after its
  43 operations the per-token buffer holds the per-token array of the four argument buffers — the log-softmax of the
  logits read at each token's target word — and the four argument buffers are as they were.

  The stretch is cut into five runs (the logits, the log-softmax, the target words with a unit axis, the gather, the
  reshape). The two runs that work over a called function's buffers are first read with every function and constant
  of theirs a variable — the composition of the operations does not depend on what the functions are — and then at
  the program's functions.
-/
import proofs.«416803_j17583596109825_2_alg».proof.Proof.RefOps
import proofs.«416803_j17583596109825_2_alg».proof.Proof.RefTokDef
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The first stretch, in five runs of operations -/

/-- The logits' four operations. -/
abbrev segLogits : List (HloOp τ sig (Elt F)) :=
  [ binary main_arg1 main_arg0 main_v0 ((fun l r => Host.dotGeneral dot_S8x512x2048_S32000x2048_S8x512x32000_2_1_01_0_n_n none l r) : (⟨S8x512x2048, .f32⟩ : BufTy).Contents (Elt F) → (⟨S32000x2048, .f32⟩ : BufTy).Contents (Elt F) → (⟨S8x512x32000, .f32⟩ : BufTy).Contents (Elt F)),
    unary main_arg3 main_v1 (broadcastInDim S1x1x32000 ![2] bcast_S32000_S1x1x32000_2 : (⟨S32000, .f32⟩ : BufTy).Contents (Elt F) → (⟨S1x1x32000, .f32⟩ : BufTy).Contents (Elt F)),
    unary main_v1 main_v2 (broadcastInDim S8x512x32000 ![0, 1, 2] bcast_S1x1x32000_S8x512x32000_0_1_2 : (⟨S1x1x32000, .f32⟩ : BufTy).Contents (Elt F) → (⟨S8x512x32000, .f32⟩ : BufTy).Contents (Elt F)),
    binary main_v0 main_v2 main_v3 (addf : (⟨S8x512x32000, .f32⟩ : BufTy).Contents (Elt F) → (⟨S8x512x32000, .f32⟩ : BufTy).Contents (Elt F) → (⟨S8x512x32000, .f32⟩ : BufTy).Contents (Elt F)) ]

/-- The log-softmax's fifteen operations, over the call's buffers. -/
abbrev segSoftmax : List (HloOp τ sig (Elt F)) :=
  [ TRef.nullary main_call0.cst (constant S_ .f32 0xFF800000#32),
    TRef.binary (.of main_v3 : TRef sig ⟨S8x512x32000, .f32⟩) main_call0.cst main_call0.v0 (fun x v => Host.reduce FloatOps.maximumf x v reducesTo_S8x512x32000_S8x512_d2 h_S_),
    TRef.nullary main_call0.cst_0 (constant S_ .f32 0xFF800000#32),
    TRef.unary main_call0.cst_0 main_call0.v1 (broadcastInDim S8x512 ![] bcast_S_S8x512),
    TRef.binary main_call0.v1 main_call0.v0 main_call0.v2 maximumf,
    TRef.unary main_call0.v2 main_call0.v3 (broadcastInDim S8x512x1 ![0, 1] bcast_S8x512_S8x512x1_0_1),
    TRef.unary main_call0.v3 main_call0.v4 (broadcastInDim S8x512x32000 ![0, 1, 2] bcast_S8x512x1_S8x512x32000_0_1_2),
    TRef.binary (.of main_v3 : TRef sig ⟨S8x512x32000, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S8x512x32000_S8x512_d2 h_S_),
    TRef.unary main_call0.v7 main_call0.v8 (broadcastInDim S8x512x1 ![0, 1] bcast_S8x512_S8x512x1_0_1),
    TRef.unary main_call0.v8 main_call0.v9 Host.log,
    TRef.unary main_call0.v9 main_call0.v10 (broadcastInDim S8x512x32000 ![0, 1, 2] bcast_S8x512x1_S8x512x32000_0_1_2),
    TRef.binary main_call0.v5 main_call0.v10 main_call0.v11 subf ]

/-- The target words with a unit axis appended. -/
abbrev segWords : List (HloOp τ sig (Elt F)) :=
  [ unary main_arg2 main_v5 (broadcastInDim S8x512x1 ![0, 1] bcast_S8x512_S8x512x1_0_1 : (⟨S8x512, .i32⟩ : BufTy).Contents (Elt F) → (⟨S8x512x1, .i32⟩ : BufTy).Contents (Elt F)) ]

/-- The gather's twenty-two operations, over the call's buffers. -/
abbrev segTake : List (HloOp τ sig (Elt F)) :=
  [ TRef.nullary main_call1.c (constantI S_ 32 0#32),
    TRef.unary main_call1.c main_call1.v0 (broadcastInDim S8x512x1 ![] bcast_S_S8x512x1),
    TRef.binary (.of main_v5 : TRef sig ⟨S8x512x1, .i32⟩) main_call1.v0 main_call1.v1 (cmpi .slt),
    TRef.nullary main_call1.c_0 (constantI S_ 32 32000#32),
    TRef.unary main_call1.c_0 main_call1.v2 (broadcastInDim S8x512x1 ![] bcast_S_S8x512x1),
    TRef.binary (.of main_v5 : TRef sig ⟨S8x512x1, .i32⟩) main_call1.v2 main_call1.v3 addi,
    TRef.ternary main_call1.v1 main_call1.v3 (.of main_v5 : TRef sig ⟨S8x512x1, .i32⟩) main_call1.v4 select,
    TRef.reshape main_call1.v4 main_call1.v5 rfl shapeCasts_S8x512x1_S8x512x1x1,
    TRef.nullary main_call1.c_1 (constantI S1 32 31999#32),
    TRef.nullary main_call1.c_2 (constantI S_ 32 0#32),
    TRef.unary main_call1.c_2 main_call1.v6 (broadcastInDim S8x512x1x1 ![] bcast_S_S8x512x1x1),
    TRef.binary main_call1.v5 main_call1.v6 main_call1.v7 (cmpi .sge),
    TRef.unary main_call1.c_1 main_call1.v8 (broadcastInDim S1x1x1x1 ![3] bcast_S1_S1x1x1x1_3),
    TRef.unary main_call1.v8 main_call1.v9 (broadcastInDim S8x512x1x1 ![0, 1, 2, 3] bcast_S1x1x1x1_S8x512x1x1_0_1_2_3),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8x512x1x1_S8x512x1_d3 h_S_),
    TRef.binary (.of main_v4 : TRef sig ⟨S8x512x32000, .f32⟩) main_call1.v5 main_call1.v13 (fun x i => Host.gather gather_S8x512x32000_S8x512x1x1_S8x512x1_n_2_01_01_2_3_111 x i),
    TRef.nullary main_call1.cst (constant S_ .f32 0x7FC00000#32),
    TRef.unary main_call1.cst main_call1.v14 (broadcastInDim S8x512x1 ![] bcast_S_S8x512x1),
    TRef.ternary main_call1.v12 main_call1.v13 main_call1.v14 main_call1.v15 select ]

/-- The reshape to the per-token array. -/
abbrev segShape : List (HloOp τ sig (Elt F)) :=
  [ reshape main_v6 main_v7 rfl shapeCasts_S8x512x1_S8x512 ]

theorem opsTok_eq : (opsTok : List (HloOp τ sig (Elt F))) = segLogits ++ (segSoftmax ++ (segWords ++ (segTake ++ segShape))) := rfl

/-- After the first four operations the logits' buffer holds the logits of the arguments. -/
theorem segLogits_val (V : Valuation τ sig (Elt F)) :
    after segLogits V (main_v3 : DevRef τ sig) = logits (V (main_arg0 : DevRef τ sig)) (V (main_arg1 : DevRef τ sig)) (V (main_arg3 : DevRef τ sig)) := by
  after_results_simp
  rfl

theorem segLogits_arg2 (V : Valuation τ sig (Elt F)) : after segLogits V (main_arg2 : DevRef τ sig) = V (main_arg2 : DevRef τ sig) := by
  after_results_simp

/-! ## The log-softmax's run -/

section Abs
variable (c0 c1 c2 : (⟨S_, .f32⟩ : BufTy).Contents (Elt F))
  (g1 : (⟨S8x512x32000, .f32⟩ : BufTy).Contents (Elt F) → (⟨S_, .f32⟩ : BufTy).Contents (Elt F) → (⟨S8x512, .f32⟩ : BufTy).Contents (Elt F))
  (b1 : (⟨S_, .f32⟩ : BufTy).Contents (Elt F) → (⟨S8x512, .f32⟩ : BufTy).Contents (Elt F))
  (mx : (⟨S8x512, .f32⟩ : BufTy).Contents (Elt F) → (⟨S8x512, .f32⟩ : BufTy).Contents (Elt F) → (⟨S8x512, .f32⟩ : BufTy).Contents (Elt F))
  (b2 b2' : (⟨S8x512, .f32⟩ : BufTy).Contents (Elt F) → (⟨S8x512x1, .f32⟩ : BufTy).Contents (Elt F))
  (b3 b3' : (⟨S8x512x1, .f32⟩ : BufTy).Contents (Elt F) → (⟨S8x512x32000, .f32⟩ : BufTy).Contents (Elt F))
  (sb sb' : (⟨S8x512x32000, .f32⟩ : BufTy).Contents (Elt F) → (⟨S8x512x32000, .f32⟩ : BufTy).Contents (Elt F) → (⟨S8x512x32000, .f32⟩ : BufTy).Contents (Elt F))
  (ex : (⟨S8x512x32000, .f32⟩ : BufTy).Contents (Elt F) → (⟨S8x512x32000, .f32⟩ : BufTy).Contents (Elt F))
  (g2 : (⟨S8x512x32000, .f32⟩ : BufTy).Contents (Elt F) → (⟨S_, .f32⟩ : BufTy).Contents (Elt F) → (⟨S8x512, .f32⟩ : BufTy).Contents (Elt F))
  (lg : (⟨S8x512x1, .f32⟩ : BufTy).Contents (Elt F) → (⟨S8x512x1, .f32⟩ : BufTy).Contents (Elt F))

set_option maxRecDepth 65536 in
theorem softmax_chain (V : Valuation τ sig (Elt F)) :
    after
      [ TRef.nullary main_call0.cst c0,
        TRef.binary (.of main_v3 : TRef sig ⟨S8x512x32000, .f32⟩) main_call0.cst main_call0.v0 g1,
        TRef.nullary main_call0.cst_0 c1,
        TRef.unary main_call0.cst_0 main_call0.v1 b1,
        TRef.binary main_call0.v1 main_call0.v0 main_call0.v2 mx,
        TRef.unary main_call0.v2 main_call0.v3 b2,
        TRef.unary main_call0.v3 main_call0.v4 b3,
        TRef.binary (.of main_v3 : TRef sig ⟨S8x512x32000, .f32⟩) main_call0.v4 main_call0.v5 sb,
        TRef.unary main_call0.v5 main_call0.v6 ex,
        TRef.nullary main_call0.cst_1 c2,
        TRef.binary main_call0.v6 main_call0.cst_1 main_call0.v7 g2,
        TRef.unary main_call0.v7 main_call0.v8 b2',
        TRef.unary main_call0.v8 main_call0.v9 lg,
        TRef.unary main_call0.v9 main_call0.v10 b3',
        TRef.binary main_call0.v5 main_call0.v10 main_call0.v11 sb' ] V (main_v4 : DevRef τ sig)
      = sb' (sb (V (main_v3 : DevRef τ sig)) (b3 (b2 (mx (b1 c1) (g1 (V (main_v3 : DevRef τ sig)) c0)))))
          (b3' (lg (b2' (g2 (ex (sb (V (main_v3 : DevRef τ sig)) (b3 (b2 (mx (b1 c1) (g1 (V (main_v3 : DevRef τ sig)) c0)))))) c2)))) := by
  after_results_simp
  rfl
end Abs

set_option maxRecDepth 65536 in
/-- After the log-softmax's operations its result buffer holds the log-softmax of the logits' buffer. -/
theorem segSoftmax_val (V : Valuation τ sig (Elt F)) :
    after segSoftmax V (main_v4 : DevRef τ sig) = logSoftmax (V (main_v3 : DevRef τ sig)) := by
  unfold logSoftmax logNorm shifted rowMax
  exact softmax_chain (constant S_ .f32 0xFF800000#32) (constant S_ .f32 0xFF800000#32) (constant S_ .f32 0x00000000#32)
    (fun x v => Host.reduce FloatOps.maximumf x v reducesTo_S8x512x32000_S8x512_d2 h_S_)
    (broadcastInDim S8x512 ![] bcast_S_S8x512) maximumf
    (broadcastInDim S8x512x1 ![0, 1] bcast_S8x512_S8x512x1_0_1) (broadcastInDim S8x512x1 ![0, 1] bcast_S8x512_S8x512x1_0_1)
    (broadcastInDim S8x512x32000 ![0, 1, 2] bcast_S8x512x1_S8x512x32000_0_1_2) (broadcastInDim S8x512x32000 ![0, 1, 2] bcast_S8x512x1_S8x512x32000_0_1_2)
    subf subf Host.exp (fun x v => Host.reduceAdd x v reducesTo_S8x512x32000_S8x512_d2 h_S_) Host.log V

set_option maxRecDepth 8192 in
/-- The log-softmax's operations do not write the target words. -/
theorem segSoftmax_arg2 (V : Valuation τ sig (Elt F)) : after segSoftmax V (main_arg2 : DevRef τ sig) = V (main_arg2 : DevRef τ sig) := by
  after_results_simp

/-! ## The target words -/

theorem segWords_val (V : Valuation τ sig (Elt F)) :
    after segWords V (main_v5 : DevRef τ sig) = broadcastInDim S8x512x1 ![0, 1] bcast_S8x512_S8x512x1_0_1 (V (main_arg2 : DevRef τ sig)) := by
  after_results_simp

theorem segWords_v4 (V : Valuation τ sig (Elt F)) : after segWords V (main_v4 : DevRef τ sig) = V (main_v4 : DevRef τ sig) := by
  after_results_simp

/-! ## The gather's run -/

section AbsTake
variable (k0 k1 k3 : (⟨S_, .i32⟩ : BufTy).Contents (Elt F)) (k2 : (⟨S1, .i32⟩ : BufTy).Contents (Elt F)) (k4 : (⟨S_, .i1⟩ : BufTy).Contents (Elt F)) (k5 : (⟨S_, .f32⟩ : BufTy).Contents (Elt F))
  (bz bz2 : (⟨S_, .i32⟩ : BufTy).Contents (Elt F) → (⟨S8x512x1, .i32⟩ : BufTy).Contents (Elt F))
  (lt : (⟨S8x512x1, .i32⟩ : BufTy).Contents (Elt F) → (⟨S8x512x1, .i32⟩ : BufTy).Contents (Elt F) → (⟨S8x512x1, .i1⟩ : BufTy).Contents (Elt F))
  (ad : (⟨S8x512x1, .i32⟩ : BufTy).Contents (Elt F) → (⟨S8x512x1, .i32⟩ : BufTy).Contents (Elt F) → (⟨S8x512x1, .i32⟩ : BufTy).Contents (Elt F))
  (sel : (⟨S8x512x1, .i1⟩ : BufTy).Contents (Elt F) → (⟨S8x512x1, .i32⟩ : BufTy).Contents (Elt F) → (⟨S8x512x1, .i32⟩ : BufTy).Contents (Elt F) → (⟨S8x512x1, .i32⟩ : BufTy).Contents (Elt F))
  (bw : (⟨S_, .i32⟩ : BufTy).Contents (Elt F) → (⟨S8x512x1x1, .i32⟩ : BufTy).Contents (Elt F))
  (ge le : (⟨S8x512x1x1, .i32⟩ : BufTy).Contents (Elt F) → (⟨S8x512x1x1, .i32⟩ : BufTy).Contents (Elt F) → (⟨S8x512x1x1, .i1⟩ : BufTy).Contents (Elt F))
  (bq : (⟨S1, .i32⟩ : BufTy).Contents (Elt F) → (⟨S1x1x1x1, .i32⟩ : BufTy).Contents (Elt F))
  (br : (⟨S1x1x1x1, .i32⟩ : BufTy).Contents (Elt F) → (⟨S8x512x1x1, .i32⟩ : BufTy).Contents (Elt F))
  (an : (⟨S8x512x1x1, .i1⟩ : BufTy).Contents (Elt F) → (⟨S8x512x1x1, .i1⟩ : BufTy).Contents (Elt F) → (⟨S8x512x1x1, .i1⟩ : BufTy).Contents (Elt F))
  (rd : (⟨S8x512x1x1, .i1⟩ : BufTy).Contents (Elt F) → (⟨S_, .i1⟩ : BufTy).Contents (Elt F) → (⟨S8x512x1, .i1⟩ : BufTy).Contents (Elt F))
  (ga : (⟨S8x512x32000, .f32⟩ : BufTy).Contents (Elt F) → (⟨S8x512x1x1, .i32⟩ : BufTy).Contents (Elt F) → (⟨S8x512x1, .f32⟩ : BufTy).Contents (Elt F))
  (bf : (⟨S_, .f32⟩ : BufTy).Contents (Elt F) → (⟨S8x512x1, .f32⟩ : BufTy).Contents (Elt F))
  (sl : (⟨S8x512x1, .i1⟩ : BufTy).Contents (Elt F) → (⟨S8x512x1, .f32⟩ : BufTy).Contents (Elt F) → (⟨S8x512x1, .f32⟩ : BufTy).Contents (Elt F) → (⟨S8x512x1, .f32⟩ : BufTy).Contents (Elt F))

set_option maxRecDepth 65536 in
/-- The gather's twenty-two operations over any functions: the result buffer holds the last select of the reduced
    bounds mask, the gathered entries at the reshaped wrapped indices, and the fill. -/
theorem take_chain (V : Valuation τ sig (Elt F)) :
    after
      [ TRef.nullary main_call1.c k0,
        TRef.unary main_call1.c main_call1.v0 bz,
        TRef.binary (.of main_v5 : TRef sig ⟨S8x512x1, .i32⟩) main_call1.v0 main_call1.v1 lt,
        TRef.nullary main_call1.c_0 k1,
        TRef.unary main_call1.c_0 main_call1.v2 bz2,
        TRef.binary (.of main_v5 : TRef sig ⟨S8x512x1, .i32⟩) main_call1.v2 main_call1.v3 ad,
        TRef.ternary main_call1.v1 main_call1.v3 (.of main_v5 : TRef sig ⟨S8x512x1, .i32⟩) main_call1.v4 sel,
        TRef.reshape main_call1.v4 main_call1.v5 rfl shapeCasts_S8x512x1_S8x512x1x1,
        TRef.nullary main_call1.c_1 k2,
        TRef.nullary main_call1.c_2 k3,
        TRef.unary main_call1.c_2 main_call1.v6 bw,
        TRef.binary main_call1.v5 main_call1.v6 main_call1.v7 ge,
        TRef.unary main_call1.c_1 main_call1.v8 bq,
        TRef.unary main_call1.v8 main_call1.v9 br,
        TRef.binary main_call1.v5 main_call1.v9 main_call1.v10 le,
        TRef.binary main_call1.v7 main_call1.v10 main_call1.v11 an,
        TRef.nullary main_call1.c_3 k4,
        TRef.binary main_call1.v11 main_call1.c_3 main_call1.v12 rd,
        TRef.binary (.of main_v4 : TRef sig ⟨S8x512x32000, .f32⟩) main_call1.v5 main_call1.v13 ga,
        TRef.nullary main_call1.cst k5,
        TRef.unary main_call1.cst main_call1.v14 bf,
        TRef.ternary main_call1.v12 main_call1.v13 main_call1.v14 main_call1.v15 sl ] V (main_v6 : DevRef τ sig)
      = sl (rd (an (ge (shapeCast S8x512x1x1 (sel (lt (V (main_v5 : DevRef τ sig)) (bz k0)) (ad (V (main_v5 : DevRef τ sig)) (bz2 k1)) (V (main_v5 : DevRef τ sig))) shapeCasts_S8x512x1_S8x512x1x1) (bw k3))
                   (le (shapeCast S8x512x1x1 (sel (lt (V (main_v5 : DevRef τ sig)) (bz k0)) (ad (V (main_v5 : DevRef τ sig)) (bz2 k1)) (V (main_v5 : DevRef τ sig))) shapeCasts_S8x512x1_S8x512x1x1) (br (bq k2)))) k4)
          (ga (V (main_v4 : DevRef τ sig)) (shapeCast S8x512x1x1 (sel (lt (V (main_v5 : DevRef τ sig)) (bz k0)) (ad (V (main_v5 : DevRef τ sig)) (bz2 k1)) (V (main_v5 : DevRef τ sig))) shapeCasts_S8x512x1_S8x512x1x1))
          (bf k5) := by
  after_results_simp
  rfl
end AbsTake

set_option maxRecDepth 65536 in
/-- After the gather's operations its result buffer holds the entries of the first operand at the wrapped, masked indices. -/
theorem segTake_val (V : Valuation τ sig (Elt F)) :
    after segTake V (main_v6 : DevRef τ sig) = takeAlong (V (main_v4 : DevRef τ sig)) (V (main_v5 : DevRef τ sig)) := by
  unfold takeAlong inBounds wrapIdx
  exact take_chain (constantI S_ 32 0#32) (constantI S_ 32 32000#32) (constantI S_ 32 0#32) (constantI S1 32 31999#32)
    (constantI S_ 1 1#1) (constant S_ .f32 0x7FC00000#32)
    (broadcastInDim S8x512x1 ![] bcast_S_S8x512x1) (broadcastInDim S8x512x1 ![] bcast_S_S8x512x1)
    (cmpi .slt) addi select
    (broadcastInDim S8x512x1x1 ![] bcast_S_S8x512x1x1) (cmpi .sge) (cmpi .sle)
    (broadcastInDim S1x1x1x1 ![3] bcast_S1_S1x1x1x1_3)
    (broadcastInDim S8x512x1x1 ![0, 1, 2, 3] bcast_S1x1x1x1_S8x512x1x1_0_1_2_3)
    andi (fun x v => Host.reduce IntOp.andi x v reducesTo_S8x512x1x1_S8x512x1_d3 h_S_)
    (fun x i => Host.gather gather_S8x512x32000_S8x512x1x1_S8x512x1_n_2_01_01_2_3_111 x i)
    (broadcastInDim S8x512x1 ![] bcast_S_S8x512x1) select V

/-! ## The reshape, and the stretch whole -/

theorem segShape_val (V : Valuation τ sig (Elt F)) :
    after segShape V (main_v7 : DevRef τ sig) = shapeCast S8x512 (V (main_v6 : DevRef τ sig)) shapeCasts_S8x512x1_S8x512 := by
  after_results_simp
  rfl

/-- After the first stretch the per-token buffer holds the per-token array of the arguments. -/
theorem tok_eq (V : Valuation τ sig (Elt F)) :
    after opsTok V (main_v7 : DevRef τ sig)
      = tokArr (V (main_arg0 : DevRef τ sig)) (V (main_arg1 : DevRef τ sig)) (V (main_arg2 : DevRef τ sig)) (V (main_arg3 : DevRef τ sig)) := by
  rw [opsTok_eq, after_append', after_append', after_append', after_append', segShape_val, segTake_val, segWords_val,
    segWords_v4, segSoftmax_val, segSoftmax_arg2, segLogits_val, segLogits_arg2]
  rfl

set_option maxRecDepth 8192 in
set_option maxHeartbeats 4000000 in
/-- The first stretch writes no argument. -/
theorem tok_args (V : Valuation τ sig (Elt F)) :
    after opsTok V (main_arg0 : DevRef τ sig) = V (main_arg0 : DevRef τ sig)
    ∧ after opsTok V (main_arg1 : DevRef τ sig) = V (main_arg1 : DevRef τ sig)
    ∧ after opsTok V (main_arg2 : DevRef τ sig) = V (main_arg2 : DevRef τ sig)
    ∧ after opsTok V (main_arg3 : DevRef τ sig) = V (main_arg3 : DevRef τ sig) := by
  refine ⟨?_, ?_, ?_, ?_⟩ <;> after_results_simp

end Cert.ReferenceIdeal.Hand

end
-- ==== Proof.RefRunLoss.lean ====
/-
  The second stretch of the reference's line, read as one function: whatever the buffers hold once the per-token
  array is written (a valuation `W`), the 77 later operations leave in the result buffer the loss
  `Cert.Tail.lossTail` of the per-token buffer and of the target words, and write no argument.
-/
import proofs.«416803_j17583596109825_2_alg».proof.Proof.RefOps
import proofs.«416803_j17583596109825_2_alg».proof.Proof.Tail
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The loss from the per-token array and the target words: the shared chain at this program's shape facts. -/
abbrev lossOf (tok : FVec F S8x512 .f32) (tgt : IVec S8x512 32) : FVec F S_ .f32 :=
  Cert.Tail.lossTail (F := F) bcast_S_S8x512 reducesTo_S8x512_S8_d1 h_S_ slices_S8_S4_0 slices_S8_S4_4
    slices_S8x512_S4x512_0_0 reducesTo_S4x512_S_d0_1 bcast_S_S4 reducesTo_S4_S_d0 tok tgt

set_option maxRecDepth 8192 in
set_option maxHeartbeats 4000000 in
/-- After the second stretch the result buffer holds the loss of the per-token buffer and the target words. -/
theorem loss_eq (W : Valuation τ sig (Elt F)) :
    after opsLoss W (main_v42 : DevRef τ sig) = lossOf (W (main_v7 : DevRef τ sig)) (W (main_arg2 : DevRef τ sig)) := by
  after_results_simp
  rfl

set_option maxRecDepth 8192 in
set_option maxHeartbeats 4000000 in
/-- The second stretch writes no argument. -/
theorem loss_args (W : Valuation τ sig (Elt F)) :
    after opsLoss W (main_arg0 : DevRef τ sig) = W (main_arg0 : DevRef τ sig)
    ∧ after opsLoss W (main_arg1 : DevRef τ sig) = W (main_arg1 : DevRef τ sig)
    ∧ after opsLoss W (main_arg2 : DevRef τ sig) = W (main_arg2 : DevRef τ sig)
    ∧ after opsLoss W (main_arg3 : DevRef τ sig) = W (main_arg3 : DevRef τ sig) := by
  refine ⟨?_, ?_, ?_, ?_⟩ <;> after_results_simp

end Cert.ReferenceIdeal.Hand

end
-- ==== Proof.RefRun.lean ====
/-
  The reference's run. @main is a straight line of 120 host operations in two stretches; after the first the
  per-token buffer holds the per-token array of the four argument arrays, after the second the result buffer holds
  the loss of that buffer and of the target words, and neither writes an argument. So every weakly fair execution of
  @main terminates with the result buffer at the loss of the arguments' per-token array and the target words, and the
  argument arrays unchanged.
-/
import proofs.«416803_j17583596109825_2_alg».proof.Proof.RefOps
import proofs.«416803_j17583596109825_2_alg».proof.Proof.RefTokDef
import proofs.«416803_j17583596109825_2_alg».proof.Proof.RefRunTok
import proofs.«416803_j17583596109825_2_alg».proof.Proof.RefRunLoss
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- After the whole line the result buffer holds the loss of the arguments' per-token array and the target words. -/
theorem out_eq (V : Valuation τ sig (Elt F)) :
    after ops V (main_v42 : DevRef τ sig)
      = lossOf (tokArr (V (main_arg0 : DevRef τ sig)) (V (main_arg1 : DevRef τ sig)) (V (main_arg2 : DevRef τ sig)) (V (main_arg3 : DevRef τ sig)))
          (V (main_arg2 : DevRef τ sig)) := by
  show after (opsTok ++ opsLoss) V _ = _
  rw [after_append', loss_eq, tok_eq, (tok_args V).2.2.1]

/-- The line writes no argument. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig) := by
  have hl := loss_args (after opsTok V)
  have ht := tok_args V
  refine ⟨?_, ?_, ?_, ?_⟩ <;> (show after (opsTok ++ opsLoss) V _ = _) <;> rw [after_append']
  · exact hl.1.trans ht.1
  · exact hl.2.1.trans ht.2.1
  · exact hl.2.2.1.trans ht.2.2.1
  · exact hl.2.2.2.trans ht.2.2.2

/-- On every device, for any float values, from any memory with zero counters: every weakly fair execution of
    @main terminates with the result at the loss of the arguments' per-token array and the target words, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
        = lossOf (tokArr (m ((c.tc : Thread nD τ).loc main_arg0)) (m ((c.tc : Thread nD τ).loc main_arg1))
            (m ((c.tc : Thread nD τ).loc main_arg2)) (m ((c.tc : Thread nD τ).loc main_arg3)))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v42).trans (out_eq (launchContents m c)),
       (h c main_arg0).trans (args_eq (launchContents m c)).1,
       (h c main_arg1).trans (args_eq (launchContents m c)).2.1,
       (h c main_arg2).trans (args_eq (launchContents m c)).2.2.1,
       (h c main_arg3).trans (args_eq (launchContents m c)).2.2.2⟩)
    (run_seq scopedRefs_eq scopedSems_eq defs main (fun _ => ops) main_eq (fun _ => ops_sub) m ρ)

end Cert.ReferenceIdeal.Hand

end
-- ==== Proof.RefTok.lean ====
/-
  The reference's per-token array, read at a token: the log-softmax of the token's logits at its target column.

  At token (b, t) the logits are the row of the input against each row of the weights plus the bias; the largest
  logit from −∞ is the supremum over the 32000 columns; the normaliser is the sum of the shifted exponentials from 0;
  a target word naming a column j is non-negative, so it is not wrapped, lies in 0 … 31999, and the gather reads
  column j, which the final choice keeps. So the entry is (s j − M) − log Σ_v exp (s v − M).
-/
import proofs.«416803_j17583596109825_2_alg».proof.Proof.RefTokDef
import proofs.«416803_j17583596109825_2_alg».proof.Proof.Glue
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce
import Idealize.ShloMosaic.Lib.StableHlo.Predicate
import Idealize.ShloMosaic.Lib.Affine

noncomputable section

namespace Cert.ReferenceIdeal.Hand

open Cert.ReferenceIdeal Cert.ReferenceIdeal.Gen Idealize.ShloMosaic Idealize.ShloMosaic.ValueIdx

/-! ### The logits at a token and a column -/

/-- The dot's record, by its printed name. -/
abbrev dotRec : DotDims S8x512x2048 S32000x2048 S8x512x32000 := dot_S8x512x2048_S32000x2048_S8x512x32000_2_1_01_0_n_n

theorem dot_lhs (b : Fin 8) (t : Fin 512) (v : Fin 32000) (h : Fin 2048) :
    dotRec.lhsIdx (ix3 b t v) ((contrEquiv1 dotRec 2048 rfl rfl).symm h) = ix3 b t h := by
  have c := contrEquiv1_symm_val dotRec 2048 rfl rfl h
  funext ax; apply Fin.ext
  match ax with
  | ⟨0, _⟩ => simp [DotDims.lhsIdx, dotRec, dot_S8x512x2048_S32000x2048_S8x512x32000_2_1_01_0_n_n]; rfl
  | ⟨1, _⟩ => simp [DotDims.lhsIdx, dotRec, dot_S8x512x2048_S32000x2048_S8x512x32000_2_1_01_0_n_n]; rfl
  | ⟨2, _⟩ => simp [DotDims.lhsIdx, dotRec, dot_S8x512x2048_S32000x2048_S8x512x32000_2_1_01_0_n_n]; exact c

theorem dot_rhs (b : Fin 8) (t : Fin 512) (v : Fin 32000) (h : Fin 2048) :
    dotRec.rhsIdx (ix3 b t v) ((contrEquiv1 dotRec 2048 rfl rfl).symm h) = ix2 v h := by
  have c := contrEquiv1_symm_val dotRec 2048 rfl rfl h
  funext ax; apply Fin.ext
  match ax with
  | ⟨0, _⟩ => simp [DotDims.rhsIdx, dotRec, dot_S8x512x2048_S32000x2048_S8x512x32000_2_1_01_0_n_n]; rfl
  | ⟨1, _⟩ => simp [DotDims.rhsIdx, dotRec, dot_S8x512x2048_S32000x2048_S8x512x32000_2_1_01_0_n_n]; exact c

/-- The product of the input and the weights at token (b, t) and column v. -/
theorem dot_apply (a0 : FVec Ideal S32000x2048 .f32) (a1 : FVec Ideal S8x512x2048 .f32) (b : Fin 8) (t : Fin 512) (v : Fin 32000) :
    Host.dotGeneral dotRec none a1 a0 (ix3 b t v) = ∑ h : Fin 2048, a1 (ix3 b t h) * a0 (ix2 v h) := by
  show FloatOps.dotGeneral _ none _ a1 a0 (ix3 b t v) = _
  rw [Ideal.dotGeneral_apply, ← Equiv.sum_comp (contrEquiv1 dotRec 2048 rfl rfl).symm]
  refine Finset.sum_congr rfl fun h _ => ?_
  rw [dot_lhs, dot_rhs]

/-- The bias laid over the tokens reads the bias of the column. -/
theorem bias_apply (a3 : FVec Ideal S32000 .f32) (b : Fin 8) (t : Fin 512) (v : Fin 32000) :
    broadcastInDim S8x512x32000 ![0, 1, 2] bcast_S1x1x32000_S8x512x32000_0_1_2
      (broadcastInDim S1x1x32000 ![2] bcast_S32000_S1x1x32000_2 a3) (ix3 b t v) = a3 (ix1 v) := by
  rw [broadcastInDim_apply _ _ _ _ (ix3 (0 : Fin 1) (0 : Fin 1) v) (by
    intro a; match a with
    | ⟨0, _⟩ => rfl
    | ⟨1, _⟩ => rfl
    | ⟨2, _⟩ => rfl)]
  rw [broadcastInDim_apply _ _ _ _ (ix1 v) (by
    intro a; match a with
    | ⟨0, _⟩ => rfl)]

/-- The logits at token (b, t), column v. -/
theorem logits_apply (a0 : FVec Ideal S32000x2048 .f32) (a1 : FVec Ideal S8x512x2048 .f32) (a3 : FVec Ideal S32000 .f32)
    (b : Fin 8) (t : Fin 512) (v : Fin 32000) :
    logits a0 a1 a3 (ix3 b t v) = (∑ h : Fin 2048, a1 (ix3 b t h) * a0 (ix2 v h)) + a3 (ix1 v) := by
  show Host.dotGeneral dotRec none a1 a0 (ix3 b t v) + _ = _
  rw [dot_apply, bias_apply]

/-! ### Laying a per-token array over the vocabulary -/

section Lay
variable {α : Type}

/-- A per-token array with a unit axis appended reads the token's entry. -/
theorem lay1 (x : S8x512.Idx → α) (b : Fin 8) (t : Fin 512) :
    broadcastInDim S8x512x1 ![0, 1] bcast_S8x512_S8x512x1_0_1 x (ix3 b t (0 : Fin 1)) = x (ix2 b t) :=
  broadcastInDim_apply _ _ _ _ (ix2 b t) (by
    intro a; match a with
    | ⟨0, _⟩ => rfl
    | ⟨1, _⟩ => rfl)

/-- A per-token column laid over the vocabulary reads the token's entry at every column. -/
theorem lay2 (y : S8x512x1.Idx → α) (b : Fin 8) (t : Fin 512) (v : Fin 32000) :
    broadcastInDim S8x512x32000 ![0, 1, 2] bcast_S8x512x1_S8x512x32000_0_1_2 y (ix3 b t v) = y (ix3 b t (0 : Fin 1)) :=
  broadcastInDim_apply _ _ _ _ (ix3 b t (0 : Fin 1)) (by
    intro a; match a with
    | ⟨0, _⟩ => rfl
    | ⟨1, _⟩ => rfl
    | ⟨2, _⟩ => rfl)

end Lay

/-! ### The log-softmax at a token -/

/-- The f32 pattern 0xFF800000 is −∞. -/
theorem neg_inf_bits : Ideal.ofBits .f32 0xFF800000#32 = (⊥ : EReal) := by
  simp [Ideal.ofBits, Ideal.ieee]

/-- A fold of max from −∞ is the supremum. -/
theorem fold_max_bot {ι : Type} (S : Finset ι) (f : ι → EReal) : S.fold max ⊥ f = S.sup f := by
  classical
  induction S using Finset.induction_on with
  | empty => rfl
  | insert a S ha ih => rw [Finset.fold_insert ha, Finset.sup_insert, ih]

/-- The vocabulary axis dropped, as the relation that names the index with a column put back. -/
theorem red2 : S8x512x32000.Reduces [2] S8x512 := by decide

/-- Token (b, t) with column v put back is (b, t, v). -/
theorem lift2 (b : Fin 8) (t : Fin 512) (v : Fin 32000) : red2.lift (ix2 b t) v = ix3 b t v := by
  funext c; apply Fin.ext
  match c with
  | ⟨0, _⟩ => rfl
  | ⟨1, _⟩ => rfl
  | ⟨2, _⟩ => rfl

/-! ### The host's elementwise operations at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl

/-- A fold of the maximum from −∞ is the supremum. -/
theorem fold_maximumf_bot {ι : Type} (S : Finset ι) (f : ι → EReal) :
    S.fold (FloatOps.maximumf (F := Ideal) (φ := .f32)) ⊥ f = S.sup f := by
  classical
  induction S using Finset.induction_on with
  | empty => rfl
  | insert a S ha ih => rw [Finset.fold_insert ha, Finset.sup_insert, ih]; rfl

theorem sup_lift (s : FVec Ideal S8x512x32000 .f32) (b : Fin 8) (t : Fin 512) :
    Finset.univ.sup (s ∘ red2.lift (ix2 b t)) = Finset.univ.sup fun v : Fin 32000 => s (ix3 b t v) :=
  Finset.sup_congr rfl fun v _ => congrArg s (lift2 b t v)

/-- A token's largest logit is the supremum over the columns. -/
theorem rowMax_apply (s : FVec Ideal S8x512x32000 .f32) (b : Fin 8) (t : Fin 512) :
    rowMax s (ix2 b t) = Finset.univ.sup fun v : Fin 32000 => s (ix3 b t v) := by
  unfold rowMax
  rw [maximumf_apply, broadcastInDim_scalar_apply,
    Host.reduce_eq_fold_single FloatOps.maximumf s _ reducesTo_S8x512x32000_S8x512_d2 red2 h_S_,
    constant_apply, constant_apply, neg_inf_bits, max_bot_left, fold_maximumf_bot, sup_lift]

/-- The shifted logit at a token and a column. -/
theorem shifted_apply (s : FVec Ideal S8x512x32000 .f32) (b : Fin 8) (t : Fin 512) (v : Fin 32000) :
    shifted s (ix3 b t v) = s (ix3 b t v) - rowMax s (ix2 b t) := by
  unfold shifted
  rw [subf_apply, lay2, lay1]

theorem sum_lift (g : S8x512x32000.Idx → EReal) (b : Fin 8) (t : Fin 512) :
    ∑ k, g (red2.lift (ix2 b t) k) = ∑ v : Fin 32000, g (ix3 b t v) :=
  Finset.sum_congr rfl fun v _ => congrArg g (lift2 b t v)

/-- The logarithm of a token's normaliser. -/
theorem logNorm_apply (s : FVec Ideal S8x512x32000 .f32) (b : Fin 8) (t : Fin 512) :
    logNorm s (ix3 b t (0 : Fin 1)) = Ideal.log (∑ v : Fin 32000, Ideal.exp (shifted s (ix3 b t v))) := by
  unfold logNorm
  rw [hostLog_apply, lay1, hostReduceAdd_apply, Ideal.hostReduceAdd_single _ red2, constant_apply,
    Ideal.ofBits_zero_f32, zero_add, sum_lift (Host.exp (shifted s))]
  exact congrArg Ideal.log (Finset.sum_congr rfl fun v _ => hostExp_apply _ _)

/-- The log-softmax at a token and a column. -/
theorem logSoftmax_apply (s : FVec Ideal S8x512x32000 .f32) (b : Fin 8) (t : Fin 512) (v : Fin 32000) :
    logSoftmax s (ix3 b t v)
      = (s (ix3 b t v) - Finset.univ.sup fun u : Fin 32000 => s (ix3 b t u))
        - Ideal.log (∑ u : Fin 32000, Ideal.exp (s (ix3 b t u) - Finset.univ.sup fun u' : Fin 32000 => s (ix3 b t u'))) := by
  have e : ∀ u : Fin 32000, shifted s (ix3 b t u) = s (ix3 b t u) - Finset.univ.sup fun u' : Fin 32000 => s (ix3 b t u') :=
    fun u => by rw [shifted_apply, rowMax_apply]
  unfold logSoftmax
  rw [subf_apply, lay2, logNorm_apply, e v,
    Finset.sum_congr rfl (fun u _ => congrArg Ideal.exp (e u))]

/-! ### The target word: not wrapped, in bounds -/

theorem cmpi_apply' {s : Shape} {w : Nat} (p : CmpIPredicate) (x y : IVec s w) (i : s.Idx) :
    cmpi p x y i = IntOp.cmpi p (x i) (y i) := rfl
theorem addi_apply' {s : Shape} {w : Nat} (x y : IVec s w) (i : s.Idx) : addi x y i = IntOp.addi (x i) (y i) := rfl
theorem andi_apply' {s : Shape} {w : Nat} (x y : IVec s w) (i : s.Idx) : andi x y i = IntOp.andi (x i) (y i) := rfl
theorem constantI_apply' {s : Shape} {w : Nat} (c : BitVec w) (i : s.Idx) : constantI s w c i = c := rfl

/-- A word naming a column reads, signed, as the column's number. -/
theorem toInt_col (j : Fin 32000) : (BitVec.ofNat 32 j.val).toInt = (j.val : Int) :=
  StableHlo.Predicate.toInt_ofNat_small j.val (by have := j.isLt; omega)

/-- A word naming a column is not negative: the wrap leaves it. -/
theorem wrap_word (j : Fin 32000) :
    Scalar.select (IntOp.cmpi .slt (BitVec.ofNat 32 j.val) 0#32) (IntOp.addi (BitVec.ofNat 32 j.val) 32000#32)
      (BitVec.ofNat 32 j.val) = BitVec.ofNat 32 j.val := by
  have h : IntOp.cmpi .slt (BitVec.ofNat 32 j.val) 0#32 = 0#1 := eq_zero_of_ne_one (fun h => by
    rw [IntOp.cmpi_slt, toInt_col, show (0#32 : BitVec 32).toInt = 0 from by decide] at h
    omega)
  rw [h, select_zero]

/-- A word naming a column lies in 0 … 31999. -/
theorem bounds_word (j : Fin 32000) :
    IntOp.andi (IntOp.cmpi .sge (BitVec.ofNat 32 j.val) 0#32) (IntOp.cmpi .sle (BitVec.ofNat 32 j.val) 31999#32) = 1#1 := by
  rw [IntOp.andi_eq_one, IntOp.cmpi_sge, IntOp.cmpi_sle, toInt_col, show (0#32 : BitVec 32).toInt = 0 from by decide,
    show (31999#32 : BitVec 32).toInt = 31999 from by decide]
  have := j.isLt
  omega

/-- The start index of token (b, t) is its target word when that names a column. -/
theorem wrapIdx_apply (ix : IVec S8x512x1 32) (b : Fin 8) (t : Fin 512) (j : Fin 32000)
    (h : ix (ix3 b t (0 : Fin 1)) = BitVec.ofNat 32 j.val) :
    wrapIdx ix (ix4 b t (0 : Fin 1) (0 : Fin 1)) = BitVec.ofNat 32 j.val := by
  unfold wrapIdx
  rw [shapeCast_apply _ _ _ (ix3 b t (0 : Fin 1)) (by
      rw [Shape.rowMajor_val_three, Shape.rowMajor_val_four]
      show (b.val * 512 + t.val) * 1 + 0 = ((b.val * 512 + t.val) * 1 + 0) * 1 + 0
      omega),
    select_apply, cmpi_apply', addi_apply', broadcastInDim_scalar_apply, broadcastInDim_scalar_apply,
    constantI_apply', constantI_apply', h]
  exact wrap_word j

/-- The index-component axis dropped, as the relation that names the index with the component put back. -/
theorem red3 : S8x512x1x1.Reduces [3] S8x512x1 := by decide

theorem lift3 (b : Fin 8) (t : Fin 512) (k : Fin 1) : red3.lift (ix3 b t (0 : Fin 1)) k = ix4 b t (0 : Fin 1) (0 : Fin 1) := by
  obtain rfl : k = 0 := Subsingleton.elim _ _
  funext c; apply Fin.ext
  match c with
  | ⟨0, _⟩ => rfl
  | ⟨1, _⟩ => rfl
  | ⟨2, _⟩ => rfl
  | ⟨3, _⟩ => rfl

/-- A conjunction of ones from one is one. -/
theorem fold_andi_one {ι : Type} (S : Finset ι) (f : ι → BitVec 1) (h : ∀ k, f k = 1#1) :
    S.fold IntOp.andi 1#1 f = 1#1 := by
  classical
  induction S using Finset.induction_on with
  | empty => rfl
  | insert a S ha ih => rw [Finset.fold_insert ha, ih, h a]; rfl

/-- The upper bound of the index, laid over the tokens, is 31999 everywhere. -/
theorem hi_apply (i : S8x512x1x1.Idx) :
    broadcastInDim S8x512x1x1 ![0, 1, 2, 3] bcast_S1x1x1x1_S8x512x1x1_0_1_2_3
      (broadcastInDim S1x1x1x1 ![3] bcast_S1_S1x1x1x1_3 (constantI S1 32 31999#32)) i = 31999#32 := rfl

/-- The start index of token (b, t) is in bounds when it names a column. -/
theorem inBounds_apply (w : IVec S8x512x1x1 32) (b : Fin 8) (t : Fin 512) (j : Fin 32000)
    (h : w (ix4 b t (0 : Fin 1) (0 : Fin 1)) = BitVec.ofNat 32 j.val) :
    inBounds w (ix3 b t (0 : Fin 1)) = 1#1 := by
  unfold inBounds
  rw [Host.reduce_eq_fold_single IntOp.andi _ _ reducesTo_S8x512x1x1_S8x512x1_d3 red3 h_S_, constantI_apply']
  refine fold_andi_one _ _ fun k => ?_
  have e : red3.lift (ix3 b t (0 : Fin 1)) k = ix4 b t (0 : Fin 1) (0 : Fin 1) := lift3 b t k
  rw [Function.comp_apply, e, andi_apply', cmpi_apply', cmpi_apply', broadcastInDim_scalar_apply, constantI_apply',
    hi_apply, h]
  exact bounds_word j

/-! ### The gather reads the target column -/

/-- The gather's record, by its printed name. -/
abbrev gRec : GatherDims S8x512x32000 S8x512x1x1 S8x512x1 := gather_S8x512x32000_S8x512x1x1_S8x512x1_n_2_01_01_2_3_111

theorem g_axis0 (w : IVec S8x512x1x1 32) (b : Fin 8) (t : Fin 512) :
    (gRec.operandIdx (ix3 b t (0 : Fin 1)) w (0 : Fin 3)).val = b.val := by
  show gRec.start (ix3 b t (0 : Fin 1)) w (0 : Fin 3) + gRec.batchCoord (ix3 b t (0 : Fin 1)) (0 : Fin 3)
      + gRec.offCoord (ix3 b t (0 : Fin 1)) (0 : Fin 3) = b.val
  rw [GatherDims.start_batching _ _ _ _ (show (0 : Fin 3) ∈ gRec.operandBatchingDims from by decide),
    GatherDims.offCoord_eq_zero _ _ _ (show (0 : Fin 3) ∉ gRec.sKept from by decide), Nat.zero_add, Nat.add_zero]
  unfold GatherDims.batchCoord
  rw [dif_pos (show (0 : Fin 3) ∈ gRec.operandBatchingDims from by decide)]
  rfl

theorem g_axis1 (w : IVec S8x512x1x1 32) (b : Fin 8) (t : Fin 512) :
    (gRec.operandIdx (ix3 b t (0 : Fin 1)) w (1 : Fin 3)).val = t.val := by
  show gRec.start (ix3 b t (0 : Fin 1)) w (1 : Fin 3) + gRec.batchCoord (ix3 b t (0 : Fin 1)) (1 : Fin 3)
      + gRec.offCoord (ix3 b t (0 : Fin 1)) (1 : Fin 3) = t.val
  rw [GatherDims.start_batching _ _ _ _ (show (1 : Fin 3) ∈ gRec.operandBatchingDims from by decide),
    GatherDims.offCoord_eq_zero _ _ _ (show (1 : Fin 3) ∉ gRec.sKept from by decide), Nat.zero_add, Nat.add_zero]
  unfold GatherDims.batchCoord
  rw [dif_pos (show (1 : Fin 3) ∈ gRec.operandBatchingDims from by decide)]
  rfl

theorem g_axis2 (w : IVec S8x512x1x1 32) (b : Fin 8) (t : Fin 512) (j : Fin 32000)
    (h : w (ix4 b t (0 : Fin 1) (0 : Fin 1)) = BitVec.ofNat 32 j.val) :
    (gRec.operandIdx (ix3 b t (0 : Fin 1)) w (2 : Fin 3)).val = j.val := by
  show gRec.start (ix3 b t (0 : Fin 1)) w (2 : Fin 3) + gRec.batchCoord (ix3 b t (0 : Fin 1)) (2 : Fin 3)
      + gRec.offCoord (ix3 b t (0 : Fin 1)) (2 : Fin 3) = j.val
  rw [GatherDims.batchCoord_eq_zero _ _ _ (show (2 : Fin 3) ∉ gRec.operandBatchingDims from by decide),
    GatherDims.offCoord_eq_zero _ _ _ (show (2 : Fin 3) ∉ gRec.sKept from by decide), Nat.add_zero]
  unfold GatherDims.start
  rw [dif_pos (show (2 : Fin 3) ∈ gRec.startIndexMap from by decide)]
  have hsi : gRec.siIdx (ix3 b t (0 : Fin 1)) ⟨List.idxOf (2 : Fin 3) gRec.startIndexMap,
      List.idxOf_lt_length_iff.2 (show (2 : Fin 3) ∈ gRec.startIndexMap from by decide)⟩
        = ix4 b t (0 : Fin 1) (0 : Fin 1) := by
    funext c; refine Fin.ext ?_
    match c with
    | ⟨0, _⟩ => rfl
    | ⟨1, _⟩ => rfl
    | ⟨2, _⟩ => rfl
    | ⟨3, _⟩ => rfl
  rw [hsi, h, toInt_col]
  show min (j.val : Int).toNat (32000 - 1) = j.val
  have := j.isLt
  rw [Int.toNat_natCast]
  omega

/-- The operand index the gather reads at token (b, t) is (b, t, j). -/
theorem gather_idx (w : IVec S8x512x1x1 32) (b : Fin 8) (t : Fin 512) (j : Fin 32000)
    (h : w (ix4 b t (0 : Fin 1) (0 : Fin 1)) = BitVec.ofNat 32 j.val) :
    gRec.operandIdx (ix3 b t (0 : Fin 1)) w = ix3 b t j := by
  funext a; apply Fin.ext
  match a with
  | ⟨0, _⟩ => exact g_axis0 w b t
  | ⟨1, _⟩ => exact g_axis1 w b t
  | ⟨2, _⟩ => exact g_axis2 w b t j h

/-- The entry of token (b, t)'s row at its target column. -/
theorem takeAlong_apply (lp : FVec Ideal S8x512x32000 .f32) (ix : IVec S8x512x1 32) (b : Fin 8) (t : Fin 512) (j : Fin 32000)
    (h : ix (ix3 b t (0 : Fin 1)) = BitVec.ofNat 32 j.val) :
    takeAlong lp ix (ix3 b t (0 : Fin 1)) = lp (ix3 b t j) := by
  have hw := wrapIdx_apply ix b t j h
  unfold takeAlong
  rw [select_apply, inBounds_apply _ b t j hw, select_one]
  unfold Host.gather
  exact congrArg lp (gather_idx _ b t j hw)

/-! ### The per-token array at a token -/

/-- The log-softmax at a token and a column is the row form's value at that column. -/
theorem logSoftmax_tokRef (s : FVec Ideal S8x512x32000 .f32) (b : Fin 8) (t : Fin 512) (v : Fin 32000) :
    logSoftmax s (ix3 b t v) = Cert.Spec.tokRef (fun u : Fin 32000 => s (ix3 b t u)) v := by
  rw [logSoftmax_apply, Cert.Spec.tokRef]

/-- The logits of token (b, t) are the row form's logits of row 512·b + t. -/
theorem logits_row (a0 : FVec Ideal S32000x2048 .f32) (a1 : FVec Ideal S8x512x2048 .f32) (a3 : FVec Ideal S32000 .f32)
    (b : Fin 8) (t : Fin 512) :
    (fun u : Fin 32000 => logits a0 a1 a3 (ix3 b t u)) = Cert.Glue.rowLogit a0 a1 a3 (Cert.Glue.rowOf b t) := by
  funext u
  rw [logits_apply, Cert.Glue.rowLogit, Cert.Spec.logit]
  simp only [Cert.Glue.Xof_rowOf, Cert.Glue.Wof, Cert.Glue.Bof]

/-- The per-token array at token (b, t) whose target word names column j is the reference's row value at j. -/
theorem tokArr_apply (a0 : FVec Ideal S32000x2048 .f32) (a1 : FVec Ideal S8x512x2048 .f32) (a2 : IVec S8x512 32)
    (a3 : FVec Ideal S32000 .f32) (b : Fin 8) (t : Fin 512) (j : Fin 32000) (hj : a2 (ix2 b t) = BitVec.ofNat 32 j.val) :
    tokArr (F := Ideal) a0 a1 a2 a3 (ix2 b t)
      = Cert.Spec.tokRef (Cert.Glue.rowLogit a0 a1 a3 (Cert.Glue.rowOf b t)) j := by
  unfold tokArr
  rw [shapeCast_apply _ _ _ (ix3 b t (0 : Fin 1)) (by
      rw [Shape.rowMajor_val_three, Shape.rowMajor_val_two]
      show (b.val * 512 + t.val) * 1 + 0 = b.val * 512 + t.val
      omega),
    takeAlong_apply _ _ b t j (by rw [lay1]; exact hj), logSoftmax_tokRef, logits_row]

end Cert.ReferenceIdeal.Hand

end
-- ==== Proof.lean ====
/-
  A fused linear layer with a streaming log-softmax against its plain reference, as equal functions of the inputs over
  the extended reals.

  Both programs compute, for each of the 8 × 512 tokens, the log-probability of its target column,
  logit[target] − (M + log Σ_v exp (logit[v] − M)) with logit[v] = Σ_h x[h]·w[v,h] + bias[v] and M the row's largest
  logit, and then the same scalar loss of those 4096 numbers and the target words (`Cert.Tail.lossTail`).
  The reference takes the whole row at once (a row maximum, a row sum, a gather at the target column).  The kernel
  walks the row in 25 chunks of 1280 columns and keeps a running maximum, a running normaliser rescaled by
  exp (old maximum − new maximum) whenever the maximum moves, and a running target logit Σ [target = v]·logit[v];
  after the last chunk it returns target logit − (maximum + log normaliser).  For finite inputs every logit is a real
  number, the rescaled sums are the sums at the final maximum, the row sum is at least exp 0 > 0, and for a target
  inside the row exactly one column matches: the two numbers are equal (`Cert.Glue.row_bridge`).
  The target must lie inside the row: a negative target wraps in the reference's gather and matches no column in the
  kernel, and a target past the row's end is filled, not read; the statement's precondition says 0 ≤ target < 32000.

  The three frames: each kernel's grid point runs on whole staging buffers and three carried accumulators, in three
  cases (a tile's first chunk resets them, its last chunk stores the output block), and the lines after the region
  write only their own result buffers; the reference is a straight line of host operations.
-/
import proofs.«416803_j17583596109825_2_alg».proof.Defs
import proofs.«416803_j17583596109825_2_alg».proof.Proof.Gen.Kernel
import proofs.«416803_j17583596109825_2_alg».proof.Proof.Gen.KernelIdeal
import proofs.«416803_j17583596109825_2_alg».proof.Proof.Gen.ReferenceIdeal
import proofs.«416803_j17583596109825_2_alg».proof.Proof.Gen.Pre_finite_inputs
import proofs.«416803_j17583596109825_2_alg».proof.Proof.KbFrame
import proofs.«416803_j17583596109825_2_alg».proof.Proof.KiResult
import proofs.«416803_j17583596109825_2_alg».proof.Proof.KiOut
import proofs.«416803_j17583596109825_2_alg».proof.Proof.RefRun
import proofs.«416803_j17583596109825_2_alg».proof.Proof.RefTok
import proofs.«416803_j17583596109825_2_alg».proof.Proof.Glue

noncomputable section

namespace Cert.Proof

open Idealize.ShloMosaic Idealize.ShloMosaic.ValueIdx Idealize.SL.Sem

/-- The word-level kernel runs to the end and leaves its four arguments as they were. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Hand.run m ρ)

/-- Token by token, the kernel's re-laid output array is the reference's per-token array: streaming over the chunks
    returns the row's log-probability at the target column, for finite inputs and targets inside the row. -/
theorem tokens_eq (m : (ℓ : Loc Cert.KernelIdeal.nD Cert.KernelIdeal.τ Cert.KernelIdeal.sig) → Buf (Elt Ideal) ℓ)
    (hpre : Cert.Pre_KernelIdeal m) (c : Dev Cert.KernelIdeal.nD) :
    shapeCast Cert.KernelIdeal.S8x512 (Cert.KernelIdeal.Hand.outArr m c) Cert.KernelIdeal.Gen.shapeCasts_S4096x1_S8x512
      = Cert.ReferenceIdeal.Hand.tokArr (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  funext i
  obtain ⟨b, t, rfl⟩ : ∃ (b : Fin 8) (t : Fin 512), i = ix2 b t := ⟨i 0, i 1, eq_ix2 i⟩
  obtain ⟨j, hj, hrow⟩ := Cert.Glue.row_bridge (hpre c) (Cert.Glue.rowOf b t)
  rw [Cert.Glue.Tof_rowOf] at hj
  rw [Cert.ReferenceIdeal.Hand.tokArr_apply _ _ _ _ b t j hj]
  exact (Cert.KernelIdeal.HandValue.final_relaid m c b t).trans hrow

/-- From memories that agree on the arguments the two idealized programs end with the same loss. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2, ← tokens_eq m hpre c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
